-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S1000x128 : Shape := ⟨2, ![1000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : IVec S16384 32) (main_arg2 : FVec F S1000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 1000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S16384 : Shape := ⟨1, ![16384]⟩
abbrev S1000x128 : Shape := ⟨2, ![1000, 128]⟩
abbrev S16384x1 : Shape := ⟨2, ![16384, 1]⟩
abbrev S1x1000 : Shape := ⟨2, ![1, 1000]⟩
abbrev S1000 : Shape := ⟨1, ![1000]⟩
abbrev S1000x1 : Shape := ⟨2, ![1000, 1]⟩
abbrev S128x1000 : Shape := ⟨2, ![128, 1000]⟩
abbrev S1000x1000 : Shape := ⟨2, ![1000, 1000]⟩
abbrev S2x1x1 : Shape := ⟨3, ![2, 1, 1]⟩
abbrev S512x128 : Shape := ⟨2, ![512, 128]⟩
abbrev S512x1 : Shape := ⟨2, ![512, 1]⟩
abbrev S1x1x1 : Shape := ⟨3, ![1, 1, 1]⟩
abbrev S1x1 : Shape := ⟨2, ![1, 1]⟩
abbrev S512 : Shape := ⟨1, ![512]⟩
abbrev S512x1000 : Shape := ⟨2, ![512, 1000]⟩
abbrev S1x512x1 : Shape := ⟨3, ![1, 512, 1]⟩
abbrev S1 : Shape := ⟨1, ![1]⟩
abbrev S_ : Shape := ⟨0, ![]⟩

abbrev nBuf : Space → Nat
  | .hbm => 18
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S16384x1, .i32⟩
  | .hbm, ⟨4, _⟩ => ⟨S1x1000, .f32⟩
  | .hbm, ⟨5, _⟩ => ⟨S2x1x1, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1000x128, .f32⟩
  | .local _ .vmem, ⟨1, _⟩ => ⟨S1x1000, .f32⟩
  | .local _ .vmem, ⟨2, _⟩ => ⟨S512x128, .f32⟩
  | .local _ .vmem, ⟨3, _⟩ => ⟨S512x128, .f32⟩
  | .local _ .vmem, ⟨4, _⟩ => ⟨S512x1, .i32⟩
  | .local _ .vmem, ⟨5, _⟩ => ⟨S512x1, .i32⟩
  | .local _ .vmem, ⟨6, _⟩ => ⟨S1000x128, .f32⟩
  | .local _ .vmem, ⟨7, _⟩ => ⟨S1x1000, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | .local _ .vmem, ⟨13, _⟩ => ⟨S1x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc1_scratch1 : Ref sig .tc := ⟨.vmem, 13, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v79 : BitVec 1 := Scalar.cmpi .eq arg1 c15_i32
  let v80 : BitVec 32 := Scalar.extui v79
  let c0_i32_30 : BitVec 32 := 0#32
  let v81 : BitVec 1 := Scalar.cmpi .ne v80 c0_i32_30
  v81

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S16384_S16384x1 : S16384.ShapeCasts S16384x1
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  reduces_S1000x128_S1000 : S1000x128.Reduces [1] S1000
  shapeCasts_S1000_S1000x1 : S1000.ShapeCasts S1000x1
  transposes_S1000x1_p1_0_S1x1000 : S1000x1.Transposes [1, 0] S1x1000
  transposes_S1000x128_p1_0_S128x1000 : S1000x128.Transposes [1, 0] S128x1000
  broadcasts_S1000x1_S1000x1000 : S1000x1.Broadcasts S1000x1000
  broadcasts_S1x1000_S1000x1000 : S1x1000.Broadcasts S1000x1000
  iota_S1000x1000_d0_w32 : S1000x1000.Iotas .tc 32 [0]
  iota_S1000x1000_d1_w32 : S1000x1000.Iotas .tc 32 [1]
  reduces_S1000x1000_S1000 : S1000x1000.Reduces [1] S1000
  inb_S1x1000_S1x1000_0_0 : ∀ a, (![0, 0] : Fin 2 → Nat) a + S1x1000.size a ≤ S1x1000.size a
  h_S1x1000 : 0 < S1x1000.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x1000 : S512x1.Broadcasts S512x1000
  broadcasts_S1x1000_S512x1000 : S1x1000.Broadcasts S512x1000
  reduces_S512x1000_S512 : S512x1000.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  natLt_1_32 : 1 < 32
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  shapeCasts_S1x1000_S1x1000 : S1x1000.ShapeCasts S1x1000
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  dot_S1000x128_S128x1000_S1000x1000_1_0_0_1_n_n_wf : DotDims.WF S1000x128 S128x1000 S1000x1000 [1] [0] [0] [1] [] []
  dot_S512x128_S128x1000_S512x1000_1_0_0_1_n_n_wf : DotDims.WF S512x128 S128x1000 S512x1000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S1000x128.size a
  hwx0_0 : ∀ i : grid0.Coords, EltTy.bits .f32 = 32 ∨ (Rect.block (s := S1000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000.size a ≤ S1x1000.size a
  hwx0_1 : ∀ i : grid0.Coords, EltTy.bits .f32 = 32 ∨ (Rect.block (s := S1x1000) S1x1000.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S16384x128.size a
  hwx1_0 : ∀ i : grid1.Coords, EltTy.bits .f32 = 32 ∨ (Rect.block (s := S16384x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S16384x1.size a
  hwx1_1 : ∀ i : grid1.Coords, EltTy.bits .i32 = 32 ∨ (Rect.block (s := S16384x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S1000x128.size a
  hwx1_2 : ∀ i : grid1.Coords, EltTy.bits .f32 = 32 ∨ (Rect.block (s := S1000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1000.size a ≤ S1x1000.size a
  hwx1_3 : ∀ i : grid1.Coords, EltTy.bits .f32 = 32 ∨ (Rect.block (s := S1x1000) S1x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x1.size a ≤ S2x1x1.size a
  hwx1_5 : ∀ i : grid1.Coords, EltTy.bits .f32 = 32 ∨ (Rect.block (s := S2x1x1) S1x1x1.size (cc1_transform_5 i) (hinb1_5 i)).WholeWords (EltTy.packing .f32)

variable [Facts₀]

def dot_S1000x128_S128x1000_S1000x1000_1_0_0_1_n_n : DotDims S1000x128 S128x1000 S1000x1000 where
  lhsContracting := [1]
  rhsContracting := [0]
  lhsNonContracting := [0]
  rhsNonContracting := [1]
  lhsBatch := []
  rhsBatch := []
  wf := dot_S1000x128_S128x1000_S1000x1000_1_0_0_1_n_n_wf
def dot_S512x128_S128x1000_S512x1000_1_0_0_1_n_n : DotDims S512x128 S128x1000 S512x1000 where
  lhsContracting := [1]
  rhsContracting := [0]
  lhsNonContracting := [0]
  rhsNonContracting := [1]
  lhsBatch := []
  rhsBatch := []
  wf := dot_S512x128_S128x1000_S512x1000_1_0_0_1_n_n_wf

abbrev win0_0 : Pipeline.Window sig grid0 :=
  Pipeline.Window.ofSpec (Memref.whole main_arg2) S1000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1x1x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1x1x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S128x1000 : Shape := ⟨2, ![128, 1000]⟩
abbrev S16384x1000 : Shape := ⟨2, ![16384, 1000]⟩
abbrev S1000 : Shape := ⟨1, ![1000]⟩
abbrev S1x1000 : Shape := ⟨2, ![1, 1000]⟩
abbrev S16384x2 : Shape := ⟨2, ![16384, 2]⟩
abbrev S1000x1 : Shape := ⟨2, ![1000, 1]⟩
abbrev S1000x1000 : Shape := ⟨2, ![1000, 1000]⟩

abbrev nBuf : Space → Nat
  | .hbm => 127
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S128x1000, .f32⟩
  | .hbm, ⟨8, _⟩ => ⟨S16384x1000, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S1000x128, .f32⟩
  | .hbm, ⟨15, _⟩ => ⟨S_, .f32⟩
  | .hbm, ⟨16, _⟩ => ⟨S1000, .f32⟩
  | .hbm, ⟨17, _⟩ => ⟨S1x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384x1000, .f32⟩
  | .hbm, ⟨22, _⟩ => ⟨S16384x1000, .f32⟩
  | .hbm, ⟨23, _⟩ => ⟨S16384x1000, .f32⟩
  | .hbm, ⟨24, _⟩ => ⟨S_, .f32⟩
  | .hbm, ⟨25, _⟩ => ⟨S16384x1000, .f32⟩
  | .hbm, ⟨26, _⟩ => ⟨S16384x1000, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x1000, .f32⟩
  | .hbm, ⟨34, _⟩ => ⟨S16384x1000, .f32⟩
  | .hbm, ⟨35, _⟩ => ⟨S16384x1000, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1, .f32⟩
  | .hbm, ⟨40, _⟩ => ⟨S16384x1000, .f32⟩
  | .hbm, ⟨41, _⟩ => ⟨S16384x1000, .f32⟩
  | .hbm, ⟨42, _⟩ => ⟨S16384, .i32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S16384x1, .i32⟩
  | .hbm, ⟨59, _⟩ => ⟨S16384x2, .i32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1000x128, .f32⟩
  | .hbm, ⟨67, _⟩ => ⟨S_, .f32⟩
  | .hbm, ⟨68, _⟩ => ⟨S1000, .f32⟩
  | .hbm, ⟨69, _⟩ => ⟨S1000x1, .f32⟩
  | .hbm, ⟨70, _⟩ => ⟨S128x1000, .f32⟩
  | .hbm, ⟨71, _⟩ => ⟨S1000x1000, .f32⟩
  | .hbm, ⟨72, _⟩ => ⟨S_, .f32⟩
  | .hbm, ⟨73, _⟩ => ⟨S1000x1000, .f32⟩
  | .hbm, ⟨74, _⟩ => ⟨S1000x1000, .f32⟩
  | .hbm, ⟨75, _⟩ => ⟨S1000x1000, .f32⟩
  | .hbm, ⟨76, _⟩ => ⟨S1000x1000, .f32⟩
  | .hbm, ⟨77, _⟩ => ⟨S1000x128, .f32⟩
  | .hbm, ⟨78, _⟩ => ⟨S_, .f32⟩
  | .hbm, ⟨79, _⟩ => ⟨S1000, .f32⟩
  | .hbm, ⟨80, _⟩ => ⟨S1x1000, .f32⟩
  | .hbm, ⟨81, _⟩ => ⟨S1000x1000, .f32⟩
  | .hbm, ⟨82, _⟩ => ⟨S1000x1000, .f32⟩
  | .hbm, ⟨83, _⟩ => ⟨S1000x1000, .i32⟩
  | .hbm, ⟨84, _⟩ => ⟨S1000x1000, .i32⟩
  | .hbm, ⟨85, _⟩ => ⟨S_, .i32⟩
  | .hbm, ⟨86, _⟩ => ⟨S1000x1000, .i32⟩
  | .hbm, ⟨87, _⟩ => ⟨S1000x1000, .i32⟩
  | .hbm, ⟨88, _⟩ => ⟨S1000x1000, .i1⟩
  | .hbm, ⟨89, _⟩ => ⟨S1000x1000, .i1⟩
  | .hbm, ⟨90, _⟩ => ⟨S_, .f32⟩
  | .hbm, ⟨91, _⟩ => ⟨S1000x1000, .f32⟩
  | .hbm, ⟨92, _⟩ => ⟨S1000x1000, .f32⟩
  | .hbm, ⟨93, _⟩ => ⟨S_, .f32⟩
  | .hbm, ⟨94, _⟩ => ⟨S_, .f32⟩
  | .hbm, ⟨95, _⟩ => ⟨S1000x1000, .f32⟩
  | .hbm, ⟨96, _⟩ => ⟨S1000x1000, .f32⟩
  | .hbm, ⟨97, _⟩ => ⟨S1000x1000, .f32⟩
  | .hbm, ⟨98, _⟩ => ⟨S1000x1000, .f32⟩
  | .hbm, ⟨99, _⟩ => ⟨S1000x1000, .f32⟩
  | .hbm, ⟨100, _⟩ => ⟨S_, .f32⟩
  | .hbm, ⟨101, _⟩ => ⟨S1000, .f32⟩
  | .hbm, ⟨102, _⟩ => ⟨S_, .f32⟩
  | .hbm, ⟨103, _⟩ => ⟨S1000, .f32⟩
  | .hbm, ⟨104, _⟩ => ⟨S1000, .f32⟩
  | .hbm, ⟨105, _⟩ => ⟨S_, .i32⟩
  | .hbm, ⟨106, _⟩ => ⟨S16384, .i32⟩
  | .hbm, ⟨107, _⟩ => ⟨S16384, .i1⟩
  | .hbm, ⟨108, _⟩ => ⟨S_, .i32⟩
  | .hbm, ⟨109, _⟩ => ⟨S16384, .i32⟩
  | .hbm, ⟨110, _⟩ => ⟨S16384, .i32⟩
  | .hbm, ⟨111, _⟩ => ⟨S16384, .i32⟩
  | .hbm, ⟨112, _⟩ => ⟨S16384x1, .i32⟩
  | .hbm, ⟨113, _⟩ => ⟨S16384, .f32⟩
  | .hbm, ⟨114, _⟩ => ⟨S_, .f32⟩
  | .hbm, ⟨115, _⟩ => ⟨S16384, .f32⟩
  | .hbm, ⟨116, _⟩ => ⟨S16384, .f32⟩
  | .hbm, ⟨117, _⟩ => ⟨S_, .f32⟩
  | .hbm, ⟨118, _⟩ => ⟨S16384, .f32⟩
  | .hbm, ⟨119, _⟩ => ⟨S16384, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_12 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_c_17 : Ref sig .tc := ⟨.hbm, 105, rfl⟩
abbrev main_v67 : Ref sig .tc := ⟨.hbm, 106, rfl⟩
abbrev main_v68 : Ref sig .tc := ⟨.hbm, 107, rfl⟩
abbrev main_c_18 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_19 : Ref sig .tc := ⟨.hbm, 114, rfl⟩
abbrev main_v74 : Ref sig .tc := ⟨.hbm, 115, rfl⟩
abbrev main_v75 : Ref sig .tc := ⟨.hbm, 116, rfl⟩
abbrev main_cst_20 : Ref sig .tc := ⟨.hbm, 117, rfl⟩
abbrev main_v76 : Ref sig .tc := ⟨.hbm, 118, rfl⟩
abbrev main_v77 : Ref sig .tc := ⟨.hbm, 119, rfl⟩
abbrev main_cst_21 : Ref sig .tc := ⟨.hbm, 120, rfl⟩
abbrev main_v78 : Ref sig .tc := ⟨.hbm, 121, rfl⟩
abbrev main_cst_22 : Ref sig .tc := ⟨.hbm, 122, rfl⟩
abbrev main_v79 : Ref sig .tc := ⟨.hbm, 123, rfl⟩
abbrev main_cst_23 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  transposes_S1000x128_S128x1000_1_0 : S1000x128.Transposes [1, 0] S128x1000
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  reducesTo_S1000x128_S1000_d1 : S1000x128.ReducesTo [1] S1000
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  reducesTo_S16384x1000_S16384_d1 : S16384x1000.ReducesTo [1] S16384
  bcast_S_S16384 : S_.BroadcastsInDim S16384 (![] : Fin 0 → Fin S16384.rank)
  concatenates_S16384x1_S16384x1_S16384x2_d1 : Shape.Concatenates [S16384x1, S16384x1] S16384x2 1
  reducesTo_S16384_S_d0 : S16384.ReducesTo [0] S_
  bcast_S1000_S1000x1_0 : S1000.BroadcastsInDim S1000x1 (![0] : Fin 1 → Fin S1000x1.rank)
  bcast_S_S1000x1000 : S_.BroadcastsInDim S1000x1000 (![] : Fin 0 → Fin S1000x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  reducesTo_S1000x1000_S1000_d1 : S1000x1000.ReducesTo [1] S1000
  bcast_S_S1000 : S_.BroadcastsInDim S1000 (![] : Fin 0 → Fin S1000.rank)
  dot_S16384x128_S128x1000_S16384x1000_1_0_0_1_n_n_wf : DotDims.WF S16384x128 S128x1000 S16384x1000 [1] [0] [0] [1] [] []
  gather_S16384x1000_S16384x2_S16384_n_01_n_n_01_1_11_wf : GatherDims.WF S16384x1000 S16384x2 S16384 [] [0, 1] [] [0, 1] [] 1 ![1, 1]
  dot_S1000x128_S128x1000_S1000x1000_1_0_0_1_n_n_wf : DotDims.WF S1000x128 S128x1000 S1000x1000 [1] [0] [0] [1] [] []
  gather_S1000_S16384x1_S16384_n_0_n_n_0_1_1_wf : GatherDims.WF S1000 S16384x1 S16384 [] [0] [] [0] [] 1 ![1]

variable [Facts₀]

def dot_S16384x128_S128x1000_S16384x1000_1_0_0_1_n_n : DotDims S16384x128 S128x1000 S16384x1000 where
  lhsContracting := [1]
  rhsContracting := [0]
  lhsNonContracting := [0]
  rhsNonContracting := [1]
  lhsBatch := []
  rhsBatch := []
  wf := dot_S16384x128_S128x1000_S16384x1000_1_0_0_1_n_n_wf
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def dot_S1000x128_S128x1000_S1000x1000_1_0_0_1_n_n : DotDims S1000x128 S128x1000 S1000x1000 where
  lhsContracting := [1]
  rhsContracting := [0]
  lhsNonContracting := [0]
  rhsNonContracting := [1]
  lhsBatch := []
  rhsBatch := []
  wf := dot_S1000x128_S128x1000_S1000x1000_1_0_0_1_n_n_wf
def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf

class Facts : Prop extends Facts₀ where

variable [Facts]
-- ==== Proof.BDefs.lean ====
/-
  The two kernel regions of the program, as data: what each region's staging buffers hold after the body at each grid
  point, stated outright as functions of the blocks the region reads, and what the program's buffers hold at each
  boundary between the stretches of host operations and the regions.

  Region 0 runs once: its one output block is the row-mean payload of the centres' block.  Region 1 runs over a grid of
  2 × 16 points, point `n` being tile `n` of 512 feature rows; it carries two one-element accumulators from point to
  point: at a point whose second coordinate is 0 (`n % 16 = 0`) they restart from zero, at every point the point's two
  partial sums are added, and at a point whose second coordinate is 15 the accumulators are copied into the two output
  blocks of the point's first coordinate.  `accAt1` is that recursion; an output block's contents are stated at every
  point as the copy of the accumulator, which is what the body stores where it stores at all (elsewhere the block is
  idle and is not written back, so the value there is never consulted).
-/
import proofs.«416808_j65412351918314_2_alg».proof.Proof.Gen.Kernel.Launch
import proofs.«416808_j65412351918314_2_alg».proof.Proof.Gen.Kernel.Skeleton
import proofs.«416808_j65412351918314_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: the centres' row means -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The centres' block, at its literal type. -/
abbrev cen0 (c : Dev nD) (t : Fin cfg0.N) : Vec F S1000x128 .f32 := iblk0 V c 0 t

/-- Region 0's proof data: the input block stays, the output block is the row-mean payload of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (cen0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (cen0 V c t) := by dsimp only [dat0]

/-! ## Region 1: the per-tile partial sums and their accumulation -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's feature tile, label tile, the centres and the row means, at their literal types. -/
abbrev feat1 (c : Dev nD) (t : Fin cfg1.N) : Vec F S512x128 .f32 := iblk1 V c 0 t
abbrev lab1 (c : Dev nD) (t : Fin cfg1.N) : Vec F S512x1 .i32 := iblk1 V c 1 t
abbrev cen1 (c : Dev nD) (t : Fin cfg1.N) : Vec F S1000x128 .f32 := iblk1 V c 2 t
abbrev rm1 (c : Dev nD) (t : Fin cfg1.N) : Vec F S1x1000 .f32 := iblk1 V c 3 t

/-- One point's update of the cross-entropy accumulator `s`: `s` plus the tile's sum of row terms. -/
def step8 (x0 : Vec F S512x128 .f32) (x1 : Vec F S512x1 .i32) (x2 : Vec F S1000x128 .f32) (s : Vec F S1x1 .f32) : Vec F S1x1 .f32 :=
  k1_pay9 (k1_pay5 x0 x2) (k1_pay6 x0 x2) (k1_pay7 (F := F) x1) s

/-- One point's update of the contrastive accumulator `s`. -/
def step9 (x1 : Vec F S512x1 .i32) (x3 : Vec F S1x1000 .f32) (s : Vec F S1x1 .f32) : Vec F S1x1 .f32 :=
  k1_pay10 (k1_pay7 (F := F) x1) x3 s

/-- THE ACCUMULATION: the two accumulators after the body at position `n` — restarted from zero where `n % 16 = 0`,
    else continued from position `n - 1`. -/
def accAt1 (c : Dev nD) : (n : ℕ) → n < cfg1.N → Vec F S1x1 .f32 × Vec F S1x1 .f32
  | 0, hn => (step8 (feat1 V c ⟨0, hn⟩) (lab1 V c ⟨0, hn⟩) (cen1 V c ⟨0, hn⟩) (k1_pay3 (F := F)),
      step9 (lab1 V c ⟨0, hn⟩) (rm1 V c ⟨0, hn⟩) (k1_pay4 (F := F)))
  | n + 1, hn =>
    if (n + 1) % 16 = 0 then
      (step8 (feat1 V c ⟨n + 1, hn⟩) (lab1 V c ⟨n + 1, hn⟩) (cen1 V c ⟨n + 1, hn⟩) (k1_pay3 (F := F)),
        step9 (lab1 V c ⟨n + 1, hn⟩) (rm1 V c ⟨n + 1, hn⟩) (k1_pay4 (F := F)))
    else
      (step8 (feat1 V c ⟨n + 1, hn⟩) (lab1 V c ⟨n + 1, hn⟩) (cen1 V c ⟨n + 1, hn⟩) (accAt1 c n (Nat.lt_of_succ_lt hn)).1,
        step9 (lab1 V c ⟨n + 1, hn⟩) (rm1 V c ⟨n + 1, hn⟩) (accAt1 c n (Nat.lt_of_succ_lt hn)).2)

/-- At a restart point. -/
theorem accAt1_reset (c : Dev nD) (t : Fin cfg1.N) (h : t.val % 16 = 0) :
    accAt1 V c t.val t.isLt = (step8 (feat1 V c t) (lab1 V c t) (cen1 V c t) (k1_pay3 (F := F)),
      step9 (lab1 V c t) (rm1 V c t) (k1_pay4 (F := F))) := by
  obtain ⟨n, hn⟩ := t
  cases n with
  | zero => rfl
  | succ n => exact if_pos h

/-- At a continuing point. -/
theorem accAt1_cont (c : Dev nD) (t : Fin cfg1.N) (h : ¬ t.val % 16 = 0) :
    accAt1 V c t.val t.isLt
      = (step8 (feat1 V c t) (lab1 V c t) (cen1 V c t) (accAt1 V c (t.val - 1) (Nat.lt_of_le_of_lt (Nat.sub_le _ _) t.isLt)).1,
        step9 (lab1 V c t) (rm1 V c t) (accAt1 V c (t.val - 1) (Nat.lt_of_le_of_lt (Nat.sub_le _ _) t.isLt)).2) := by
  obtain ⟨n, hn⟩ := t
  cases n with
  | zero => exact absurd (Nat.zero_mod _) h
  | succ n => exact if_neg h

/-- The kernel's two scratch operands, whole scoped buffers of its own. -/
abbrev scM1_0 : Memref sig .tc .vmem S1x1 .f32 := Memref.whole cc1_scratch0
abbrev scM1_1 : Memref sig .tc .vmem S1x1 .f32 := Memref.whole cc1_scratch1

/-- The region invariant before position `n`: before the first point what the launch hands the region (every scoped
    buffer that is no staging buffer of this region at anything, the generator register at some state); afterwards the
    same with the two accumulators at what the point before left. -/
def PhiS1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1_0 fullShare (accAt1 V c n hn).1
      ∗ owns (c : Thread nD τ) scM1_1 fullShare (accAt1 V c n hn).2
      ∗ (∃ r, prngReg c r))

/-- Region 1's proof data: the four input blocks stay; each output block is the copy of its accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (accAt1 V c t.val t.isLt).1
    | ⟨5, _⟩ => k1_pay2 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (accAt1 V c t.val t.isLt).1 := by dsimp only [dat1]
theorem after1_5 (c : Dev nD) (t : Fin cfg1.N) : (dat1 V c).after 5 t = k1_pay2 (accAt1 V c t.val t.isLt).2 := by dsimp only [dat1]

end Regions

/-! ## The buffers' contents at each boundary of @main: a fold from the launch memory -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch before the regions (the labels reshaped to a column). -/
abbrev W1 : Dev nD → Valuation τ sig (Elt F) := fun c => StableHlo.after hostOps0 (W0 m ρ c)
/-- The same read at the TensorCore's references: region 0's entry contents. -/
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
/-- The same read at the TensorCore's references: region 1's entry contents (no host operation lies between). -/
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the host stretch that follows the regions: the program's end. -/
abbrev W4 : Dev nD → Valuation τ sig (Elt F) := fun c => StableHlo.after hostOps2 (W3 m ρ c)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

end Cert.Kernel.Hand

end
-- ==== Proof.BReg0.lean ====
/-
  Region 0 of the program, the kernel that computes the centres' row means: its body, run on whole staging buffers,
  leaves the centres' block as it was and the output block at the row-mean payload of it — at every grid point (there
  is one).
-/
import proofs.«416808_j65412351918314_2_alg».proof.Proof.BDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The centres' staging buffer holds the centres' block at the point, fetched there or not: the window is uncut and
    never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body reads the centres' buffer and writes the row-means' buffer through their whole rectangles, whose offsets
    are zero on every axis. -/
theorem offs0_zero : (![0, 0] : Fin 2 → Nat) = fun _ => 0 := funext fun a => by fin_cases a <;> rfl

set_option maxHeartbeats 1000000 in
/-- The body on whole staging memrefs, the centres' at contents `x0` and the output's at anything, runs to the
    continuation holding the centres' as they were and the output's at the row-mean payload of `x0`. -/
theorem sound_kernel0 (c : Dev nD) (E : Set ℕ) (i : grid0.Coords) (arg1 : Memref sig .tc .vmem S1000x128 .f32) (harg1 : arg1.IsWhole)
    (arg2 : Memref sig .tc .vmem S1x1000 .f32) (harg2 : arg2.IsWhole)
    (x0 : Vec F S1000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0_centers_kernel i arg1 harg1 arg2 harg2) K := by
  simp only [cc0_centers_kernel_eq_skeleton]; unfold cc0_centers_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero (S := S1x1000) offs0_zero inb_S1x1000_S1x1000_0_0 y⟩),
    View.canon_unit_zero (S := S1x1000) offs0_zero inb_S1x1000_S1x1000_0_0, View.readAt_eq_ld,
    View.ld_unit_zero (S := S1000x128) offs0_zero inb_S1000x128_S1000x128_0_0]

/-- The centres' staging buffer holds the centres' block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the centres' memref holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0's proof data, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1Runs.lean ====
/-
  Region 1's body, run in each of the three control cases its two conditionals meet on the grid.

  The second grid coordinate decides both conditionals: where it is 0 the two accumulators are zeroed first (a restart),
  where it is 15 they are copied into the two output blocks last (a copy-out); the closed forms over the 32 points are
  position ≡ 0 and position ≡ 15 modulo 16. In every case the body reads its four input blocks, leaves them as they
  were, and advances each accumulator by one step: `step8` of the feature, label and centre blocks, `step9` of the
  label block and the row means. Each triple below is stated over whole memrefs and explicit contents: every store of
  the body writes a whole buffer, so what a buffer holds afterwards is the payload of its last store, and a load that
  follows a store in the same run reads that store's payload.

  Also here: at which points the windows are idle (the outputs everywhere but at the copy-out points, where alone
  they are written back), and the staging memrefs the pipeline passes the body at a point.
-/
import proofs.«416808_j65412351918314_2_alg».proof.Proof.BDefs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The restart condition of the body, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out condition of the body. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the copy-out points the two outputs are idle and are not written back; -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- at the copy-out points they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-- Each window's current staging memref at point `t`, as the pipeline passes it to the body, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)

/-! ## Whole-buffer stores read back -/

/-- A whole-buffer piece, last in a list of writes, covers every index. -/
theorem cover_unit_zero {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- What any view reads after writes whose last is a whole-buffer store: that store's payload. -/
theorem read_writes_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (cover_unit_zero h inb w L), View.canon_cons_unit_zero h inb w L]

/-! ## The body's triple, case by case -/

set_option maxHeartbeats 1000000 in
/-- The body at a restart point: whatever the accumulators held, each is zeroed and then takes the point's partial sum;
    the inputs stay and the two output blocks are not touched. -/
theorem run1_A (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : cond1_0 i) (hc1 : ¬cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xi5
            ∗ owns (c : Thread nD τ) arg8 fullShare (step8 x0 x1 x2 (k1_pay3 (F := F))) ∗ owns (c : Thread nD τ) arg9 fullShare (step9 x1 x3 (k1_pay4 (F := F)))) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl

set_option maxHeartbeats 1000000 in
/-- The body at a point that neither restarts nor copies out: the inputs stay, the two output blocks are not touched,
    each accumulator takes the point's partial sum. -/
theorem run1_B (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : ¬cond1_0 i) (hc1 : ¬cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xi5
            ∗ owns (c : Thread nD τ) arg8 fullShare (step8 x0 x1 x2 s8) ∗ owns (c : Thread nD τ) arg9 fullShare (step9 x1 x3 s9)) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2]
    rfl

set_option maxHeartbeats 1000000 in
/-- The body at a copy-out point: the inputs stay, each accumulator takes the point's partial sum and is then copied
    into its output block, whatever that block held. -/
theorem run1_C (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : ¬cond1_0 i) (hc1 : cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay1 (step8 x0 x1 x2 s8)) ∗ owns (c : Thread nD τ) arg7 fullShare (k1_pay2 (step9 x1 x3 s9))
            ∗ owns (c : Thread nD τ) arg8 fullShare (step8 x0 x1 x2 s8) ∗ owns (c : Thread nD τ) arg9 fullShare (step9 x1 x3 s9)) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [read_writes_unit_zero _ _ hz3]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  isplitl [H5]
  · iexists _; isplitr
    swap; · iexact H5
    ipureintro
    sl_unfold_words
    rw [read_writes_unit_zero _ _ hz3]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl

end Cert.Kernel.Hand

end
-- ==== Proof.BReg1.lean ====
/-
  Region 1 of the program, the kernel that adds each tile's partial sums into its two accumulators: its body at every
  grid point, whichever of the three control cases the point is in (restart, continue, continue and copy out), takes the
  accumulators from what the point before left to what `accAt1` says, leaves the four input blocks as they were, and at
  the last point of a row of the grid stores the accumulators into the two output blocks.
-/
import proofs.«416808_j65412351918314_2_alg».proof.Proof.BReg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, arm by arm -/

/-- What the launch hands the region, its scoped buffers one by one: the two staging buffers of the other region and the
    two accumulators, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem PhiS1_zero (c : Dev nD) (n : ℕ) (h : n ≤ cfg1.N) (hz : n = 0) : PhiS1 V c n h = Pipeline.ΦA spec1 c := by
  subst hz; rfl

/-- After point `n`: the accumulators at that point's values. -/
theorem PhiS1_succ (c : Dev nD) (n : ℕ) (hn : n < cfg1.N) :
    PhiS1 V c (n + 1) hn = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
      ∗ owns (c : Thread nD τ) scM1_0 fullShare (accAt1 V c n hn).1 ∗ owns (c : Thread nD τ) scM1_1 fullShare (accAt1 V c n hn).2
      ∗ (∃ r, prngReg c r)) := rfl

/-- Before a point that is not the first: the accumulators at what the point before left. -/
theorem PhiS1_pos (c : Dev nD) (n : ℕ) (h : n ≤ cfg1.N) (hz : n ≠ 0) :
    PhiS1 V c n h = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
      ∗ owns (c : Thread nD τ) scM1_0 fullShare (accAt1 V c (n - 1) (by omega)).1 ∗ owns (c : Thread nD τ) scM1_1 fullShare (accAt1 V c (n - 1) (by omega)).2
      ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = PhiS1 V c t.val (Nat.le_of_lt t.isLt) := by
  dsimp only [dat1]; simp only [Fin.coe_castSucc]

/-! ## What the body finds in the inputs' buffers -/

/-- Each input's current staging buffer holds its block at every point, fetched there or not: where it is not fetched
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- An input's buffer is left at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
/-- At a copy-out point an output's buffer is left at the copy of its accumulator. -/
theorem leaves1_4 (c : Dev nD) (t : Fin cfg1.N) (h : cond1_1 (grid1.coords t)) :
    (dat1 V c).leavesExact 4 t = owns (c : Thread nD τ) (ms1_4 t) fullShare (k1_pay1 (accAt1 V c t.val t.isLt).1) := by
  unfold Dat.leavesExact; rw [liveAt1_4 t h, after1_4]
theorem leaves1_5 (c : Dev nD) (t : Fin cfg1.N) (h : cond1_1 (grid1.coords t)) :
    (dat1 V c).leavesExact 5 t = owns (c : Thread nD τ) (ms1_5 t) fullShare (k1_pay2 (accAt1 V c t.val t.isLt).2) := by
  unfold Dat.leavesExact; rw [liveAt1_5 t h, after1_5]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point. The inputs' buffers hold the point's blocks; the position modulo 16 says which of the three
    control cases the point is in, and that case's run applies: at a restart the accumulators are taken at whatever
    they hold (the launch's contents at the first point, the previous row's totals later) and left at one step from
    zero; elsewhere they are taken at what the point before left and advanced by one step, which is the recursion of
    `accAt1`; the outputs' buffers come back untouched where they are idle and hold the copies of the accumulators at
    the copy-out points. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1),
      Dat.leavesExact_idle (dat1 V c) 5 t (idleAt1_5 t hc1) (noFlush1_5 t hc1)]
    rw [accAt1_reset V c t h0]; dsimp only
    by_cases hz : t.val = 0
    · rw [Phi1_castSucc V c t, PhiS1_zero V c _ _ hz, PhiA1_eq]
      iintro ⟨⟨⟨Ha, Hb, ⟨%d8, HS0⟩, ⟨%d9, HS1⟩⟩, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) d8 d9 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    have hc0 : ¬cond1_0 (grid1.coords t) := fun h => h0 ((hcond1_0 t).mp h)
    by_cases h1 : t.val % 16 = 15
    · have hc1 : cond1_1 (grid1.coords t) := (hcond1_1 t).mpr h1
      rw [leaves1_4 V c t hc1, leaves1_5 V c t hc1]
      rw [accAt1_cont V c t h0]; dsimp only
      rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 4 t (idleAt1_4 t hc1) (noFlush1_4 t hc1),
        Dat.leavesExact_idle (dat1 V c) 5 t (idleAt1_5 t hc1) (noFlush1_5 t hc1)]
      rw [accAt1_cont V c t h0]; dsimp only
      rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation for region 1's proof data, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's resources back: the accumulators' contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨Ha, Hb, HS0, HS1, Hg⟩
  isplitr [Hg]
  · isplitl [Ha]; · iexact Ha
    isplitl [Hb]; · iexact Hb
    isplitl [HS0]; · iexists _; iexact HS0
    iexists _; iexact HS1
  iexact Hg

end Cert.Kernel.Hand

end
-- ==== Proof.BRun.lean ====
/-
  THE RUN of @main: the program is four stretches in order — one host operation (the labels reshaped to a column),
  region 0 (the centres' row means), region 1 (the accumulated partial sums), and eleven host scalar operations (the
  two sums reduced, divided and combined). Each stretch is entered from every unscoped buffer of the core held at the
  contents the fold `W0 … W4` gives for that boundary, beside the generator register at some state and the core owing
  nothing; a region splits its windows' arrays out of those buffers, runs its pipeline, and puts the arrays back at what
  the write-backs leave. The launch theorem for several regions then says every fair execution ends, with every
  unscoped buffer at `W4`. The three argument arrays are written by no stretch, so `W4` at each of them walks back
  through the fold to the launch memory.
-/
import proofs.«416808_j65412351918314_2_alg».proof.Proof.BReg0
import proofs.«416808_j65412351918314_2_alg».proof.Proof.BReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold at a region's exit: its arrays at what the write-backs leave, every other buffer as entered -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's arrays at its exit are what its pipeline leaves; -/
theorem hF0 (c : Dev nD) (w : Fin cfg0.W) : (dat0 (V1 m ρ) c).arrAt w cfg0.N = V2 m ρ c (Pipeline.arrRef spec0 w) :=
  (W2_arr m ρ c w).symm
/-- every other buffer is as the region found it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's arrays at its exit are what its pipeline leaves; -/
theorem hF1 (c : Dev nD) (w : Fin cfg1.W) : (dat1 (V2 m ρ) c).arrAt w cfg1.N = V3 m ρ c (Pipeline.arrRef spec1 w) :=
  (W3_arr m ρ c w).symm
/-- every other buffer is as the region found it. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation writes an argument: the first stretch writes the reshaped labels only, the last the scalar
temporaries and the result. Region 1 reads the features (window 0) and the centres (window 2) through input windows,
which leave an array as found, and does not touch the labels (it reads their reshaped copy); region 0 reads the centres
through its input window 0 and touches neither of the other two. -/

/-- The first host stretch leaves every buffer but the reshaped labels. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of_ne m ρ c main_arg2 (by decide)
    _ = m ((c : Thread nD τ).loc main_arg2) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its debt,
    which is nothing. -/
abbrev R (c : Dev nD) : sProp 𝕄 := iprop((∃ r, prngReg c r) ∗ ∃ W, owes (c : Thread nD τ) (0 : CellTallies nD τ sig Unit) W)
/-- A stretch of host operations from the contents `W`: it holds every unscoped buffer, runs to the same buffers at the
    contents the operations leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as stretches of the run -/

set_option backward.isDefEq.respectTransparency.types false in
/-- REGION 0: entered from every unscoped buffer at `W1`, left at `W2`. Its two arrays are split out of the unscoped
    buffers and put back at the exit contents; the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W2` (no host operation lies between the regions), left at `W3`.
    What the launch hands the kernel — the generator register and the scoped buffers that are no staging buffer of it —
    is the invariant before the first point; after the last point the invariant gives the same back, the two
    accumulators at contents no longer of interest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four stretches, and the launch -/

/-- What the last host stretch leaves is the last thread state beside the core owing nothing: the same three parts,
    grouped the other way. -/
theorem hlast (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's four stretches in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the stretches. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer of every core holds what the fold gives at the
    program's end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every fair execution of @main terminates, nothing faulting, and every final state has the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.KDefs.lean ====
/-
  The two kernel regions of the program, as data: what each region's staging buffers hold after the body at each grid
  point, stated outright as functions of the blocks the region reads, and what the program's buffers hold at each
  boundary between the stretches of host operations and the regions.

  Region 0 runs once: its one output block is the row-mean payload of the centres' block.  Region 1 runs over a grid of
  2 × 16 points, point `n` being tile `n` of 512 feature rows; it carries two one-element accumulators from point to
  point: at a point whose second coordinate is 0 (`n % 16 = 0`) they restart from zero, at every point the point's two
  partial sums are added, and at a point whose second coordinate is 15 the accumulators are copied into the two output
  blocks of the point's first coordinate.  `accAt1` is that recursion; an output block's contents are stated at every
  point as the copy of the accumulator, which is what the body stores where it stores at all (elsewhere the block is
  idle and is not written back, so the value there is never consulted).
-/
import proofs.«416808_j65412351918314_2_alg».proof.Proof.Gen.KernelIdeal.Launch
import proofs.«416808_j65412351918314_2_alg».proof.Proof.Gen.KernelIdeal.Skeleton
import proofs.«416808_j65412351918314_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! ## Region 0: the centres' row means -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The centres' block, at its literal type. -/
abbrev cen0 (c : Dev nD) (t : Fin cfg0.N) : Vec F S1000x128 .f32 := iblk0 V c 0 t

/-- Region 0's proof data: the input block stays, the output block is the row-mean payload of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (cen0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (cen0 V c t) := by dsimp only [dat0]

/-! ## Region 1: the per-tile partial sums and their accumulation -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's feature tile, label tile, the centres and the row means, at their literal types. -/
abbrev feat1 (c : Dev nD) (t : Fin cfg1.N) : Vec F S512x128 .f32 := iblk1 V c 0 t
abbrev lab1 (c : Dev nD) (t : Fin cfg1.N) : Vec F S512x1 .i32 := iblk1 V c 1 t
abbrev cen1 (c : Dev nD) (t : Fin cfg1.N) : Vec F S1000x128 .f32 := iblk1 V c 2 t
abbrev rm1 (c : Dev nD) (t : Fin cfg1.N) : Vec F S1x1000 .f32 := iblk1 V c 3 t

/-- One point's update of the cross-entropy accumulator `s`: `s` plus the tile's sum of row terms. -/
def step8 (x0 : Vec F S512x128 .f32) (x1 : Vec F S512x1 .i32) (x2 : Vec F S1000x128 .f32) (s : Vec F S1x1 .f32) : Vec F S1x1 .f32 :=
  k1_pay9 (k1_pay5 x0 x2) (k1_pay6 x0 x2) (k1_pay7 (F := F) x1) s

/-- One point's update of the contrastive accumulator `s`. -/
def step9 (x1 : Vec F S512x1 .i32) (x3 : Vec F S1x1000 .f32) (s : Vec F S1x1 .f32) : Vec F S1x1 .f32 :=
  k1_pay10 (k1_pay7 (F := F) x1) x3 s

/-- THE ACCUMULATION: the two accumulators after the body at position `n` — restarted from zero where `n % 16 = 0`,
    else continued from position `n - 1`. -/
def accAt1 (c : Dev nD) : (n : ℕ) → n < cfg1.N → Vec F S1x1 .f32 × Vec F S1x1 .f32
  | 0, hn => (step8 (feat1 V c ⟨0, hn⟩) (lab1 V c ⟨0, hn⟩) (cen1 V c ⟨0, hn⟩) (k1_pay3 (F := F)),
      step9 (lab1 V c ⟨0, hn⟩) (rm1 V c ⟨0, hn⟩) (k1_pay4 (F := F)))
  | n + 1, hn =>
    if (n + 1) % 16 = 0 then
      (step8 (feat1 V c ⟨n + 1, hn⟩) (lab1 V c ⟨n + 1, hn⟩) (cen1 V c ⟨n + 1, hn⟩) (k1_pay3 (F := F)),
        step9 (lab1 V c ⟨n + 1, hn⟩) (rm1 V c ⟨n + 1, hn⟩) (k1_pay4 (F := F)))
    else
      (step8 (feat1 V c ⟨n + 1, hn⟩) (lab1 V c ⟨n + 1, hn⟩) (cen1 V c ⟨n + 1, hn⟩) (accAt1 c n (Nat.lt_of_succ_lt hn)).1,
        step9 (lab1 V c ⟨n + 1, hn⟩) (rm1 V c ⟨n + 1, hn⟩) (accAt1 c n (Nat.lt_of_succ_lt hn)).2)

/-- At a restart point. -/
theorem accAt1_reset (c : Dev nD) (t : Fin cfg1.N) (h : t.val % 16 = 0) :
    accAt1 V c t.val t.isLt = (step8 (feat1 V c t) (lab1 V c t) (cen1 V c t) (k1_pay3 (F := F)),
      step9 (lab1 V c t) (rm1 V c t) (k1_pay4 (F := F))) := by
  obtain ⟨n, hn⟩ := t
  cases n with
  | zero => rfl
  | succ n => exact if_pos h

/-- At a continuing point. -/
theorem accAt1_cont (c : Dev nD) (t : Fin cfg1.N) (h : ¬ t.val % 16 = 0) :
    accAt1 V c t.val t.isLt
      = (step8 (feat1 V c t) (lab1 V c t) (cen1 V c t) (accAt1 V c (t.val - 1) (Nat.lt_of_le_of_lt (Nat.sub_le _ _) t.isLt)).1,
        step9 (lab1 V c t) (rm1 V c t) (accAt1 V c (t.val - 1) (Nat.lt_of_le_of_lt (Nat.sub_le _ _) t.isLt)).2) := by
  obtain ⟨n, hn⟩ := t
  cases n with
  | zero => exact absurd (Nat.zero_mod _) h
  | succ n => exact if_neg h

/-- The kernel's two scratch operands, whole scoped buffers of its own. -/
abbrev scM1_0 : Memref sig .tc .vmem S1x1 .f32 := Memref.whole cc1_scratch0
abbrev scM1_1 : Memref sig .tc .vmem S1x1 .f32 := Memref.whole cc1_scratch1

/-- The region invariant before position `n`: before the first point what the launch hands the region (every scoped
    buffer that is no staging buffer of this region at anything, the generator register at some state); afterwards the
    same with the two accumulators at what the point before left. -/
def PhiS1 (c : Dev nD) : (n : ℕ) → n ≤ cfg1.N → sProp 𝕄
  | 0, _ => Pipeline.ΦA spec1 c
  | n + 1, hn => iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ owns (c : Thread nD τ) scM1_0 fullShare (accAt1 V c n hn).1
      ∗ owns (c : Thread nD τ) scM1_1 fullShare (accAt1 V c n hn).2
      ∗ (∃ r, prngReg c r))

/-- Region 1's proof data: the four input blocks stay; each output block is the copy of its accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (accAt1 V c t.val t.isLt).1
    | ⟨5, _⟩ => k1_pay2 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (accAt1 V c t.val t.isLt).1 := by dsimp only [dat1]
theorem after1_5 (c : Dev nD) (t : Fin cfg1.N) : (dat1 V c).after 5 t = k1_pay2 (accAt1 V c t.val t.isLt).2 := by dsimp only [dat1]

end Regions

/-! ## The buffers' contents at each boundary of @main: a fold from the launch memory -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch before the regions (the labels reshaped to a column). -/
abbrev W1 : Dev nD → Valuation τ sig (Elt F) := fun c => StableHlo.after hostOps0 (W0 m ρ c)
/-- The same read at the TensorCore's references: region 0's entry contents. -/
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
/-- The same read at the TensorCore's references: region 1's entry contents (no host operation lies between). -/
abbrev V2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the host stretch that follows the regions: the program's end. -/
abbrev W4 : Dev nD → Valuation τ sig (Elt F) := fun c => StableHlo.after hostOps2 (W3 m ρ c)

/-- The prefetched tables' admissible contents: no pipeline has a table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

end Cert.KernelIdeal.Hand

end
-- ==== Proof.KReg0.lean ====
/-
  Region 0 of the program, the kernel that computes the centres' row means: its body, run on whole staging buffers,
  leaves the centres' block as it was and the output block at the row-mean payload of it — at every grid point (there
  is one).
-/
import proofs.«416808_j65412351918314_2_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The centres' staging buffer holds the centres' block at the point, fetched there or not: the window is uncut and
    never idle, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body reads the centres' buffer and writes the row-means' buffer through their whole rectangles, whose offsets
    are zero on every axis. -/
theorem offs0_zero : (![0, 0] : Fin 2 → Nat) = fun _ => 0 := funext fun a => by fin_cases a <;> rfl

set_option maxHeartbeats 1000000 in
/-- The body on whole staging memrefs, the centres' at contents `x0` and the output's at anything, runs to the
    continuation holding the centres' as they were and the output's at the row-mean payload of `x0`. -/
theorem sound_kernel0 (c : Dev nD) (E : Set ℕ) (i : grid0.Coords) (arg1 : Memref sig .tc .vmem S1000x128 .f32) (harg1 : arg1.IsWhole)
    (arg2 : Memref sig .tc .vmem S1x1000 .f32) (harg2 : arg2.IsWhole)
    (x0 : Vec F S1000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0_centers_kernel i arg1 harg1 arg2 harg2) K := by
  simp only [cc0_centers_kernel_eq_skeleton]; unfold cc0_centers_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _,
      View.mem_set_unit_zero (S := S1x1000) offs0_zero inb_S1x1000_S1x1000_0_0 y⟩),
    View.canon_unit_zero (S := S1x1000) offs0_zero inb_S1x1000_S1x1000_0_0, View.readAt_eq_ld,
    View.ld_unit_zero (S := S1000x128) offs0_zero inb_S1000x128_S1000x128_0_0]

/-- The centres' staging buffer holds the centres' block at every point. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the centres' memref holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0's proof data, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KReg1Runs.lean ====
/-
  Region 1's body, run in each of the three control cases its two conditionals meet on the grid.

  The second grid coordinate decides both conditionals: where it is 0 the two accumulators are zeroed first (a restart),
  where it is 15 they are copied into the two output blocks last (a copy-out); the closed forms over the 32 points are
  position ≡ 0 and position ≡ 15 modulo 16. In every case the body reads its four input blocks, leaves them as they
  were, and advances each accumulator by one step: `step8` of the feature, label and centre blocks, `step9` of the
  label block and the row means. Each triple below is stated over whole memrefs and explicit contents: every store of
  the body writes a whole buffer, so what a buffer holds afterwards is the payload of its last store, and a load that
  follows a store in the same run reads that store's payload.

  Also here: at which points the windows are idle (the outputs everywhere but at the copy-out points, where alone
  they are written back), and the staging memrefs the pipeline passes the body at a point.
-/
import proofs.«416808_j65412351918314_2_alg».proof.Proof.KDefs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The restart condition of the body, from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out condition of the body. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The four inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the copy-out points the two outputs are idle and are not written back; -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- at the copy-out points they are live. -/
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-- Each window's current staging memref at point `t`, as the pipeline passes it to the body, and its wholeness. -/
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .f32 := win1_5.stage (cfg1.slots t 5)
abbrev hs1_5 (t : Fin cfg1.N) : (ms1_5 t).IsWhole := hstage1_5 ((cfg1.slots t 5).cast nbuf1_5)

/-! ## Whole-buffer stores read back -/

/-- A whole-buffer piece, last in a list of writes, covers every index. -/
theorem cover_unit_zero {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons_self, View.mem_set_unit_zero h inb y⟩

/-- What any view reads after writes whose last is a whole-buffer store: that store's payload. -/
theorem read_writes_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (cover_unit_zero h inb w L), View.canon_cons_unit_zero h inb w L]

/-! ## The body's triple, case by case -/

set_option maxHeartbeats 1000000 in
/-- The body at a restart point: whatever the accumulators held, each is zeroed and then takes the point's partial sum;
    the inputs stay and the two output blocks are not touched. -/
theorem run1_A (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : cond1_0 i) (hc1 : ¬cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xi5
            ∗ owns (c : Thread nD τ) arg8 fullShare (step8 x0 x1 x2 (k1_pay3 (F := F))) ∗ owns (c : Thread nD τ) arg9 fullShare (step9 x1 x3 (k1_pay4 (F := F)))) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl

set_option maxHeartbeats 1000000 in
/-- The body at a point that neither restarts nor copies out: the inputs stay, the two output blocks are not touched,
    each accumulator takes the point's partial sum. -/
theorem run1_B (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : ¬cond1_0 i) (hc1 : ¬cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xi5
            ∗ owns (c : Thread nD τ) arg8 fullShare (step8 x0 x1 x2 s8) ∗ owns (c : Thread nD τ) arg9 fullShare (step9 x1 x3 s9)) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2]
    rfl

set_option maxHeartbeats 1000000 in
/-- The body at a copy-out point: the inputs stay, each accumulator takes the point's partial sum and is then copied
    into its output block, whatever that block held. -/
theorem run1_C (c : Dev nD) (i : grid1.Coords)
    (arg2 : Memref sig .tc .vmem S512x128 .f32) (harg2 : arg2.IsWhole) (arg3 : Memref sig .tc .vmem S512x1 .i32) (harg3 : arg3.IsWhole)
    (arg4 : Memref sig .tc .vmem S1000x128 .f32) (harg4 : arg4.IsWhole) (arg5 : Memref sig .tc .vmem S1x1000 .f32) (harg5 : arg5.IsWhole)
    (arg6 : Memref sig .tc .vmem S1x1x1 .f32) (harg6 : arg6.IsWhole) (arg7 : Memref sig .tc .vmem S1x1x1 .f32) (harg7 : arg7.IsWhole)
    (arg8 : Memref sig .tc .vmem S1x1 .f32) (harg8 : arg8.IsWhole) (arg9 : Memref sig .tc .vmem S1x1 .f32) (harg9 : arg9.IsWhole)
    (hc0 : ¬cond1_0 i) (hc1 : cond1_1 i)
    (x0 : Vec F S512x128 .f32) (x1 : Vec F S512x1 .i32) (x2 : Vec F S1000x128 .f32) (x3 : Vec F S1x1000 .f32)
    (xi4 xi5 : Vec F S1x1x1 .f32) (s8 s9 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xi5
        ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay1 (step8 x0 x1 x2 s8)) ∗ owns (c : Thread nD τ) arg7 fullShare (k1_pay2 (step9 x1 x3 s9))
            ∗ owns (c : Thread nD τ) arg8 fullShare (step8 x0 x1 x2 s8) ∗ owns (c : Thread nD τ) arg9 fullShare (step9 x1 x3 s9)) -∗ K ⟨⟩))
      ⊢ wp frame (wpE (defs₀ (F := F)) Variants.none c none) E (cc1_main_kernel i arg2 harg2 arg3 harg3 arg4 harg4 arg5 harg5 arg6 harg6 arg7 harg7 arg8 harg8 arg9 harg9) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [read_writes_unit_zero _ _ hz3]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  isplitl [H5]
  · iexists _; isplitr
    swap; · iexact H5
    ipureintro
    sl_unfold_words
    rw [read_writes_unit_zero _ _ hz3]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl
  isplitl [H8]
  · iexists _; isplitr
    swap; · iexact H8
    ipureintro
    sl_unfold_words
    rw [read_writes_unit_zero _ _ hz2]
    simp only [View.readAt_eq_ld, harg2.read_unread, harg3.read_unread, harg4.read_unread, harg8.read_unread, View.ld_unit_zero (S := S1x1) hz2,
      View.ld_unit_zero (S := S512x128) hz2, View.ld_unit_zero (S := S1000x128) hz2, View.ld_unit_zero (S := S512x1) hz2,
      View.readCov_unit_zero (S := S1x1) _ hz2]
    rfl
  · iexists _; isplitr
    swap; · iexact H9
    ipureintro
    sl_unfold_words
    rw [read_writes_unit_zero _ _ hz2]
    simp only [View.readAt_eq_ld, harg3.read_unread, harg5.read_unread, harg9.read_unread, View.ld_unit_zero (S := S1x1) hz2,
      View.ld_unit_zero (S := S1x1000) hz2, View.ld_unit_zero (S := S512x1) hz2,
      View.readCov_unit_zero (S := S1x1) _ hz2]
    rfl

end Cert.KernelIdeal.Hand

end
-- ==== Proof.KReg1.lean ====
/-
  Region 1 of the program, the kernel that adds each tile's partial sums into its two accumulators: its body at every
  grid point, whichever of the three control cases the point is in (restart, continue, continue and copy out), takes the
  accumulators from what the point before left to what `accAt1` says, leaves the four input blocks as they were, and at
  the last point of a row of the grid stores the accumulators into the two output blocks.
-/
import proofs.«416808_j65412351918314_2_alg».proof.Proof.KReg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant, arm by arm -/

/-- What the launch hands the region, its scoped buffers one by one: the two staging buffers of the other region and the
    two accumulators, each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
          ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

theorem PhiS1_zero (c : Dev nD) (n : ℕ) (h : n ≤ cfg1.N) (hz : n = 0) : PhiS1 V c n h = Pipeline.ΦA spec1 c := by
  subst hz; rfl

/-- After point `n`: the accumulators at that point's values. -/
theorem PhiS1_succ (c : Dev nD) (n : ℕ) (hn : n < cfg1.N) :
    PhiS1 V c (n + 1) hn = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
      ∗ owns (c : Thread nD τ) scM1_0 fullShare (accAt1 V c n hn).1 ∗ owns (c : Thread nD τ) scM1_1 fullShare (accAt1 V c n hn).2
      ∗ (∃ r, prngReg c r)) := rfl

/-- Before a point that is not the first: the accumulators at what the point before left. -/
theorem PhiS1_pos (c : Dev nD) (n : ℕ) (h : n ≤ cfg1.N) (hz : n ≠ 0) :
    PhiS1 V c n h = iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)
      ∗ owns (c : Thread nD τ) scM1_0 fullShare (accAt1 V c (n - 1) (by omega)).1 ∗ owns (c : Thread nD τ) scM1_1 fullShare (accAt1 V c (n - 1) (by omega)).2
      ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = PhiS1 V c t.val (Nat.le_of_lt t.isLt) := by
  dsimp only [dat1]; simp only [Fin.coe_castSucc]

/-! ## What the body finds in the inputs' buffers -/

/-- Each input's current staging buffer holds its block at every point, fetched there or not: where it is not fetched
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-- An input's buffer is left at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
/-- At a copy-out point an output's buffer is left at the copy of its accumulator. -/
theorem leaves1_4 (c : Dev nD) (t : Fin cfg1.N) (h : cond1_1 (grid1.coords t)) :
    (dat1 V c).leavesExact 4 t = owns (c : Thread nD τ) (ms1_4 t) fullShare (k1_pay1 (accAt1 V c t.val t.isLt).1) := by
  unfold Dat.leavesExact; rw [liveAt1_4 t h, after1_4]
theorem leaves1_5 (c : Dev nD) (t : Fin cfg1.N) (h : cond1_1 (grid1.coords t)) :
    (dat1 V c).leavesExact 5 t = owns (c : Thread nD τ) (ms1_5 t) fullShare (k1_pay2 (accAt1 V c t.val t.isLt).2) := by
  unfold Dat.leavesExact; rw [liveAt1_5 t h, after1_5]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
/-- The body at any point. The inputs' buffers hold the point's blocks; the position modulo 16 says which of the three
    control cases the point is in, and that case's run applies: at a restart the accumulators are taken at whatever
    they hold (the launch's contents at the first point, the previous row's totals later) and left at one step from
    zero; elsewhere they are taken at what the point before left and advanced by one step, which is the recursion of
    `accAt1`; the outputs' buffers come back untouched where they are idle and hold the copies of the accumulators at
    the copy-out points. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1),
      Dat.leavesExact_idle (dat1 V c) 5 t (idleAt1_5 t hc1) (noFlush1_5 t hc1)]
    rw [accAt1_reset V c t h0]; dsimp only
    by_cases hz : t.val = 0
    · rw [Phi1_castSucc V c t, PhiS1_zero V c _ _ hz, PhiA1_eq]
      iintro ⟨⟨⟨Ha, Hb, ⟨%d8, HS0⟩, ⟨%d9, HS1⟩⟩, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) d8 d9 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    have hc0 : ¬cond1_0 (grid1.coords t) := fun h => h0 ((hcond1_0 t).mp h)
    by_cases h1 : t.val % 16 = 15
    · have hc1 : cond1_1 (grid1.coords t) := (hcond1_1 t).mpr h1
      rw [leaves1_4 V c t hc1, leaves1_5 V c t hc1]
      rw [accAt1_cont V c t h0]; dsimp only
      rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 4 t (idleAt1_4 t hc1) (noFlush1_4 t hc1),
        Dat.leavesExact_idle (dat1 V c) 5 t (idleAt1_5 t hc1) (noFlush1_5 t hc1)]
      rw [accAt1_cont V c t h0]; dsimp only
      rw [Phi1_castSucc V c t, PhiS1_pos V c _ _ hz]
      iintro ⟨⟨Ha, Hb, HS0, HS1, Hg⟩, Ho, ⟨%d0, H0⟩, ⟨%d1, H1⟩, ⟨%d2, H2⟩, ⟨%d3, H3⟩, ⟨%d4, H4⟩, ⟨%d5, H5⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) hc0 hc1 (feat1 V c t) (lab1 V c t) (cen1 V c t) (rm1 V c t) ((dat1 V c).before 4 t d4) ((dat1 V c).before 5 t d5) (accAt1 V c (t.val - 1) (Nat.lt_of_le_of_lt (Nat.sub_le _ _) t.isLt)).1 (accAt1 V c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [Ha Hb HS0 HS1 Hg]
      · isplitl [Ha]; · iexact Ha
        isplitl [Hb]; · iexact Hb
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation for region 1's proof data, at every point. -/
theorem body_obligation1 (c : Dev nD) : BodyObligation (dat1 (F := F) V c) (defs₀ (F := F)) Variants.none () Set.univ := by
  intro t
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's resources back: the accumulators' contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨Ha, Hb, HS0, HS1, Hg⟩
  isplitr [Hg]
  · isplitl [Ha]; · iexact Ha
    isplitl [Hb]; · iexact Hb
    isplitl [HS0]; · iexists _; iexact HS0
    iexists _; iexact HS1
  iexact Hg

end Cert.KernelIdeal.Hand

end
-- ==== Proof.KRun.lean ====
/-
  THE RUN of @main: the program is four stretches in order — one host operation (the labels reshaped to a column),
  region 0 (the centres' row means), region 1 (the accumulated partial sums), and eleven host scalar operations (the
  two sums reduced, divided and combined). Each stretch is entered from every unscoped buffer of the core held at the
  contents the fold `W0 … W4` gives for that boundary, beside the generator register at some state and the core owing
  nothing; a region splits its windows' arrays out of those buffers, runs its pipeline, and puts the arrays back at what
  the write-backs leave. The launch theorem for several regions then says every fair execution ends, with every
  unscoped buffer at `W4`. The three argument arrays are written by no stretch, so `W4` at each of them walks back
  through the fold to the launch memory.
-/
import proofs.«416808_j65412351918314_2_alg».proof.Proof.KReg0
import proofs.«416808_j65412351918314_2_alg».proof.Proof.KReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold at a region's exit: its arrays at what the write-backs leave, every other buffer as entered -/

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's arrays at its exit are what its pipeline leaves; -/
theorem hF0 (c : Dev nD) (w : Fin cfg0.W) : (dat0 (V1 m ρ) c).arrAt w cfg0.N = V2 m ρ c (Pipeline.arrRef spec0 w) :=
  (W2_arr m ρ c w).symm
/-- every other buffer is as the region found it. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- Region 1's arrays at its exit are what its pipeline leaves; -/
theorem hF1 (c : Dev nD) (w : Fin cfg1.W) : (dat1 (V2 m ρ) c).arrAt w cfg1.N = V3 m ρ c (Pipeline.arrRef spec1 w) :=
  (W3_arr m ρ c w).symm
/-- every other buffer is as the region found it. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation writes an argument: the first stretch writes the reshaped labels only, the last the scalar
temporaries and the result. Region 1 reads the features (window 0) and the centres (window 2) through input windows,
which leave an array as found, and does not touch the labels (it reads their reshaped copy); region 0 reads the centres
through its input window 0 and touches neither of the other two. -/

/-- The first host stretch leaves every buffer but the reshaped labels. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := W1_of_ne m ρ c main_arg2 (by decide)
    _ = m ((c : Thread nD τ).loc main_arg2) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its debt,
    which is nothing. -/
abbrev R (c : Dev nD) : sProp 𝕄 := iprop((∃ r, prngReg c r) ∗ ∃ W, owes (c : Thread nD τ) (0 : CellTallies nD τ sig Unit) W)
/-- A stretch of host operations from the contents `W`: it holds every unscoped buffer, runs to the same buffers at the
    contents the operations leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh : (hostOps0 : List (HloOp τ sig (Elt F))).Forall fun op => op.fresh = ∅ := by
  simp only [List.Forall]; repeat' constructor
/-- No operation of the last stretch allocates a buffer. -/
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debt: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as stretches of the run -/

set_option backward.isDefEq.respectTransparency.types false in
/-- REGION 0: entered from every unscoped buffer at `W1`, left at `W2`. Its two arrays are split out of the unscoped
    buffers and put back at the exit contents; the generator register goes into the region's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `W2` (no host operation lies between the regions), left at `W3`.
    What the launch hands the kernel — the generator register and the scoped buffers that are no staging buffer of it —
    is the invariant before the first point; after the last point the invariant gives the same back, the two
    accumulators at contents no longer of interest. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its four stretches, and the launch -/

/-- What the last host stretch leaves is the last thread state beside the core owing nothing: the same three parts,
    grouped the other way. -/
theorem hlast (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's four stretches in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the stretches. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state every unscoped buffer of every core holds what the fold gives at the
    program's end. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every fair execution of @main terminates, nothing faulting, and every final state has the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Loss.lean ====
/-
  The loss both programs compute, written once as a function of the feature rows `A`, the centre rows `B` and the
  labels `ℓ`, on the extended reals.

  For a row `r` and a centre `j` the squared distance is `|A r|² - 2 ⟨A r, B j⟩ + |B j|²`, clamped below at 0 and
  rooted (`dist`); the logit is `-0.1 · dist` (the binary value of the f32 word `-0.1`), `rmax` the row's largest
  logit and `lse` the logarithm of the sum of the shifted exponentials.  The cross-entropy of row `r` is written
  twice: as the kernel forms it, `(rmax + lse) + 0.1 · Σ_j [j = ℓ r] · dist r j` (`kRow`), and as the reference
  forms it, `(logit r (ℓ r) - rmax) - lse`, a log-probability that is negated after the mean (`rRow`).  The
  contrastive term of row `r` is `max (20 - rowMean (ℓ r)) 0`, `rowMean i` the sum over the other centres `j ≠ i`
  of the distance between centres `i` and `j`, divided by 999; the kernel again reads `rowMean (ℓ r)` as a sum
  against the indicator of `ℓ r` (`kHinge`), the reference directly (`rHinge`).  The loss is the mean of the first
  plus 1 · the mean of the second (`kTotal`, `rTotal`).  That the two totals are equal when every entry of `A` and
  `B` is a real number is proved in the algebra module; nothing here is specific to either program.
-/
import Idealize.ShloMosaic.PureOps.Ideal

noncomputable section

namespace Cert.Loss

open Idealize.ShloMosaic

/-- The f32 words the two programs carry, at their exact binary values. -/
def two : EReal := Ideal.ofBits .f32 0x40000000#32
def negTenth : EReal := Ideal.ofBits .f32 0xBDCCCCCD#32
def tenth : EReal := Ideal.ofBits .f32 0x3DCCCCCD#32
def twenty : EReal := Ideal.ofBits .f32 0x41A00000#32
def nOthers : EReal := Ideal.ofBits .f32 0x4479C000#32
def nRows : EReal := Ideal.ofBits .f32 0x46800000#32
def one : EReal := Ideal.ofBits .f32 0x3F800000#32

/-- The squared norm of row `r`. -/
def sqn {n : Nat} (A : Fin n → Fin 128 → EReal) (r : Fin n) : EReal := ∑ k : Fin 128, A r k * A r k

/-- The inner product of row `r` of `A` and row `j` of `B`. -/
def gram {n m : Nat} (A : Fin n → Fin 128 → EReal) (B : Fin m → Fin 128 → EReal) (r : Fin n) (j : Fin m) : EReal :=
  ∑ k : Fin 128, A r k * B j k

/-- The distance of row `r` of `A` to row `j` of `B`, by the Gram form, clamped at 0 before the root. -/
def dist {n m : Nat} (A : Fin n → Fin 128 → EReal) (B : Fin m → Fin 128 → EReal) (r : Fin n) (j : Fin m) : EReal :=
  Ideal.sqrt (max (sqn A r - two * gram A B r j + sqn B j) 0)

def logit {n : Nat} (A : Fin n → Fin 128 → EReal) (B : Fin 1000 → Fin 128 → EReal) (r : Fin n) (j : Fin 1000) : EReal :=
  negTenth * dist A B r j

/-- The largest logit of row `r` (the fold of `max` from `-∞` over the centres). -/
def rmax {n : Nat} (A : Fin n → Fin 128 → EReal) (B : Fin 1000 → Fin 128 → EReal) (r : Fin n) : EReal :=
  (Finset.univ : Finset (Fin 1000)).fold max ⊥ (fun j => logit A B r j)

/-- The logarithm of the sum of the shifted exponentials of row `r`. -/
def lse {n : Nat} (A : Fin n → Fin 128 → EReal) (B : Fin 1000 → Fin 128 → EReal) (r : Fin n) : EReal :=
  Ideal.log (∑ j : Fin 1000, Ideal.exp (logit A B r j - rmax A B r))

/-- The mean distance from centre `i` to the 999 other centres. -/
def rowMean (B : Fin 1000 → Fin 128 → EReal) (i : Fin 1000) : EReal :=
  Ideal.div (∑ j : Fin 1000, if i = j then 0 else dist B B i j) nOthers

/-- Row `r`'s cross-entropy as the kernel forms it. -/
def kRow {n : Nat} (A : Fin n → Fin 128 → EReal) (B : Fin 1000 → Fin 128 → EReal) (ℓ : Fin n → Fin 1000) (r : Fin n) : EReal :=
  (rmax A B r + lse A B r) + tenth * ∑ j : Fin 1000, (if j = ℓ r then (1 : EReal) else 0) * dist A B r j

/-- Row `r`'s contrastive term as the kernel forms it. -/
def kHinge {n : Nat} (B : Fin 1000 → Fin 128 → EReal) (ℓ : Fin n → Fin 1000) (r : Fin n) : EReal :=
  max (twenty - ∑ j : Fin 1000, (if j = ℓ r then (1 : EReal) else 0) * rowMean B j) 0

/-- Row `r`'s log-probability of its label as the reference forms it. -/
def rRow {n : Nat} (A : Fin n → Fin 128 → EReal) (B : Fin 1000 → Fin 128 → EReal) (ℓ : Fin n → Fin 1000) (r : Fin n) : EReal :=
  (logit A B r (ℓ r) - rmax A B r) - lse A B r

/-- Row `r`'s contrastive term as the reference forms it. -/
def rHinge {n : Nat} (B : Fin 1000 → Fin 128 → EReal) (ℓ : Fin n → Fin 1000) (r : Fin n) : EReal :=
  max (twenty - rowMean B (ℓ r)) 0

/-- The kernel's loss. -/
def kTotal (A : Fin 16384 → Fin 128 → EReal) (B : Fin 1000 → Fin 128 → EReal) (ℓ : Fin 16384 → Fin 1000) : EReal :=
  Ideal.div (∑ r : Fin 16384, kRow A B ℓ r) nRows + one * Ideal.div (∑ r : Fin 16384, kHinge B ℓ r) nRows

/-- The reference's loss. -/
def rTotal (A : Fin 16384 → Fin 128 → EReal) (B : Fin 1000 → Fin 128 → EReal) (ℓ : Fin 16384 → Fin 1000) : EReal :=
  -(Ideal.div (∑ r : Fin 16384, rRow A B ℓ r) nRows) + one * Ideal.div (∑ r : Fin 16384, rHinge B ℓ r) nRows

end Cert.Loss

end
-- ==== Proof.KPayload.lean ====
/-
  The kernels' arithmetic, read at the extended reals index by index.

  Each payload of the two kernel bodies — the value a store writes, as a pure function of the blocks the body loaded — is
  identified with the specification's functions (`Cert.Loss`): the first kernel's output block is the centres' row
  means; in the second kernel the distance matrix of a tile is `Loss.dist`, the log-sum-exp column is
  `Loss.rmax + Loss.lse`, and the label mask is the indicator of the row's label.
-/
import proofs.«416808_j65412351918314_2_alg».proof.Proof.KDefs
import proofs.«416808_j65412351918314_2_alg».proof.Proof.Loss
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Hand
open Idealize.ShloMosaic Idealize.ShloMosaic.ValueIdx

/-- The rows of a rank-2 array with 128 columns, as a function of two coordinates. -/
abbrev rows {n : Nat} (x : (⟨2, ![n, 128]⟩ : Shape).Idx → EReal) : Fin n → Fin 128 → EReal := fun r k => x (ix2 r k)

/-! ## Layout operations of a column, read at coordinates -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row sum of a matrix, at row `r`: the sum over the columns. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin m, src (ix2 r k) :=
  (Ideal.multiReduction_add_single src _ h hφ hacc (ix1 r)).trans
    (Finset.sum_congr rfl fun k _ => congrArg src (funext fun ax => Fin.ext (by
      match ax with
      | ⟨0, _⟩ => rfl
      | ⟨1, _⟩ => rfl)))

/-- The centres' matrix transposed reads, at `(k, j)`, the matrix at `(j, k)`. -/
theorem transpose_cen_apply (x : S1000x128.Idx → α) (k : Fin 128) (j : Fin 1000) :
    transpose S128x1000 [1, 0] x transposes_S1000x128_p1_0_S128x1000 (ix2 k j) = x (ix2 j k) :=
  transpose_ix2_apply x _ k j

/-- A column of 1000 entries transposed to a row reads, at `(u, j)`, the column at `(j, u)`. -/
theorem transpose_col_apply (x : S1000x1.Idx → α) (u : Fin 1) (j : Fin 1000) :
    transpose S1x1000 [1, 0] x transposes_S1000x1_p1_0_S1x1000 (ix2 u j) = x (ix2 j u) :=
  transpose_ix2_apply x _ u j

end Layout

/-- The row maximum of a matrix, at row `r`: the fold of `max` from `-∞` over the columns. -/
theorem rowMax_apply {n m : ℕ} (src : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (r : Fin n) :
    multiReduction (F := Ideal) .maximumf [1] ⟨1, ![n]⟩ src 0xFF800000#32 h hφ hacc (ix1 r)
      = (Finset.univ : Finset (Fin m)).fold max ⊥ (fun k => src (ix2 r k)) := by
  refine (Ideal.multiReduction_maximumf_single src _ h hφ hacc (ix1 r)).trans ?_
  have e1 : (FloatOps.ofBits (F := Ideal) .f32 0xFF800000#32 : EReal) = ⊥ := by simp [Ideal.ofBits, Ideal.ieee]
  have e2 : (src ∘ h.lift (ix1 r)) = fun k => src (ix2 r k) :=
    funext fun k => congrArg src (funext fun ax => Fin.ext (by
      match ax with
      | ⟨0, _⟩ => rfl
      | ⟨1, _⟩ => rfl))
  rw [e1, e2]
  rfl

/-! ## Square root, exponential and logarithm, read at an index -/

section Pointwise
variable {s : Shape} {φ : FTy}
theorem sqrt_apply (a : FVec Ideal s φ) (i : s.Idx) : sqrt a i = Ideal.sqrt (a i) := rfl
theorem exp_apply (a : FVec Ideal s φ) (i : s.Idx) : exp a i = Ideal.exp (a i) := rfl
theorem log_apply (a : FVec Ideal s φ) (i : s.Idx) : log a i = Ideal.log (a i) := rfl
end Pointwise

/-! ## Words at an index -/

/-- An integer comparison at an index compares the elements. -/
theorem cmpi_apply {s : Shape} {w : ℕ} (p : CmpIPredicate) (x y : IVec s w) (i : s.Idx) :
    cmpi p x y i = IntOp.cmpi p (x i) (y i) := rfl

/-- The row number of a matrix's entry, as a word. -/
theorem iota_row_apply {a b : ℕ} (h : (⟨2, ![a, b]⟩ : Shape).Iotas .tc 32 [0]) (p : Fin a) (c : Fin b) :
    iota .tc ⟨2, ![a, b]⟩ 32 [0] h (ix2 p c) = BitVec.ofNat 32 p.val :=
  iota_single_apply .tc _ 32 0 h (ix2 p c)
/-- The column number of a matrix's entry, as a word. -/
theorem iota_col_apply {a b : ℕ} (h : (⟨2, ![a, b]⟩ : Shape).Iotas .tc 32 [1]) (p : Fin a) (c : Fin b) :
    iota .tc ⟨2, ![a, b]⟩ 32 [1] h (ix2 p c) = BitVec.ofNat 32 c.val :=
  iota_single_apply .tc _ 32 1 h (ix2 p c)

/-- Two numbers below `2 ^ 32` are equal as 32-bit words exactly when they are equal. -/
theorem ofNat32_eq_iff {i j : ℕ} (hi : i < 2 ^ 32) (hj : j < 2 ^ 32) : BitVec.ofNat 32 i = BitVec.ofNat 32 j ↔ i = j := by
  constructor
  · intro h
    have := congrArg BitVec.toNat h
    rwa [BitVec.toNat_ofNat, BitVec.toNat_ofNat, Nat.mod_eq_of_lt hi, Nat.mod_eq_of_lt hj] at this
  · rintro rfl; rfl

/-- Two different column numbers below 1000 are different words. -/
theorem ofNat32_ne_of_ne {i j : Fin 1000} (h : ¬ i = j) : ¬ BitVec.ofNat 32 i.val = BitVec.ofNat 32 j.val := fun e =>
  h (Fin.ext ((ofNat32_eq_iff (by have := i.isLt; omega) (by have := j.isLt; omega)).mp e))

/-- The word comparison "equal" of a word with itself is the bit 1 … -/
theorem cmpi_eq_self (x : BitVec 32) : IntOp.cmpi .eq x x = 1#1 := by
  show BitVec.ofBool (x == x) = 1#1
  rw [beq_self_eq_true]; rfl
/-- … and of two different words the bit 0; -/
theorem cmpi_eq_of_ne {x y : BitVec 32} (h : ¬ x = y) : IntOp.cmpi .eq x y = 0#1 := by
  show BitVec.ofBool (x == y) = 0#1
  rw [beq_eq_false_iff_ne.mpr h]; rfl
/-- the comparison "different" of a word with itself is the bit 0 … -/
theorem cmpi_ne_self (x : BitVec 32) : IntOp.cmpi .ne x x = 0#1 := by
  show BitVec.ofBool (x != x) = 0#1
  rw [bne_self_eq_false]; rfl
/-- … and of two different words the bit 1. -/
theorem cmpi_ne_of_ne {x y : BitVec 32} (h : ¬ x = y) : IntOp.cmpi .ne x y = 1#1 := by
  show BitVec.ofBool (x != y) = 1#1
  rw [bne_iff_ne.mpr h]; rfl

/-! ## The two matrix products, read at coordinates

For each product, first the operands' indices at output index `i` and contraction index `q`, coordinate by coordinate: the
left operand is read at `(i 0, q)`, the right one at `(q, i 1)`. -/

theorem lhs512_0 (i : S512x1000.Idx) (q : dot_S512x128_S128x1000_S512x1000_1_0_0_1_n_n.contr.Idx) :
    (dot_S512x128_S128x1000_S512x1000_1_0_0_1_n_n.lhsIdx i q 0).val = (i 0).val := by
  unfold DotDims.lhsIdx
  rw [dif_neg (show ¬(0 : Fin S512x128.rank) ∈ dot_S512x128_S128x1000_S512x1000_1_0_0_1_n_n.lhsBatch by decide), dif_pos (show (0 : Fin S512x128.rank) ∈ dot_S512x128_S128x1000_S512x1000_1_0_0_1_n_n.lhsNonContracting by decide)]
  rfl
theorem lhs512_1 (i : S512x1000.Idx) (q : dot_S512x128_S128x1000_S512x1000_1_0_0_1_n_n.contr.Idx) :
    (dot_S512x128_S128x1000_S512x1000_1_0_0_1_n_n.lhsIdx i q 1).val = (q ⟨0, by decide⟩).val :=
  dot_S512x128_S128x1000_S512x1000_1_0_0_1_n_n.lhsIdx_val_of_single rfl i q
theorem rhs512_0 (i : S512x1000.Idx) (q : dot_S512x128_S128x1000_S512x1000_1_0_0_1_n_n.contr.Idx) :
    (dot_S512x128_S128x1000_S512x1000_1_0_0_1_n_n.rhsIdx i q 0).val = (q ⟨0, by decide⟩).val :=
  dot_S512x128_S128x1000_S512x1000_1_0_0_1_n_n.rhsIdx_val_of_single rfl i q
theorem rhs512_1 (i : S512x1000.Idx) (q : dot_S512x128_S128x1000_S512x1000_1_0_0_1_n_n.contr.Idx) :
    (dot_S512x128_S128x1000_S512x1000_1_0_0_1_n_n.rhsIdx i q 1).val = (i 1).val := by
  unfold DotDims.rhsIdx
  rw [dif_neg (show ¬(1 : Fin S128x1000.rank) ∈ dot_S512x128_S128x1000_S512x1000_1_0_0_1_n_n.rhsBatch by decide), dif_pos (show (1 : Fin S128x1000.rank) ∈ dot_S512x128_S128x1000_S512x1000_1_0_0_1_n_n.rhsNonContracting by decide)]
  rfl

/-- The product into a zero accumulator, at `(p, c)`: the sum over the contracted coordinate of the operands' products. -/
theorem matmul512_apply (L : FVec Ideal S512x128 .bf16) (R : FVec Ideal S128x1000 .bf16) (p : Fin 512) (c : Fin 1000) :
    matmul dot_S512x128_S128x1000_S512x1000_1_0_0_1_n_n none L R (constant (F := Ideal) S512x1000 .f32 0x00000000#32) (ix2 p c)
      = ∑ k : Fin 128, L (ix2 p k) * R (ix2 k c) := by
  simp only [matmul]
  rw [Ideal.matmul_constant_zero_apply, ← Equiv.sum_comp (contrEquiv1 dot_S512x128_S128x1000_S512x1000_1_0_0_1_n_n 128 rfl rfl).symm]
  refine Finset.sum_congr rfl fun k _ => ?_
  have hk := contrEquiv1_symm_val dot_S512x128_S128x1000_S512x1000_1_0_0_1_n_n 128 rfl rfl k
  have el : dot_S512x128_S128x1000_S512x1000_1_0_0_1_n_n.lhsIdx (ix2 p c) ((contrEquiv1 dot_S512x128_S128x1000_S512x1000_1_0_0_1_n_n 128 rfl rfl).symm k) = ix2 p k := funext fun a => Fin.ext (by
    match a with
    | ⟨0, _⟩ => exact lhs512_0 _ _
    | ⟨1, _⟩ => exact (lhs512_1 _ _).trans hk)
  have er : dot_S512x128_S128x1000_S512x1000_1_0_0_1_n_n.rhsIdx (ix2 p c) ((contrEquiv1 dot_S512x128_S128x1000_S512x1000_1_0_0_1_n_n 128 rfl rfl).symm k) = ix2 k c := funext fun a => Fin.ext (by
    match a with
    | ⟨0, _⟩ => exact (rhs512_0 _ _).trans hk
    | ⟨1, _⟩ => exact rhs512_1 _ _)
  rw [el, er]

theorem lhs1000_0 (i : S1000x1000.Idx) (q : dot_S1000x128_S128x1000_S1000x1000_1_0_0_1_n_n.contr.Idx) :
    (dot_S1000x128_S128x1000_S1000x1000_1_0_0_1_n_n.lhsIdx i q 0).val = (i 0).val := by
  unfold DotDims.lhsIdx
  rw [dif_neg (show ¬(0 : Fin S1000x128.rank) ∈ dot_S1000x128_S128x1000_S1000x1000_1_0_0_1_n_n.lhsBatch by decide), dif_pos (show (0 : Fin S1000x128.rank) ∈ dot_S1000x128_S128x1000_S1000x1000_1_0_0_1_n_n.lhsNonContracting by decide)]
  rfl
theorem lhs1000_1 (i : S1000x1000.Idx) (q : dot_S1000x128_S128x1000_S1000x1000_1_0_0_1_n_n.contr.Idx) :
    (dot_S1000x128_S128x1000_S1000x1000_1_0_0_1_n_n.lhsIdx i q 1).val = (q ⟨0, by decide⟩).val :=
  dot_S1000x128_S128x1000_S1000x1000_1_0_0_1_n_n.lhsIdx_val_of_single rfl i q
theorem rhs1000_0 (i : S1000x1000.Idx) (q : dot_S1000x128_S128x1000_S1000x1000_1_0_0_1_n_n.contr.Idx) :
    (dot_S1000x128_S128x1000_S1000x1000_1_0_0_1_n_n.rhsIdx i q 0).val = (q ⟨0, by decide⟩).val :=
  dot_S1000x128_S128x1000_S1000x1000_1_0_0_1_n_n.rhsIdx_val_of_single rfl i q
theorem rhs1000_1 (i : S1000x1000.Idx) (q : dot_S1000x128_S128x1000_S1000x1000_1_0_0_1_n_n.contr.Idx) :
    (dot_S1000x128_S128x1000_S1000x1000_1_0_0_1_n_n.rhsIdx i q 1).val = (i 1).val := by
  unfold DotDims.rhsIdx
  rw [dif_neg (show ¬(1 : Fin S128x1000.rank) ∈ dot_S1000x128_S128x1000_S1000x1000_1_0_0_1_n_n.rhsBatch by decide), dif_pos (show (1 : Fin S128x1000.rank) ∈ dot_S1000x128_S128x1000_S1000x1000_1_0_0_1_n_n.rhsNonContracting by decide)]
  rfl

/-- The product into a zero accumulator, at `(p, c)`: the sum over the contracted coordinate of the operands' products. -/
theorem matmul1000_apply (L : FVec Ideal S1000x128 .bf16) (R : FVec Ideal S128x1000 .bf16) (p : Fin 1000) (c : Fin 1000) :
    matmul dot_S1000x128_S128x1000_S1000x1000_1_0_0_1_n_n none L R (constant (F := Ideal) S1000x1000 .f32 0x00000000#32) (ix2 p c)
      = ∑ k : Fin 128, L (ix2 p k) * R (ix2 k c) := by
  simp only [matmul]
  rw [Ideal.matmul_constant_zero_apply, ← Equiv.sum_comp (contrEquiv1 dot_S1000x128_S128x1000_S1000x1000_1_0_0_1_n_n 128 rfl rfl).symm]
  refine Finset.sum_congr rfl fun k _ => ?_
  have hk := contrEquiv1_symm_val dot_S1000x128_S128x1000_S1000x1000_1_0_0_1_n_n 128 rfl rfl k
  have el : dot_S1000x128_S128x1000_S1000x1000_1_0_0_1_n_n.lhsIdx (ix2 p c) ((contrEquiv1 dot_S1000x128_S128x1000_S1000x1000_1_0_0_1_n_n 128 rfl rfl).symm k) = ix2 p k := funext fun a => Fin.ext (by
    match a with
    | ⟨0, _⟩ => exact lhs1000_0 _ _
    | ⟨1, _⟩ => exact (lhs1000_1 _ _).trans hk)
  have er : dot_S1000x128_S128x1000_S1000x1000_1_0_0_1_n_n.rhsIdx (ix2 p c) ((contrEquiv1 dot_S1000x128_S128x1000_S1000x1000_1_0_0_1_n_n 128 rfl rfl).symm k) = ix2 k c := funext fun a => Fin.ext (by
    match a with
    | ⟨0, _⟩ => exact (rhs1000_0 _ _).trans hk
    | ⟨1, _⟩ => exact rhs1000_1 _ _)
  rw [el, er]

/-- The product with the transposed centres into a zero accumulator, at `(p, c)`: the inner product of row `p` of the left
    operand and row `c` of the centres. -/
theorem gram512_apply (L : FVec Ideal S512x128 .bf16) (B : FVec Ideal S1000x128 .bf16) (p : Fin 512) (c : Fin 1000) :
    matmul dot_S512x128_S128x1000_S512x1000_1_0_0_1_n_n none L (transpose S128x1000 [1, 0] B transposes_S1000x128_p1_0_S128x1000)
        (constant (F := Ideal) S512x1000 .f32 0x00000000#32) (ix2 p c)
      = ∑ k : Fin 128, L (ix2 p k) * B (ix2 c k) := by
  rw [matmul512_apply]
  exact Finset.sum_congr rfl fun k _ => by rw [transpose_cen_apply]

/-- The product with the transposed centres into a zero accumulator, at `(p, c)`: the inner product of row `p` of the left
    operand and row `c` of the centres. -/
theorem gram1000_apply (L : FVec Ideal S1000x128 .bf16) (B : FVec Ideal S1000x128 .bf16) (p : Fin 1000) (c : Fin 1000) :
    matmul dot_S1000x128_S128x1000_S1000x1000_1_0_0_1_n_n none L (transpose S128x1000 [1, 0] B transposes_S1000x128_p1_0_S128x1000)
        (constant (F := Ideal) S1000x1000 .f32 0x00000000#32) (ix2 p c)
      = ∑ k : Fin 128, L (ix2 p k) * B (ix2 c k) := by
  rw [matmul1000_apply]
  exact Finset.sum_congr rfl fun k _ => by rw [transpose_cen_apply]

/-! ## The centres' row means -/

/-- The first kernel's output block, at column `i`: the mean distance of centre `i` to the other centres. -/
theorem pay1_rowMean (x : Vec Ideal S1000x128 .f32) (i : Fin 1000) :
    k0_pay1 (F := Ideal) x (ix2 0 i) = Loss.rowMean (rows x) i := by
  unfold k0_pay1
  dsimp only
  rw [transpose_col_apply, divf_apply, broadcast_apply, shapeCast_a_a1_apply, rowSum_apply]
  unfold Loss.rowMean
  refine congrArg (fun s => Ideal.div s Loss.nOthers) (Finset.sum_congr rfl fun j _ => ?_)
  simp only [select_apply, sqrt_apply, cmpi_apply, maximumf_apply, addf_apply, subf_apply, mulf_apply, broadcast_apply,
    broadcastTo_a1_ab_apply, broadcastTo_1b_ab_apply, shapeCast_a_a1_apply, Ideal.ofBits_def, Ideal.ofBits_zero_f32]
  rw [iota_row_apply, iota_col_apply]
  by_cases hij : i = j
  · subst hij
    rw [if_pos rfl]
    simp only [cmpi_ne_self, select_zero]
  · rw [if_neg hij]
    simp only [cmpi_ne_of_ne (ofNat32_ne_of_ne hij), select_one]
    rw [gram1000_apply, transpose_col_apply, shapeCast_a_a1_apply, rowSum_apply, rowSum_apply]
    simp only [mulf_apply, truncf_apply]
    rfl

/-! ## The distance matrix -/

/-- The tile's distance matrix. -/
theorem pay5_dist (x0 : Vec Ideal S512x128 .f32) (x2 : Vec Ideal S1000x128 .f32) (q : Fin 512) (j : Fin 1000) :
    k1_pay5 (F := Ideal) x0 x2 (ix2 q j) = Loss.dist (rows x0) (rows x2) q j := by
  unfold k1_pay5
  simp only [sqrt_apply, maximumf_apply, addf_apply, subf_apply, mulf_apply, broadcast_apply, broadcastTo_a1_ab_apply,
    broadcastTo_1b_ab_apply, shapeCast_a_a1_apply, Ideal.ofBits_def, Ideal.ofBits_zero_f32]
  rw [gram512_apply, transpose_col_apply, shapeCast_a_a1_apply, rowSum_apply, rowSum_apply]
  simp only [mulf_apply, truncf_apply]
  rfl

/-! ## The log-sum-exp column -/

/-- The logits of the tile: the f32 word `-0.1` times the distances. -/
theorem logit_apply (x0 : Vec Ideal S512x128 .f32) (x2 : Vec Ideal S1000x128 .f32) (q : Fin 512) (j : Fin 1000) :
    mulf (broadcast S512x1000 (Scalar.ofBits (F := Ideal) .f32 0xBDCCCCCD#32)) (k1_pay5 (F := Ideal) x0 x2) (ix2 q j)
      = Loss.logit (rows x0) (rows x2) q j := by
  rw [mulf_apply, broadcast_apply, pay5_dist]
  rfl

/-- The column of row maxima of the logits. -/
theorem rmax_col_apply (x0 : Vec Ideal S512x128 .f32) (x2 : Vec Ideal S1000x128 .f32) (q : Fin 512) (u : Fin 1) :
    shapeCast S512x1 (multiReduction (F := Ideal) .maximumf [1] S512
        (mulf (broadcast S512x1000 (Scalar.ofBits (F := Ideal) .f32 0xBDCCCCCD#32)) (k1_pay5 (F := Ideal) x0 x2))
        0xFF800000#32 reduces_S512x1000_S512 (.inl rfl) rfl) shapeCasts_S512_S512x1 (ix2 q u)
      = Loss.rmax (rows x0) (rows x2) q := by
  rw [shapeCast_a_a1_apply, rowMax_apply]
  unfold Loss.rmax
  exact congrArg (Finset.univ.fold max ⊥) (funext fun j => logit_apply x0 x2 q j)

/-- The tile's log-sum-exp column: the row maximum plus the logarithm of the sum of the shifted exponentials. -/
theorem pay6_lse (x0 : Vec Ideal S512x128 .f32) (x2 : Vec Ideal S1000x128 .f32) (q : Fin 512) :
    k1_pay6 (F := Ideal) x0 x2 (ix2 q 0) = Loss.rmax (rows x0) (rows x2) q + Loss.lse (rows x0) (rows x2) q := by
  unfold k1_pay6
  dsimp only
  rw [addf_apply, log_apply, rmax_col_apply, shapeCast_a_a1_apply, rowSum_apply]
  unfold Loss.lse
  refine congrArg (fun s => Loss.rmax (rows x0) (rows x2) q + Ideal.log s) (Finset.sum_congr rfl fun j _ => ?_)
  rw [exp_apply, subf_apply, broadcastTo_a1_ab_apply, rmax_col_apply, logit_apply]

/-! ## The label mask, the restart values and the copies -/

/-- The label mask as a float: 1 at the row's label, 0 elsewhere. -/
theorem pay8_onehot (x1 : Vec Ideal S512x1 .i32) (ℓ : Fin 512 → Fin 1000) (h : ∀ q, x1 (ix2 q 0) = BitVec.ofNat 32 (ℓ q).val)
    (q : Fin 512) (j : Fin 1000) :
    k1_pay8 (F := Ideal) (k1_pay7 (F := Ideal) x1) (ix2 q j) = if j = ℓ q then (1 : EReal) else 0 := by
  unfold k1_pay8 k1_pay7
  dsimp only
  rw [sitofp_apply, extui_apply, cmpi_apply, iota_col_apply, shapeCast_self, broadcastTo_a1_ab_apply, h q]
  show (((((IntOp.cmpi .eq (BitVec.ofNat 32 j.val) (BitVec.ofNat 32 (ℓ q).val)).setWidth 32).toInt : ℝ)) : EReal) = _
  by_cases hj : j = ℓ q
  · subst hj
    have e : ((1#1 : BitVec 1).setWidth 32).toInt = 1 := by decide
    rw [if_pos rfl, cmpi_eq_self, e, Int.cast_one, EReal.coe_one]
  · have e : ((0#1 : BitVec 1).setWidth 32).toInt = 0 := by decide
    rw [if_neg hj, cmpi_eq_of_ne (ofNat32_ne_of_ne hj), e, Int.cast_zero, EReal.coe_zero]

/-- The restart values of the two accumulators are zero. -/
theorem pay3_zero : k1_pay3 (F := Ideal) = fun _ => (0 : EReal) := by
  unfold k1_pay3
  show shapeCast S1x1 (broadcast S1x1 (Scalar.ofBits (F := Ideal) .f32 0x00000000#32)) shapeCasts_S1x1_S1x1 = _
  rw [shapeCast_self]
  funext i
  exact Ideal.ofBits_zero_f32
theorem pay4_zero : k1_pay4 (F := Ideal) = fun _ => (0 : EReal) := by
  unfold k1_pay4
  show shapeCast S1x1 (broadcast S1x1 (Scalar.ofBits (F := Ideal) .f32 0x00000000#32)) shapeCasts_S1x1_S1x1 = _
  rw [shapeCast_self]
  funext i
  exact Ideal.ofBits_zero_f32

/-- A one-element matrix cast to a one-element rank-3 array is constant at its element. -/
theorem shapeCast_11_111 {α : Type} (v : S1x1.Idx → α) (h : S1x1.ShapeCasts S1x1x1) :
    shapeCast S1x1x1 v h = fun _ => v (ix2 0 0) := by
  funext i
  obtain ⟨a, b, c, rfl⟩ : ∃ (a b c : Fin 1), i = ix3 a b c := ⟨i 0, i 1, i 2, eq_ix3 i⟩
  obtain rfl : b = 0 := Subsingleton.elim _ _
  obtain rfl : c = 0 := Subsingleton.elim _ _
  exact shapeCast_ab_1ab_apply v h a 0 0

/-- The copy of an accumulator into an output block is the accumulator's one element. -/
theorem pay1_copy (v : Vec Ideal S1x1 .f32) : k1_pay1 (F := Ideal) v = fun _ => v (ix2 0 0) := by
  unfold k1_pay1
  exact shapeCast_11_111 v _
theorem pay2_copy (v : Vec Ideal S1x1 .f32) : k1_pay2 (F := Ideal) v = fun _ => v (ix2 0 0) := by
  unfold k1_pay2
  exact shapeCast_11_111 v _

end Cert.KernelIdeal.Payload

end
-- ==== Proof.KBlocks.lean ====
/-
  What the two regions read, traced back to the program's arguments.

  When region 1 is entered, the feature array and the centres are the arguments as launched, the label column is the
  label argument reshaped (entry `(r, 0)` is label `r`), and the row-mean array is what region 0 wrote: at the extended
  reals, entry `(0, j)` is the mean distance of centre `j` to the other centres.  Region 1's point `t` reads tile `t`
  of 512 feature rows and label rows — row `q` of the block is row `512 t + q` of the array — and the whole of the
  centres and of the row means.
-/
import proofs.«416808_j65412351918314_2_alg».proof.Proof.KPayload

set_option maxRecDepth 16384

noncomputable section

namespace Cert.KernelIdeal.KValue

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable {F : FTy → Type} [FloatOps F]
variable (m : (ℓ : Loc nD τ sig) → Buf (Elt F) ℓ) (ρ : Dev nD → PrngReg)

/-- The grid of region 1 has 32 points, so tile `t`'s row `q` is a row of the 16384. -/
theorem tile_row_lt (t : Fin cfg1.N) (q : Fin 512) : 512 * t.val + q.val < 16384 := by
  have := t.isLt; have hN : cfg1.N = 32 := N_1; omega

/-- The one host operation before the regions writes the label column only: every other buffer is, when region 0 is
    entered, what it was at launch. -/
theorem W1_of_ne (c : Dev nD) (b : Ref sig .tc) (hb : b ≠ main_v0) :
    W1 m ρ c (Proc.devRef .tc b) = m ((c.tc : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- A buffer that is no array of region 0 leaves the region as it entered. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- An array of region 0 leaves it at what the region's write-backs made of it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

/-- The features reach region 1 as launched. -/
theorem V2_arg0 (c : Dev nD) : V2 m ρ c main_arg0 = m ((c.tc : Thread nD τ).loc main_arg0) :=
  (W2_of_ne m ρ c main_arg0 (by decide)).trans (W1_of_ne m ρ c main_arg0 (by decide))

/-- The centres reach region 0 and region 1 as launched. -/
theorem V1_arg2 (c : Dev nD) : V1 m ρ c main_arg2 = m ((c.tc : Thread nD τ).loc main_arg2) :=
  W1_of_ne m ρ c main_arg2 (by decide)

theorem V2_arg2 (c : Dev nD) : V2 m ρ c main_arg2 = m ((c.tc : Thread nD τ).loc main_arg2) :=
  ((W2_arr m ρ c 0).trans (((dat0 (V1 m ρ) c).arrAt_in 0 rfl _).trans (A_eq0 (V1 m ρ) c 0))).trans (V1_arg2 m ρ c)

/-- The label column as region 0 and region 1 find it is the label argument reshaped. -/
theorem V2_v0_eq (c : Dev nD) :
    (V2 m ρ c main_v0 : S16384x1.Idx → BitVec 32)
      = shapeCast S16384x1 (m ((c.tc : Thread nD τ).loc main_arg1) : S16384.Idx → BitVec 32) shapeCasts_S16384_S16384x1 := by
  refine (W2_of_ne m ρ c main_v0 (by decide)).trans ?_
  show StableHlo.after hostOps0 _ (Proc.devRef .tc main_v0) = _
  after_results
  rfl

/-- The label column region 1 reads: entry `(r, 0)` is label `r`. -/
theorem V2_v0_apply (c : Dev nD) (r : Fin 16384) :
    (V2 m ρ c main_v0 : S16384x1.Idx → BitVec 32) (ix2 r 0) = (m ((c.tc : Thread nD τ).loc main_arg1) : S16384.Idx → BitVec 32) (ix1 r) := by
  rw [V2_v0_eq]
  refine shapeCast_apply (s := S16384) (t := S16384x1) _ _ _ _ ?_
  rw [Shape.rowMajor_val_two, Shape.rowMajor_val_one]
  show r.val = r.val * 1 + 0
  omega

/-! ## Region 1's blocks -/

/-- Where region 1's input blocks sit, decided over the grid: the feature and label blocks of point `t` are block `t`
    along the rows, and the centres and the row means are read whole at every point. -/
theorem idx1_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section Blocks
variable (V : (c : Dev nD) → (b : Ref sig .tc) → Buf (Elt F) ((c : Thread nD τ).loc b))

/-- Row `x 0` of the feature block of point `t` is row `512 t + x 0` of the feature array. -/
theorem feat1_at (c : Dev nD) (t : Fin cfg1.N) (x : S512x128.Idx) (k : S16384x128.Idx)
    (hk0 : (k 0).val = 512 * t.val + (x 0).val) (hk1 : (k 1).val = (x 1).val) :
    feat1 V c t x = (V c main_arg0 : S16384x128.Idx → Elt F .f32) k := by
  obtain ⟨e0, e1, -⟩ := idx1_facts t
  show V c main_arg0 (((cfg1.win 0).blk t).view.emb x) = V c main_arg0 k
  congr 1
  funext a
  apply Fin.ext
  match a with
  | ⟨0, _⟩ => show win1_0.index t (0 : Fin 2) * 512 + 1 * (x 0).val = (k 0).val; rw [e0, hk0]; omega
  | ⟨1, _⟩ => show win1_0.index t (1 : Fin 2) * 128 + 1 * (x 1).val = (k 1).val; rw [e1, hk1]; omega

/-- Row `x 0` of the label block of point `t` is row `512 t + x 0` of the label column. -/
theorem lab1_at (c : Dev nD) (t : Fin cfg1.N) (x : S512x1.Idx) (k : S16384x1.Idx)
    (hk0 : (k 0).val = 512 * t.val + (x 0).val) (hk1 : (k 1).val = (x 1).val) :
    (lab1 V c t : S512x1.Idx → BitVec 32) x = (V c main_v0 : S16384x1.Idx → BitVec 32) k := by
  obtain ⟨-, -, e0, e1, -⟩ := idx1_facts t
  show V c main_v0 (((cfg1.win 1).blk t).view.emb x) = V c main_v0 k
  congr 1
  funext a
  apply Fin.ext
  match a with
  | ⟨0, _⟩ => show win1_1.index t (0 : Fin 2) * 512 + 1 * (x 0).val = (k 0).val; rw [e0, hk0]; omega
  | ⟨1, _⟩ => show win1_1.index t (1 : Fin 2) * 1 + 1 * (x 1).val = (k 1).val; rw [e1, hk1]; omega

/-- The centres block of any point is the centres array. -/
theorem cen1_whole (c : Dev nD) (t : Fin cfg1.N) : cen1 V c t = (V c main_arg2 : S1000x128.Idx → Elt F .f32) := by
  obtain ⟨-, -, -, -, e0, e1, -⟩ := idx1_facts t
  funext x
  show V c main_arg2 (((cfg1.win 2).blk t).view.emb x) = V c main_arg2 x
  congr 1
  funext a
  apply Fin.ext
  match a with
  | ⟨0, _⟩ => show win1_2.index t (0 : Fin 2) * 1000 + 1 * (x 0).val = (x 0).val; rw [e0]; omega
  | ⟨1, _⟩ => show win1_2.index t (1 : Fin 2) * 128 + 1 * (x 1).val = (x 1).val; rw [e1]; omega

/-- The row-mean block of any point is the row-mean array. -/
theorem rm1_whole (c : Dev nD) (t : Fin cfg1.N) : rm1 V c t = (V c main_v1 : S1x1000.Idx → Elt F .f32) := by
  obtain ⟨-, -, -, -, -, -, e0, e1⟩ := idx1_facts t
  funext x
  show V c main_v1 (((cfg1.win 3).blk t).view.emb x) = V c main_v1 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 1000 + 1 * (x 1).val = (x 1).val; rw [e1]; omega

end Blocks

/-- Point `t`'s feature block is tile `t` of the feature array. -/
theorem feat1_apply (c : Dev nD) (t : Fin cfg1.N) (q : Fin 512) (k : Fin 128) :
    feat1 (V2 m ρ) c t (ix2 q k)
      = (m ((c.tc : Thread nD τ).loc main_arg0) : S16384x128.Idx → Elt F .f32) (ix2 ⟨512 * t.val + q.val, tile_row_lt t q⟩ k) :=
  (feat1_at (V2 m ρ) c t (ix2 q k) (ix2 ⟨512 * t.val + q.val, tile_row_lt t q⟩ k) rfl rfl).trans (congrFun (V2_arg0 m ρ c) _)

/-- Point `t`'s label block is tile `t` of the labels. -/
theorem lab1_apply (c : Dev nD) (t : Fin cfg1.N) (q : Fin 512) :
    (lab1 (V2 m ρ) c t : S512x1.Idx → BitVec 32) (ix2 q 0)
      = (m ((c.tc : Thread nD τ).loc main_arg1) : S16384.Idx → BitVec 32) (ix1 ⟨512 * t.val + q.val, tile_row_lt t q⟩) :=
  (lab1_at (V2 m ρ) c t (ix2 q 0) (ix2 ⟨512 * t.val + q.val, tile_row_lt t q⟩ 0) rfl rfl).trans (V2_v0_apply m ρ c _)

/-- Every point's centres block is the whole centres array. -/
theorem cen1_eq (c : Dev nD) (t : Fin cfg1.N) : cen1 (V2 m ρ) c t = m ((c.tc : Thread nD τ).loc main_arg2) :=
  (cen1_whole (V2 m ρ) c t).trans (V2_arg2 m ρ c)

/-! ## Region 0's output array -/

/-- Where region 0's blocks sit, decided over the grid: both are read and written whole. -/
theorem idx0_facts : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

section Region0
variable (V : (c : Dev nD) → (b : Ref sig .tc) → Buf (Elt F) ((c : Thread nD τ).loc b))

/-- Region 0's centres block is the centres array. -/
theorem cen0_whole (c : Dev nD) (t : Fin cfg0.N) : cen0 V c t = (V c main_arg2 : S1000x128.Idx → Elt F .f32) := by
  obtain ⟨e0, e1, -⟩ := idx0_facts t
  funext x
  show V c main_arg2 (((cfg0.win 0).blk t).view.emb x) = V c main_arg2 x
  congr 1
  funext a
  apply Fin.ext
  match a with
  | ⟨0, _⟩ => show win0_0.index t (0 : Fin 2) * 1000 + 1 * (x 0).val = (x 0).val; rw [e0]; omega
  | ⟨1, _⟩ => show win0_0.index t (1 : Fin 2) * 128 + 1 * (x 1).val = (x 1).val; rw [e1]; omega

/-- What region 0's point writes back is its block of the row-mean payload of the centres array. -/
theorem flushed0_eq (c : Dev nD) (t : Fin cfg0.N) :
    (dat0 V c).flushed 1 t = ((cfg0.win 1).blk t).view.read (Elt F) (k0_pay1 (V c main_arg2 : Vec F S1000x128 .f32)) := by
  show (cfg0.win 1).cut (grid0.coords t) ((dat0 V c).after 1 t) = _
  rw [after0_1, cen0_whole]
  obtain ⟨-, -, e0, e1⟩ := idx0_facts t
  funext y
  show k0_pay1 (V c main_arg2 : Vec F S1000x128 .f32) ((cfg0.win 1).xinj (grid0.coords t) y)
    = k0_pay1 (V c main_arg2 : Vec F S1000x128 .f32) (((cfg0.win 1).blk t).view.emb y)
  congr 1
  funext a
  apply Fin.ext
  match a with
  | ⟨0, _⟩ => show (y 0).val = win0_1.index t (0 : Fin 2) * 1 + 1 * (y 0).val; rw [e0]; omega
  | ⟨1, _⟩ => show (y 1).val = win0_1.index t (1 : Fin 2) * 1000 + 1 * (y 1).val; rw [e1]; omega

/-- An index of the row-mean array is in point `t`'s block iff each coordinate is in the block's range on its axis. -/
theorem mem_blk0 (t : Fin cfg0.N) (i : S1x1000.Idx) :
    i ∈ ((cfg0.win 1).blk t).view.set ↔ ∀ a : Fin 2, win0_1.index t a * S1x1000.size a ≤ (i a).val ∧ (i a).val < win0_1.index t a * S1x1000.size a + S1x1000.size a := by
  show i ∈ ((View.whole main_v1).slice (win0_1.rect t)).set ↔ _
  rw [View.set_slice_whole, Rect.mem_set_unit]
  exact Iff.rfl

/-- The one block covers the array, so region 0 leaves the row-mean array at the payload of the centres array. -/
theorem arrAt0_1 (c : Dev nD) : (dat0 V c).arrAt 1 cfg0.N = k0_pay1 (V c main_arg2 : Vec F S1000x128 .f32) :=
  (dat0 V c).arrAt_eq_of_cover 1 (k0_pay1 (V c main_arg2 : Vec F S1000x128 .f32)) (fun t _ => flushed0_eq V c t) fun i =>
    ⟨t0_0, flush0_1 t0_0, by
      rw [mem_blk0]
      obtain ⟨-, -, e0, e1⟩ := idx0_facts t0_0
      have h0 : (i 0).val < 1 := (i 0).isLt
      have h1 : (i 1).val < 1000 := (i 1).isLt
      intro a
      match a with
      | ⟨0, _⟩ => show win0_1.index t0_0 (0 : Fin 2) * 1 ≤ (i 0).val ∧ (i 0).val < win0_1.index t0_0 (0 : Fin 2) * 1 + 1; rw [e0]; omega
      | ⟨1, _⟩ => show win0_1.index t0_0 (1 : Fin 2) * 1000 ≤ (i 1).val ∧ (i 1).val < win0_1.index t0_0 (1 : Fin 2) * 1000 + 1000; rw [e1]; omega⟩

end Region0

/-- The row-mean array as region 1 finds it: the payload of the centres as launched. -/
theorem V2_v1_eq (c : Dev nD) :
    (V2 m ρ c main_v1 : S1x1000.Idx → Elt F .f32) = k0_pay1 (m ((c.tc : Thread nD τ).loc main_arg2) : Vec F S1000x128 .f32) :=
  ((W2_arr m ρ c 1).trans (arrAt0_1 (V1 m ρ) c)).trans (congrArg k0_pay1 (V1_arg2 m ρ c))

end Cert.KernelIdeal.KValue

namespace Cert.KernelIdeal.KValue

open Cert.KernelIdeal Cert.KernelIdeal.Gen Cert.KernelIdeal.Hand Cert.KernelIdeal.Payload
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- Every point's row-mean block is what region 0 wrote: at the extended reals, the centres' row means. -/
theorem rm1_apply (c : Dev nD) (t : Fin cfg1.N) (j : Fin 1000) :
    rm1 (F := Ideal) (V2 m ρ) c t (ix2 0 j)
      = Loss.rowMean (rows (m ((c.tc : Thread nD τ).loc main_arg2) : S1000x128.Idx → EReal)) j := by
  rw [rm1_whole, V2_v1_eq]
  exact pay1_rowMean _ j

end Cert.KernelIdeal.KValue

end
-- ==== Proof.KStep.lean ====
/-
  One grid point's update of each accumulator of the second kernel, read at the extended reals: the accumulator's one
  element plus the sum, over the tile's 512 rows, of the row's cross-entropy term (`Loss.kRow`) or of its contrastive
  term (`Loss.kHinge`).  The update sums the tile's column of row terms over both of its axes at once, which is the
  sum over the 512 rows.
-/
import proofs.«416808_j65412351918314_2_alg».proof.Proof.KPayload

noncomputable section

namespace Cert.KernelIdeal.Payload

open Cert.KernelIdeal Cert.KernelIdeal.Gen Cert.KernelIdeal.Hand
open Idealize.ShloMosaic Idealize.ShloMosaic.ValueIdx

/-! ## The layout and reduction steps of an update, each read at an index -/

namespace Step

/-- A vector of length `a` recast as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a `[512, 1000]` array, kept as a column: row `q` holds the sum of row `q`. -/
theorem laneSum_apply (X : FVec Ideal S512x1000 .f32) (hacc : (0x00000000#32 : BitVec 32) = 0x00000000#32) (q : Fin 512) :
    shapeCast S512x1 (multiReduction (F := Ideal) .add [1] S512 X 0x00000000#32 reduces_S512x1000_S512 (.inl rfl) hacc)
        shapeCasts_S512_S512x1 (ix2 q 0)
      = ∑ j : Fin 1000, X (ix2 q j) := by
  refine (shapeCast_a_a1_apply _ shapeCasts_S512_S512x1 q 0).trans ?_
  refine (Ideal.multiReduction_add_single X 0x00000000#32 reduces_S512x1000_S512 (.inl rfl) hacc (ix1 q)).trans ?_
  refine Finset.sum_congr rfl fun j _ => congrArg X ?_
  funext a
  match a with
  | ⟨0, _⟩ => rfl
  | ⟨1, _⟩ => rfl

/-- The indices of a `[1, a, 1]` array are its middle coordinates. -/
def idxEquiv1a1 {a : ℕ} : Fin a ≃ (⟨3, ![1, a, 1]⟩ : Shape).Idx where
  toFun q := ix3 (0 : Fin 1) q (0 : Fin 1)
  invFun i := i 1
  left_inv q := rfl
  right_inv i := by
    funext b
    match b with
    | ⟨0, _⟩ => exact Fin.ext (by have h := (i 0).isLt; change (i 0).val < 1 at h; show 0 = (i 0).val; omega)
    | ⟨1, _⟩ => rfl
    | ⟨2, _⟩ => exact Fin.ext (by have h := (i 2).isLt; change (i 2).val < 1 at h; show 0 = (i 2).val; omega)

/-- A column of 512 row terms, summed over both of its axes at once into one element: the sum of the 512 terms. -/
theorem total_apply (c : FVec Ideal S512x1 .f32) (hacc : (0x00000000#32 : BitVec 32) = 0x00000000#32) :
    extractAt ![0, 0, 0]
        (shapeCast S1x1x1
          (multiReduction (F := Ideal) .add [1, 2] S1 (shapeCast S1x512x1 c shapeCasts_S512x1_S1x512x1) 0x00000000#32
            reduces_S1x512x1_S1 (.inl rfl) hacc)
          shapeCasts_S1_S1x1x1)
        inpos_S1x1x1_p0_0_0
      = ∑ q : Fin 512, c (ix2 q 0) := by
  unfold extractAt
  refine (shapeCast_apply _ shapeCasts_S1_S1x1x1 _ (ix1 (0 : Fin 1)) (by
    rw [Shape.rowMajor_val_three, Shape.rowMajor_val_one]; rfl)).trans ?_
  refine (Ideal.multiReduction_add_total _ 0x00000000#32 reduces_S1x512x1_S1
    (fun b => match b with | ⟨0, _⟩ => rfl) (.inl rfl) hacc (ix1 (0 : Fin 1))).trans ?_
  rw [← Equiv.sum_comp (idxEquiv1a1 (a := 512))]
  refine Finset.sum_congr rfl fun q _ => ?_
  exact shapeCast_ab_1ab_apply c shapeCasts_S512x1_S1x512x1 0 q 0

/-- Every index of a one-element `[1, 1]` array is `(0, 0)`. -/
theorem idx11_eq (i : S1x1.Idx) : i = ix2 (0 : Fin 1) (0 : Fin 1) := by
  funext b
  match b with
  | ⟨0, _⟩ => exact Fin.ext (by have h := (i 0).isLt; change (i 0).val < 1 at h; show (i 0).val = 0; omega)
  | ⟨1, _⟩ => exact Fin.ext (by have h := (i 1).isLt; change (i 1).val < 1 at h; show (i 1).val = 0; omega)

/-- The cross-entropy accumulator's update over any distance matrix, log-sum-exp column and label mask: the accumulator's
    element plus the sum over the rows of the column's entry plus a tenth of the row's masked distance sum. -/
theorem pay9_apply (v24 : FVec Ideal S512x1000 .f32) (v35 : FVec Ideal S512x1 .f32) (v40 : IVec S512x1000 1)
    (v69 : Vec Ideal S1x1 .f32) (i : S1x1.Idx) :
    k1_pay9 (F := Ideal) v24 v35 v40 v69 i
      = v69 (ix2 0 0) + ∑ q : Fin 512,
          (v35 (ix2 q 0) + Loss.tenth * ∑ j : Fin 1000, k1_pay8 (F := Ideal) v40 (ix2 q j) * v24 (ix2 q j)) := by
  rw [idx11_eq i]
  unfold k1_pay9
  simp only []
  rw [shapeCast_self, addf_apply, broadcast_apply]
  refine congrArg (v69 (ix2 0 0) + ·) ?_
  refine (total_apply _ rfl).trans ?_
  refine Finset.sum_congr rfl fun q _ => ?_
  rw [addf_apply, mulf_apply, broadcast_apply]
  refine congrArg (v35 (ix2 q 0) + ·) ?_
  refine congrArg (Loss.tenth * ·) ?_
  refine (laneSum_apply _ rfl q).trans ?_
  rfl

/-- The contrastive accumulator's update over any label mask and row-mean block: the accumulator's element plus the sum
    over the rows of the hinge of 20 minus the row's masked sum of the block. -/
theorem pay10_apply (v40 : IVec S512x1000 1) (v54 : Vec Ideal S1x1000 .f32) (v74 : Vec Ideal S1x1 .f32) (i : S1x1.Idx) :
    k1_pay10 (F := Ideal) v40 v54 v74 i
      = v74 (ix2 0 0) + ∑ q : Fin 512,
          max (Loss.twenty - ∑ j : Fin 1000, k1_pay8 (F := Ideal) v40 (ix2 q j) * v54 (ix2 0 j)) 0 := by
  rw [idx11_eq i]
  unfold k1_pay10
  simp only [shapeCast_self]
  rw [addf_apply, broadcast_apply]
  refine congrArg (v74 (ix2 0 0) + ·) ?_
  refine (total_apply _ rfl).trans ?_
  refine Finset.sum_congr rfl fun q _ => ?_
  rw [maximumf_apply, subf_apply, broadcast_apply, broadcast_apply]
  have h0 : (Scalar.ofBits .f32 0x00000000#32 : Ideal .f32) = 0 := Ideal.ofBits_zero_f32
  rw [h0]
  refine congrArg (fun t => max (Loss.twenty - t) 0) ?_
  refine (laneSum_apply _ rfl q).trans ?_
  refine Finset.sum_congr rfl fun j _ => ?_
  rw [mulf_apply, broadcastTo_1b_ab_apply]

end Step

/-! ## The two updates in terms of the specification's row terms -/

/-- One point's update of the cross-entropy accumulator: the tile's 512 row terms are added. -/
theorem step8_apply (x0 : Vec Ideal S512x128 .f32) (x1 : Vec Ideal S512x1 .i32) (x2 : Vec Ideal S1000x128 .f32) (s : Vec Ideal S1x1 .f32)
    (ℓ : Fin 512 → Fin 1000) (h : ∀ q, x1 (ix2 q 0) = BitVec.ofNat 32 (ℓ q).val) :
    step8 (F := Ideal) x0 x1 x2 s = fun _ => s (ix2 0 0) + ∑ q : Fin 512, Loss.kRow (rows x0) (rows x2) ℓ q := by
  funext i
  unfold step8
  rw [Step.pay9_apply]
  refine congrArg (s (ix2 0 0) + ·) ?_
  refine Finset.sum_congr rfl fun q _ => ?_
  rw [pay6_lse]
  unfold Loss.kRow
  refine congrArg (fun t => (Loss.rmax (rows x0) (rows x2) q + Loss.lse (rows x0) (rows x2) q) + Loss.tenth * t) ?_
  refine Finset.sum_congr rfl fun j _ => ?_
  rw [pay8_onehot x1 ℓ h q j, pay5_dist]

/-- One point's update of the contrastive accumulator, when the row-mean block holds the row means of centres `B`. -/
theorem step9_apply (x1 : Vec Ideal S512x1 .i32) (x3 : Vec Ideal S1x1000 .f32) (s : Vec Ideal S1x1 .f32)
    (ℓ : Fin 512 → Fin 1000) (h : ∀ q, x1 (ix2 q 0) = BitVec.ofNat 32 (ℓ q).val)
    (B : Fin 1000 → Fin 128 → EReal) (hx3 : ∀ j : Fin 1000, x3 (ix2 0 j) = Loss.rowMean B j) :
    step9 (F := Ideal) x1 x3 s = fun _ => s (ix2 0 0) + ∑ q : Fin 512, Loss.kHinge B ℓ q := by
  funext i
  unfold step9
  rw [Step.pay10_apply]
  refine congrArg (s (ix2 0 0) + ·) ?_
  refine Finset.sum_congr rfl fun q _ => ?_
  unfold Loss.kHinge
  refine congrArg (fun t => max (Loss.twenty - t) 0) ?_
  refine Finset.sum_congr rfl fun j _ => ?_
  rw [pay8_onehot x1 ℓ h q j, hx3 j]

end Cert.KernelIdeal.Payload

end
-- ==== Proof.KValue.lean ====
/-
  The kernel program's result, read at the extended reals, is the specification's loss `Loss.kTotal` of the launch's
  feature rows, centre rows and labels.

  Region 1 runs over 2 × 16 points; point `n = 16 p + i` reads tile `n` of 512 feature rows and label rows, and adds to
  each of its two accumulators the sum over the tile's rows of the row's term (`Loss.kRow`, `Loss.kHinge`): a row term
  depends on the features and the labels through its own row only, so tile `n`'s term for block row `q` is the term of
  row `512 n + q` of the arguments.  The accumulators restart from zero where `i = 0`, so after the last point of grid row
  `p` each holds `0 +` the sum of the row's sixteen tile sums; that point alone writes the accumulators back, to element
  `(p, 0, 0)` of the two outputs.  The host then totals each output from zero over its two elements, divides by the
  row count, and adds one times the second quotient to the first.  Two grid rows of sixteen tiles of 512 rows are the
  16384 rows, in order, so each total is the sum of the row terms over all rows — sums in a commutative monoid, with no
  finiteness asked of the terms.
-/
import proofs.«416808_j65412351918314_2_alg».proof.Proof.KBlocks
import proofs.«416808_j65412351918314_2_alg».proof.Proof.KStep
import Mathlib.Algebra.BigOperators.Group.Finset.Basic
import Mathlib.Data.Fintype.BigOperators

set_option maxRecDepth 16384

noncomputable section

namespace Cert.KernelIdeal.KValue

open Cert.KernelIdeal Cert.KernelIdeal.Gen Cert.KernelIdeal.Hand Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Finset

variable {F : FTy → Type} [FloatOps F]

local notation "𝕄" => MT nD τ sig Unit (Elt F) ℕ (UR sig nD τ) ℕ

/-! ## Sums over consecutive stretches of rows -/

section Arith
variable {M : Type*} [AddCommMonoid M]

/-- A function on the rows `Fin R`, extended by zero to every natural number. -/
def ext0 {R : ℕ} (g : Fin R → M) (r : ℕ) : M := if h : r < R then g ⟨r, h⟩ else 0

theorem ext0_of_lt {R : ℕ} (g : Fin R → M) {r : ℕ} (h : r < R) : ext0 g r = g ⟨r, h⟩ := dif_pos h

/-- The sum over all rows is the sum of the extension over the initial segment. -/
theorem sum_eq_range {R : ℕ} (g : Fin R → M) : ∑ r : Fin R, g r = ∑ r ∈ range R, ext0 g r := by
  rw [← Fin.sum_univ_eq_sum_range]
  exact Finset.sum_congr rfl fun r _ => (ext0_of_lt g r.isLt).symm

/-- An initial segment of length `a * b` is `a` consecutive stretches of length `b`. -/
theorem sum_range_mul (f : ℕ → M) (a b : ℕ) :
    ∑ r ∈ range (a * b), f r = ∑ p ∈ range a, ∑ q ∈ range b, f (b * p + q) := by
  induction a with
  | zero => simp
  | succ a ih =>
    rw [Nat.succ_mul, Finset.sum_range_add, ih, Finset.sum_range_succ, Nat.mul_comm a b]

/-- A quantity that restarts at `0 + T n` where `n % 16 = 0` and otherwise adds `T n` to its value at `n - 1` is, at
    every position, `0 +` the sum of `T` over its stretch of sixteen so far. -/
theorem acc_closed {N : ℕ} (f : (n : ℕ) → n < N → M) (T : ℕ → M)
    (h0 : ∀ n (h : n < N), n % 16 = 0 → f n h = 0 + T n)
    (hs : ∀ n (h : n + 1 < N), ¬ (n + 1) % 16 = 0 → f (n + 1) h = f n (Nat.lt_of_succ_lt h) + T (n + 1)) :
    ∀ n (h : n < N), f n h = 0 + ∑ i ∈ range (n % 16 + 1), T (16 * (n / 16) + i) := by
  intro n
  induction n with
  | zero =>
    intro h
    rw [h0 0 h (Nat.zero_mod _)]
    simp
  | succ n ih =>
    intro h
    by_cases hm : (n + 1) % 16 = 0
    · rw [h0 _ h hm, hm]
      have : 16 * ((n + 1) / 16) = n + 1 := by omega
      simp [this]
    · rw [hs n h hm, ih (Nat.lt_of_succ_lt h)]
      have h1 : (n + 1) % 16 + 1 = (n % 16 + 1) + 1 := by omega
      have h2 : (n + 1) / 16 = n / 16 := by omega
      have h3 : 16 * (n / 16) + (n % 16 + 1) = n + 1 := by omega
      rw [h1, h2, Finset.sum_range_succ _ (n % 16 + 1), h3, add_assoc]

/-- At the last position of a stretch the sum runs over the whole stretch. -/
theorem acc_closed_last {N : ℕ} (f : (n : ℕ) → n < N → M) (T : ℕ → M)
    (h0 : ∀ n (h : n < N), n % 16 = 0 → f n h = 0 + T n)
    (hs : ∀ n (h : n + 1 < N), ¬ (n + 1) % 16 = 0 → f (n + 1) h = f n (Nat.lt_of_succ_lt h) + T (n + 1))
    (n : ℕ) (h : n < N) (hn : n % 16 = 15) :
    f n h = 0 + ∑ i ∈ range 16, T (16 * (n / 16) + i) := by
  rw [acc_closed f T h0 hs n h, hn]

/-- The sum of a row function over tile `t`: rows `512 t … 512 t + 511`. -/
def tileSum (g : Fin 16384 → M) (t : ℕ) : M := ∑ q ∈ range 512, ext0 g (512 * t + q)

/-- The 16384 rows are 2 stretches of 16 tiles of 512 rows. -/
theorem sum_tiles (g : Fin 16384 → M) :
    ∑ p ∈ range 2, ∑ i ∈ range 16, tileSum g (16 * p + i) = ∑ r : Fin 16384, g r := by
  rw [sum_eq_range g]
  have h1 : ∑ r ∈ range 16384, ext0 g r = ∑ p ∈ range 32, tileSum g p := sum_range_mul (ext0 g) 32 512
  have h2 : ∑ p ∈ range 32, tileSum g p = ∑ p ∈ range 2, ∑ i ∈ range 16, tileSum g (16 * p + i) :=
    sum_range_mul (tileSum g) 2 16
  exact (h1.trans h2).symm

end Arith

variable (m : (ℓ : Loc nD τ sig) → Buf (Elt Ideal) ℓ) (ρ : Dev nD → PrngReg)

/-- The feature rows and the centre rows of the launch, as functions of two coordinates. -/
abbrev argA (c : Dev nD) : Fin 16384 → Fin 128 → EReal :=
  fun r k => (m ((c.tc : Thread nD τ).loc main_arg0) : S16384x128.Idx → EReal) (ix2 r k)
abbrev argB (c : Dev nD) : Fin 1000 → Fin 128 → EReal :=
  fun j k => (m ((c.tc : Thread nD τ).loc main_arg2) : S1000x128.Idx → EReal) (ix2 j k)

section Accum
variable (c : Dev nD) (ℓ : Fin 16384 → Fin 1000)
  (hℓ : ∀ r : Fin 16384, (m ((c.tc : Thread nD τ).loc main_arg1) : S16384.Idx → BitVec 32) (ix1 r) = BitVec.ofNat 32 (ℓ r).val)

/-- The two row functions the accumulators sum: the cross-entropy term and the contrastive term of a row. -/
abbrev gK : Fin 16384 → EReal := fun r => Loss.kRow (argA m c) (argB m c) ℓ r
abbrev gH : Fin 16384 → EReal := fun r => Loss.kHinge (argB m c) ℓ r

include hℓ

/-- Point `t`'s update of the first accumulator adds tile `t`'s row terms: the tile's rows are rows `512 t + q` of the
    features, its labels those rows' labels, and a row term depends on the features and labels through its own row only. -/
theorem step8_tile (t : Fin cfg1.N) (s : Vec Ideal S1x1 .f32) :
    step8 (F := Ideal) (feat1 (V2 m ρ) c t) (lab1 (V2 m ρ) c t) (cen1 (V2 m ρ) c t) s
      = fun _ => s (ix2 0 0) + tileSum (gK m c ℓ) t.val := by
  rw [step8_apply _ _ _ _ (fun q => ℓ ⟨512 * t.val + q.val, tile_row_lt t q⟩) (fun q => by rw [lab1_apply, hℓ])]
  funext _
  congr 1
  unfold tileSum
  rw [← Fin.sum_univ_eq_sum_range]
  refine Finset.sum_congr rfl fun q _ => ?_
  rw [ext0_of_lt _ (tile_row_lt t q)]
  have hA : rows (feat1 (V2 m ρ) c t) = fun q k => argA m c ⟨512 * t.val + q.val, tile_row_lt t q⟩ k := by
    funext q k; exact feat1_apply m ρ c t q k
  rw [hA, cen1_eq]
  rfl

/-- Point `t`'s update of the second accumulator adds tile `t`'s contrastive terms. -/
theorem step9_tile (t : Fin cfg1.N) (s : Vec Ideal S1x1 .f32) :
    step9 (F := Ideal) (lab1 (V2 m ρ) c t) (rm1 (V2 m ρ) c t) s
      = fun _ => s (ix2 0 0) + tileSum (gH m c ℓ) t.val := by
  rw [step9_apply _ _ _ (fun q => ℓ ⟨512 * t.val + q.val, tile_row_lt t q⟩) (fun q => by rw [lab1_apply, hℓ])
    (argB m c) (fun j => rm1_apply m ρ c t j)]
  funext _
  congr 1
  unfold tileSum
  rw [← Fin.sum_univ_eq_sum_range]
  refine Finset.sum_congr rfl fun q _ => ?_
  rw [ext0_of_lt _ (tile_row_lt t q)]
  rfl

/-- THE FIRST ACCUMULATOR at the last point of a grid row: the row's sixteen tile sums. -/
theorem acc_fst_last (n : ℕ) (hn : n < cfg1.N) (h15 : n % 16 = 15) :
    (accAt1 (V2 m ρ) c n hn).1 (ix2 0 0) = 0 + ∑ i ∈ range 16, tileSum (gK m c ℓ) (16 * (n / 16) + i) := by
  refine acc_closed_last (fun n hn => (accAt1 (V2 m ρ) c n hn).1 (ix2 0 0)) (tileSum (gK m c ℓ)) ?_ ?_ n hn h15
  · intro n h hm
    have e := congrArg Prod.fst (accAt1_reset (V2 m ρ) c ⟨n, h⟩ hm)
    show (accAt1 (V2 m ρ) c n h).1 (ix2 0 0) = _
    rw [e, step8_tile m ρ c ℓ hℓ, pay3_zero]
  · intro n h hm
    have e := congrArg Prod.fst (accAt1_cont (V2 m ρ) c ⟨n + 1, h⟩ hm)
    show (accAt1 (V2 m ρ) c (n + 1) h).1 (ix2 0 0) = _
    rw [e, step8_tile m ρ c ℓ hℓ]
    rfl

/-- THE SECOND ACCUMULATOR likewise. -/
theorem acc_snd_last (n : ℕ) (hn : n < cfg1.N) (h15 : n % 16 = 15) :
    (accAt1 (V2 m ρ) c n hn).2 (ix2 0 0) = 0 + ∑ i ∈ range 16, tileSum (gH m c ℓ) (16 * (n / 16) + i) := by
  refine acc_closed_last (fun n hn => (accAt1 (V2 m ρ) c n hn).2 (ix2 0 0)) (tileSum (gH m c ℓ)) ?_ ?_ n hn h15
  · intro n h hm
    have e := congrArg Prod.snd (accAt1_reset (V2 m ρ) c ⟨n, h⟩ hm)
    show (accAt1 (V2 m ρ) c n h).2 (ix2 0 0) = _
    rw [e, step9_tile m ρ c ℓ hℓ, pay4_zero]
  · intro n h hm
    have e := congrArg Prod.snd (accAt1_cont (V2 m ρ) c ⟨n + 1, h⟩ hm)
    show (accAt1 (V2 m ρ) c (n + 1) h).2 (ix2 0 0) = _
    rw [e, step9_tile m ρ c ℓ hℓ]
    rfl

end Accum

section Arrays
variable (c : Dev nD) (ℓ : Fin 16384 → Fin 1000)
  (hℓ : ∀ r : Fin 16384, (m ((c.tc : Thread nD τ).loc main_arg1) : S16384.Idx → BitVec 32) (ix1 r) = BitVec.ofNat 32 (ℓ r).val)

/-- The block indices of the two output windows, decided over the grid: point `t` addresses block `t / 16` on the first
    axis and block 0 on the two unit axes. -/
theorem idx_facts4 : ∀ t : Fin cfg1.N, win1_4.index t (0 : Fin 3) = t.val / 16 ∧ win1_4.index t (1 : Fin 3) = 0
    ∧ win1_4.index t (2 : Fin 3) = 0 :=
  (by decide +kernel : ∀ t : Fin grid1.N, win1_4.index t (0 : Fin 3) = t.val / 16 ∧ win1_4.index t (1 : Fin 3) = 0
    ∧ win1_4.index t (2 : Fin 3) = 0)
theorem idx_facts5 : ∀ t : Fin cfg1.N, win1_5.index t (0 : Fin 3) = t.val / 16 ∧ win1_5.index t (1 : Fin 3) = 0
    ∧ win1_5.index t (2 : Fin 3) = 0 :=
  (by decide +kernel : ∀ t : Fin grid1.N, win1_5.index t (0 : Fin 3) = t.val / 16 ∧ win1_5.index t (1 : Fin 3) = 0
    ∧ win1_5.index t (2 : Fin 3) = 0)

/-- An index of an output array is in point `t`'s block iff each coordinate is in the block's range on its axis. -/
theorem mem_blk4 (t : Fin cfg1.N) (i : S2x1x1.Idx) :
    i ∈ ((cfg1.win 4).blk t).view.set ↔ ∀ a : Fin 3, win1_4.index t a * S1x1x1.size a ≤ (i a).val
      ∧ (i a).val < win1_4.index t a * S1x1x1.size a + S1x1x1.size a := by
  show i ∈ ((View.whole main_v2_0).slice (win1_4.rect t)).set ↔ _
  rw [View.set_slice_whole, Rect.mem_set_unit]
  exact Iff.rfl
theorem mem_blk5 (t : Fin cfg1.N) (i : S2x1x1.Idx) :
    i ∈ ((cfg1.win 5).blk t).view.set ↔ ∀ a : Fin 3, win1_5.index t a * S1x1x1.size a ≤ (i a).val
      ∧ (i a).val < win1_5.index t a * S1x1x1.size a + S1x1x1.size a := by
  show i ∈ ((View.whole main_v2_1).slice (win1_5.rect t)).set ↔ _
  rw [View.set_slice_whole, Rect.mem_set_unit]
  exact Iff.rfl

/-- What the two output arrays end holding: at grid row `p` the row's sixteen tile sums. -/
abbrev G4 : S2x1x1.Idx → EReal := fun i => 0 + ∑ k ∈ range 16, tileSum (gK m c ℓ) (16 * (i 0).val + k)
abbrev G5 : S2x1x1.Idx → EReal := fun i => 0 + ∑ k ∈ range 16, tileSum (gH m c ℓ) (16 * (i 0).val + k)

include hℓ in
/-- WHAT A FLUSHING POINT WRITES BACK to the first output is its block of `G4`: the point is the last of its grid row,
    where the accumulator holds the row's sum, and the block is the row's one element. -/
theorem flushed4_eq (t : Fin cfg1.N) (hf : (cfg1.win 4).flush t = true) :
    (dat1 (V2 m ρ) c).flushed 4 t = ((cfg1.win 4).blk t).view.read (Elt Ideal) (G4 m c ℓ) := by
  show (cfg1.win 4).cut (grid1.coords t) ((dat1 (V2 m ρ) c).after 4 t) = _
  rw [after1_4, pay1_copy]
  have h15 := (flush1_4 t).mp hf
  obtain ⟨e0, e1, e2⟩ := idx_facts4 t
  funext j
  show (accAt1 (V2 m ρ) c t.val t.isLt).1 (ix2 0 0) = G4 m c ℓ (((cfg1.win 4).blk t).view.emb j)
  rw [acc_fst_last m ρ c ℓ hℓ t.val t.isLt h15]
  have hj : ((((cfg1.win 4).blk t).view.emb j) 0).val = t.val / 16 := by
    show win1_4.index t (0 : Fin 3) * 1 + 1 * (j 0).val = _
    have : (j 0).val < 1 := (j 0).isLt
    omega
  show _ = 0 + ∑ k ∈ range 16, tileSum (gK m c ℓ) (16 * ((((cfg1.win 4).blk t).view.emb j) 0).val + k)
  rw [hj]

include hℓ in
/-- WHAT A FLUSHING POINT WRITES BACK to the second output, likewise. -/
theorem flushed5_eq (t : Fin cfg1.N) (hf : (cfg1.win 5).flush t = true) :
    (dat1 (V2 m ρ) c).flushed 5 t = ((cfg1.win 5).blk t).view.read (Elt Ideal) (G5 m c ℓ) := by
  show (cfg1.win 5).cut (grid1.coords t) ((dat1 (V2 m ρ) c).after 5 t) = _
  rw [after1_5, pay2_copy]
  have h15 := (flush1_5 t).mp hf
  obtain ⟨e0, e1, e2⟩ := idx_facts5 t
  funext j
  show (accAt1 (V2 m ρ) c t.val t.isLt).2 (ix2 0 0) = G5 m c ℓ (((cfg1.win 5).blk t).view.emb j)
  rw [acc_snd_last m ρ c ℓ hℓ t.val t.isLt h15]
  have hj : ((((cfg1.win 5).blk t).view.emb j) 0).val = t.val / 16 := by
    show win1_5.index t (0 : Fin 3) * 1 + 1 * (j 0).val = _
    have : (j 0).val < 1 := (j 0).isLt
    omega
  show _ = 0 + ∑ k ∈ range 16, tileSum (gH m c ℓ) (16 * ((((cfg1.win 5).blk t).view.emb j) 0).val + k)
  rw [hj]

/-- EVERY ELEMENT of an output array is in the block of a flushing point: element `(p, 0, 0)` in that of the last point
    of grid row `p`. -/
theorem cover4 (i : S2x1x1.Idx) :
    ∃ t : Fin cfg1.N, (cfg1.win 4).flush t = true ∧ i ∈ ((cfg1.win 4).blk t).view.set := by
  have h0 : (i 0).val < 2 := (i 0).isLt
  have h1 : (i 1).val < 1 := (i 1).isLt
  have h2 : (i 2).val < 1 := (i 2).isLt
  have hN : cfg1.N = 32 := N_1
  have hlt : 16 * (i 0).val + 15 < cfg1.N := by omega
  refine ⟨⟨16 * (i 0).val + 15, hlt⟩, (flush1_4 _).mpr (by show (16 * (i 0).val + 15) % 16 = 15; omega), ?_⟩
  rw [mem_blk4]
  obtain ⟨e0, e1, e2⟩ := idx_facts4 ⟨16 * (i 0).val + 15, hlt⟩
  have e0' : win1_4.index ⟨16 * (i 0).val + 15, hlt⟩ (0 : Fin 3) = (16 * (i 0).val + 15) / 16 := e0
  intro a
  match a with
  | ⟨0, _⟩ =>
    show win1_4.index ⟨16 * (i 0).val + 15, hlt⟩ (0 : Fin 3) * 1 ≤ (i 0).val
      ∧ (i 0).val < win1_4.index ⟨16 * (i 0).val + 15, hlt⟩ (0 : Fin 3) * 1 + 1
    omega
  | ⟨1, _⟩ =>
    show win1_4.index ⟨16 * (i 0).val + 15, hlt⟩ (1 : Fin 3) * 1 ≤ (i 1).val
      ∧ (i 1).val < win1_4.index ⟨16 * (i 0).val + 15, hlt⟩ (1 : Fin 3) * 1 + 1
    omega
  | ⟨2, _⟩ =>
    show win1_4.index ⟨16 * (i 0).val + 15, hlt⟩ (2 : Fin 3) * 1 ≤ (i 2).val
      ∧ (i 2).val < win1_4.index ⟨16 * (i 0).val + 15, hlt⟩ (2 : Fin 3) * 1 + 1
    omega
theorem cover5 (i : S2x1x1.Idx) :
    ∃ t : Fin cfg1.N, (cfg1.win 5).flush t = true ∧ i ∈ ((cfg1.win 5).blk t).view.set := by
  have h0 : (i 0).val < 2 := (i 0).isLt
  have h1 : (i 1).val < 1 := (i 1).isLt
  have h2 : (i 2).val < 1 := (i 2).isLt
  have hN : cfg1.N = 32 := N_1
  have hlt : 16 * (i 0).val + 15 < cfg1.N := by omega
  refine ⟨⟨16 * (i 0).val + 15, hlt⟩, (flush1_5 _).mpr (by show (16 * (i 0).val + 15) % 16 = 15; omega), ?_⟩
  rw [mem_blk5]
  obtain ⟨e0, e1, e2⟩ := idx_facts5 ⟨16 * (i 0).val + 15, hlt⟩
  have e0' : win1_5.index ⟨16 * (i 0).val + 15, hlt⟩ (0 : Fin 3) = (16 * (i 0).val + 15) / 16 := e0
  intro a
  match a with
  | ⟨0, _⟩ =>
    show win1_5.index ⟨16 * (i 0).val + 15, hlt⟩ (0 : Fin 3) * 1 ≤ (i 0).val
      ∧ (i 0).val < win1_5.index ⟨16 * (i 0).val + 15, hlt⟩ (0 : Fin 3) * 1 + 1
    omega
  | ⟨1, _⟩ =>
    show win1_5.index ⟨16 * (i 0).val + 15, hlt⟩ (1 : Fin 3) * 1 ≤ (i 1).val
      ∧ (i 1).val < win1_5.index ⟨16 * (i 0).val + 15, hlt⟩ (1 : Fin 3) * 1 + 1
    omega
  | ⟨2, _⟩ =>
    show win1_5.index ⟨16 * (i 0).val + 15, hlt⟩ (2 : Fin 3) * 1 ≤ (i 2).val
      ∧ (i 2).val < win1_5.index ⟨16 * (i 0).val + 15, hlt⟩ (2 : Fin 3) * 1 + 1
    omega

include hℓ in
/-- THE TWO OUTPUT ARRAYS after region 1: every element is written back exactly by the last point of its grid row. -/
theorem arr4 : (dat1 (V2 m ρ) c).arrAt 4 cfg1.N = G4 m c ℓ :=
  (dat1 (V2 m ρ) c).arrAt_eq_of_cover 4 _ (fun t hf => flushed4_eq m ρ c ℓ hℓ t hf) cover4
include hℓ in
theorem arr5 : (dat1 (V2 m ρ) c).arrAt 5 cfg1.N = G5 m c ℓ :=
  (dat1 (V2 m ρ) c).arrAt_eq_of_cover 5 _ (fun t hf => flushed5_eq m ρ c ℓ hℓ t hf) cover5

/-- At region 1's exit its two output buffers hold those arrays. -/
theorem W3_v2_0 : W3 m ρ c (Proc.devRef .tc main_v2_0) = (dat1 (V2 m ρ) c).arrAt 4 cfg1.N := by
  unfold W3; exact Pipeline.withArrays_arr spec1 launch1.win.arr_inj c _ _ 4
theorem W3_v2_1 : W3 m ρ c (Proc.devRef .tc main_v2_1) = (dat1 (V2 m ρ) c).arrAt 5 cfg1.N := by
  unfold W3; exact Pipeline.withArrays_arr spec1 launch1.win.arr_inj c _ _ 5

end Arrays

section Tail
variable (c : Dev nD)

/-- The two outputs of region 1 at its exit, as arrays of extended reals. -/
abbrev out0 : S2x1x1.Idx → EReal := W3 m ρ c (Proc.devRef .tc main_v2_0)
abbrev out1 : S2x1x1.Idx → EReal := W3 m ρ c (Proc.devRef .tc main_v2_1)

/-- THE HOST TAIL: the program's result is the first output's total over the row count plus one times the second
    output's total over the row count, each total taken from zero. -/
theorem W4_v8 : (W4 m ρ c (Proc.devRef .tc main_v8) : S_.Idx → EReal) = fun _ =>
    Ideal.div (0 + ∑ i : S2x1x1.Idx, out0 m ρ c i) Loss.nRows
      + Loss.one * Ideal.div (0 + ∑ i : S2x1x1.Idx, out1 m ρ c i) Loss.nRows := by
  show StableHlo.after hostOps2 _ (Proc.devRef .tc main_v8) = _
  after_results
  funext j
  simp only [addf_apply, mulf_apply, constant_apply, Host.divf, Host.reduceAdd, Ideal.hostDivf_def, Ideal.hostReduceAdd_def]
  rw [Ideal.hostReduceAdd_total _ (fun b => b.elim0), Ideal.hostReduceAdd_total _ (fun b => b.elim0), Ideal.ofBits_zero_f32]
  rfl

end Tail

/-! ## The result -/

section Result

/-- The index set of a [2, 1, 1] array is its first coordinate's range … -/
def idxEquiv211 : S2x1x1.Idx ≃ Fin 2 where
  toFun i := i 0
  invFun p := ix3 p 0 0
  left_inv i := by
    funext a
    match a with
    | ⟨0, _⟩ => rfl
    | ⟨1, _⟩ => exact Fin.ext (by show (0 : ℕ) = (i 1).val; have : (i 1).val < 1 := (i 1).isLt; omega)
    | ⟨2, _⟩ => exact Fin.ext (by show (0 : ℕ) = (i 2).val; have : (i 2).val < 1 := (i 2).isLt; omega)
  right_inv _ := rfl

/-- … so a sum over it is the sum over the first coordinate. -/
theorem sum_idx211 {M : Type*} [AddCommMonoid M] (f : S2x1x1.Idx → M) : ∑ i, f i = ∑ p : Fin 2, f (ix3 p 0 0) := by
  rw [← Equiv.sum_comp idxEquiv211.symm f]
  rfl

/-- The total of an output array — two grid rows of sixteen tile sums each — is the sum over all 16384 rows. -/
theorem sum_G (g : Fin 16384 → EReal) :
    ∑ i : S2x1x1.Idx, (0 + ∑ k ∈ range 16, tileSum g (16 * (i 0).val + k)) = ∑ r : Fin 16384, g r := by
  rw [sum_idx211, ← sum_tiles g, ← Fin.sum_univ_eq_sum_range (fun p => ∑ i ∈ range 16, tileSum g (16 * p + i)) 2]
  exact Finset.sum_congr rfl fun p _ => zero_add _

/-- THE KERNEL PROGRAM'S RESULT, read at the extended reals, is the specification's loss of the launch's feature rows,
    centre rows and labels. -/
theorem result_eq (c : Dev nD) (ℓ : Fin 16384 → Fin 1000)
    (hℓ : ∀ r : Fin 16384, (m ((c.tc : Thread nD τ).loc main_arg1) : S16384.Idx → BitVec 32) (ix1 r) = BitVec.ofNat 32 (ℓ r).val) :
    (W4 (F := Ideal) m ρ c (Proc.devRef .tc main_v8) : S_.Idx → EReal)
      = fun _ => Loss.kTotal (fun r k => (m ((c.tc : Thread nD τ).loc main_arg0) : S16384x128.Idx → EReal) (ix2 r k))
                              (fun j k => (m ((c.tc : Thread nD τ).loc main_arg2) : S1000x128.Idx → EReal) (ix2 j k)) ℓ := by
  rw [W4_v8, show out0 m ρ c = G4 m c ℓ from (W3_v2_0 m ρ c).trans (arr4 m ρ c ℓ hℓ),
    show out1 m ρ c = G5 m c ℓ from (W3_v2_1 m ρ c).trans (arr5 m ρ c ℓ hℓ)]
  funext _
  rw [show (∑ i : S2x1x1.Idx, G4 m c ℓ i) = ∑ r : Fin 16384, gK m c ℓ r from sum_G _,
    show (∑ i : S2x1x1.Idx, G5 m c ℓ i) = ∑ r : Fin 16384, gH m c ℓ r from sum_G _, zero_add, zero_add]
  rfl

end Result

end Cert.KernelIdeal.KValue

end
-- ==== Proof.LibTypedRef.lean ====
/-
  A typed reference's transport, and its inverse.

  A line of a module-local function writes its result to a buffer through a transport along an equation of buffer
  types (`TRef.toBuf`) and a later line of the function reads it back through the inverse transport (`TRef.ofBuf`).
  Whatever the equation's proof, a value carried there and back is the value: the two transports cancel. So where
  the lines of such a function are read back as values, every pair "written, then read" disappears by these two
  lemmas, with no need to decide that the two buffer types are the same type; a transport is then left only where
  a line of the function reads a buffer written outside it, or writes one read outside it — at the ends of the
  function's stretch of lines, where it is the identity on a value that already has a name.
-/
import Idealize.ShloMosaic.Lib.StableHlo

namespace Idealize.ShloMosaic.StableHlo

/-- A value carried along an equation of types and back is itself. -/
theorem cast_cast_cancel {α β : Sort _} (h : α = β) (h' : β = α) (v : α) : cast h' (cast h v) = v := by subst h; rfl

/-- What a typed reference writes to its buffer and reads back is the value written. -/
theorem TRef.ofBuf_toBuf {sig : RefSig} {Val : EltTy → Type} {T : BufTy} (x : TRef sig T) (v : T.Contents Val) :
    x.ofBuf (x.toBuf v) = v := cast_cast_cancel _ _ v

/-- What is read from a typed reference's buffer and written back is what was there. -/
theorem TRef.toBuf_ofBuf {sig : RefSig} {Val : EltTy → Type} {T : BufTy} (x : TRef sig T) (v : x.ref.ty.Contents Val) :
    x.toBuf (x.ofBuf v) = v := cast_cast_cancel _ _ v

end Idealize.ShloMosaic.StableHlo
-- ==== Proof.RefRunChunks.lean ====
/-
  The reference program's operations in eight stretches, in program order, and what each stretch does to a valuation of
  the device's buffers.

  Every operation has a stage: the value it writes, as a function of the program's three arguments, each stage being one
  operation applied to earlier stages. A stretch is a run of consecutive operations. Its fact: if a valuation holds, at
  every buffer from before the stretch that the stretch or a later operation reads, that buffer's stage (an argument's
  buffer holding the argument), then the valuation after the stretch holds, at every buffer a later operation reads,
  that buffer's stage. A buffer the stretch does not write keeps its contents, its reference being none of the
  stretch's result references. A buffer it writes holds its operation applied to its operands' contents; these are
  stages, by hypothesis or by the stretch's earlier operations, so the buffer holds its own stage by the stage's
  definition. Within an inlined function's lines a value is written through a transport along an equation of buffer
  types and read back through the inverse transport; carried there and back a value is itself, whatever the equation's
  proof.
-/
import proofs.«416808_j65412351918314_2_alg».proof.Proof.RefReadP
import proofs.«416808_j65412351918314_2_alg».proof.Proof.LibTypedRef
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Operations 1 to 24 of the program. -/
abbrev ops1 : List (HloOp τ sig (Elt F)) :=
  [ binary main_arg0 main_arg0 main_v0 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v0 main_cst main_v1 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    unary main_arg2 main_v3 ((transpose S128x1000 [1, 0] · transposes_S1000x128_S128x1000_1_0) : (⟨S1000x128, .f32⟩ : BufTy).Contents (Elt F) → (⟨S128x1000, .f32⟩ : BufTy).Contents (Elt F)),
    binary main_arg0 main_v3 main_v4 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    nullary main_cst_0 (constant S_ .f32 0x40000000#32),
    unary main_cst_0 main_v5 (broadcastInDim S16384x1000 ![] bcast_S_S16384x1000 : (⟨S_, .f32⟩ : BufTy).Contents (Elt F) → (⟨S16384x1000, .f32⟩ : BufTy).Contents (Elt F)),
    binary main_v5 main_v4 main_v6 (mulf : (⟨S16384x1000, .f32⟩ : BufTy).Contents (Elt F) → (⟨S16384x1000, .f32⟩ : BufTy).Contents (Elt F) → (⟨S16384x1000, .f32⟩ : BufTy).Contents (Elt F)),
    unary main_v2 main_v7 (broadcastInDim S16384x1000 ![0, 1] bcast_S16384x1_S16384x1000_0_1 : (⟨S16384x1, .f32⟩ : BufTy).Contents (Elt F) → (⟨S16384x1000, .f32⟩ : BufTy).Contents (Elt F)),
    binary main_v7 main_v6 main_v8 (subf : (⟨S16384x1000, .f32⟩ : BufTy).Contents (Elt F) → (⟨S16384x1000, .f32⟩ : BufTy).Contents (Elt F) → (⟨S16384x1000, .f32⟩ : BufTy).Contents (Elt F)),
    binary main_arg2 main_arg2 main_v9 (mulf : (⟨S1000x128, .f32⟩ : BufTy).Contents (Elt F) → (⟨S1000x128, .f32⟩ : BufTy).Contents (Elt F) → (⟨S1000x128, .f32⟩ : BufTy).Contents (Elt F)),
    nullary main_cst_1 (constant S_ .f32 0x00000000#32),
    binary main_v9 main_cst_1 main_v10 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v10 main_v11 (broadcastInDim S1x1000 ![1] bcast_S1000_S1x1000_1 : (⟨S1000, .f32⟩ : BufTy).Contents (Elt F) → (⟨S1x1000, .f32⟩ : BufTy).Contents (Elt F)),
    unary main_v11 main_v12 (broadcastInDim S16384x1000 ![0, 1] bcast_S1x1000_S16384x1000_0_1 : (⟨S1x1000, .f32⟩ : BufTy).Contents (Elt F) → (⟨S16384x1000, .f32⟩ : BufTy).Contents (Elt F)),
    binary main_v8 main_v12 main_v13 (addf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0x00000000#32),
    unary main_cst_2 main_v14 (broadcastInDim S16384x1000 ![] bcast_S_S16384x1000 : (⟨S_, .f32⟩ : BufTy).Contents (Elt F) → (⟨S16384x1000, .f32⟩ : BufTy).Contents (Elt F)),
    binary main_v13 main_v14 main_v15 (maximumf : (⟨S16384x1000, .f32⟩ : BufTy).Contents (Elt F) → (⟨S16384x1000, .f32⟩ : BufTy).Contents (Elt F) → (⟨S16384x1000, .f32⟩ : BufTy).Contents (Elt F)),
    unary main_v15 main_v16 (Host.sqrt : (⟨S16384x1000, .f32⟩ : BufTy).Contents (Elt F) → (⟨S16384x1000, .f32⟩ : BufTy).Contents (Elt F)),
    nullary main_cst_3 (constant S_ .f32 0xBDCCCCCD#32),
    unary main_cst_3 main_v17 (broadcastInDim S16384x1000 ![] bcast_S_S16384x1000 : (⟨S_, .f32⟩ : BufTy).Contents (Elt F) → (⟨S16384x1000, .f32⟩ : BufTy).Contents (Elt F)),
    binary main_v17 main_v16 main_v18 (mulf : (⟨S16384x1000, .f32⟩ : BufTy).Contents (Elt F) → (⟨S16384x1000, .f32⟩ : BufTy).Contents (Elt F) → (⟨S16384x1000, .f32⟩ : BufTy).Contents (Elt F)) ]

/-- From a valuation at the stages of what is read from before them, operations 1 to 24 lead to one at the stages of what is read after them. -/
theorem after_ops1 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg0 : W (Proc.devRef (τ := τ) .tc main_arg0) = x0)
    (h_arg1 : W (Proc.devRef (τ := τ) .tc main_arg1) = x1)
    (h_arg2 : W (Proc.devRef (τ := τ) .tc main_arg2) = x2) :
    after ops1 W (Proc.devRef (τ := τ) .tc main_arg1) = x1
    ∧ after ops1 W (Proc.devRef (τ := τ) .tc main_arg2) = x2
    ∧ after ops1 W (Proc.devRef (τ := τ) .tc main_v18) = val_main_v18 x0 x2 := by
  refine ⟨?_, ?_, ?_⟩
  · after_results_simp; exact h_arg1
  · after_results_simp; exact h_arg2
  · after_results_simp
    rw [h_arg0, h_arg2]
    rfl

/-- Operations 25 to 39 of the program. -/
abbrev ops2 : List (HloOp τ sig (Elt F)) :=
  [ TRef.nullary (TRef.of (T := ⟨S_, .f32⟩) main_call0_cst) (constant S_ .f32 0xFF800000#32),
    TRef.binary (TRef.of (T := ⟨S16384x1000, .f32⟩) main_v18) (TRef.of (T := ⟨S_, .f32⟩) main_call0_cst) (TRef.of (T := ⟨S16384, .f32⟩) main_call0_v0) (fun x v => Host.reduce FloatOps.maximumf x v reducesTo_S16384x1000_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x1000, .f32⟩) main_call0_v4) (broadcastInDim S16384x1000 ![0, 1] bcast_S16384x1_S16384x1000_0_1),
    TRef.binary (TRef.of (T := ⟨S16384x1000, .f32⟩) main_v18) (TRef.of (T := ⟨S16384x1000, .f32⟩) main_call0_v4) (TRef.of (T := ⟨S16384x1000, .f32⟩) main_call0_v5) subf,
    TRef.unary (TRef.of (T := ⟨S16384x1000, .f32⟩) main_call0_v5) (TRef.of (T := ⟨S16384x1000, .f32⟩) main_call0_v6) Host.exp,
    TRef.nullary (TRef.of (T := ⟨S_, .f32⟩) main_call0_cst_1) (constant S_ .f32 0x00000000#32),
    TRef.binary (TRef.of (T := ⟨S16384x1000, .f32⟩) main_call0_v6) (TRef.of (T := ⟨S_, .f32⟩) main_call0_cst_1) (TRef.of (T := ⟨S16384, .f32⟩) main_call0_v7) (fun x v => Host.reduceAdd x v reducesTo_S16384x1000_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x1000, .f32⟩) main_call0_v10) (broadcastInDim S16384x1000 ![0, 1] bcast_S16384x1_S16384x1000_0_1),
    TRef.binary (TRef.of (T := ⟨S16384x1000, .f32⟩) main_call0_v5) (TRef.of (T := ⟨S16384x1000, .f32⟩) main_call0_v10) (TRef.of (T := ⟨S16384x1000, .f32⟩) main_v19) subf ]

/-- From a valuation at the stages of what is read from before them, operations 25 to 39 lead to one at the stages of what is read after them. -/
theorem after_ops2 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_arg2 : W (Proc.devRef (τ := τ) .tc main_arg2) = x2)
    (h_v18 : W (Proc.devRef (τ := τ) .tc main_v18) = val_main_v18 x0 x2) :
    after ops2 W (Proc.devRef (τ := τ) .tc main_arg1) = x1
    ∧ after ops2 W (Proc.devRef (τ := τ) .tc main_arg2) = x2
    ∧ after ops2 W (Proc.devRef (τ := τ) .tc main_v19) = val_main_v19 x0 x2 := by
  refine ⟨?_, ?_, ?_⟩
  · after_results_simp; exact h_arg1
  · after_results_simp; exact h_arg2
  · after_results_simp
    simp only [cast_cast_cancel]
    rw [h_v18]
    rfl

/-- Operations 40 to 56 of the program. -/
abbrev ops3 : List (HloOp τ sig (Elt F)) :=
  [ nullary main_v20 (iotaInDim S16384 32 0),
    nullary main_c (constantI S_ 32 0#32),
    unary main_c main_v21 (broadcastInDim S16384 ![] bcast_S_S16384 : (⟨S_, .i32⟩ : BufTy).Contents (Elt F) → (⟨S16384, .i32⟩ : BufTy).Contents (Elt F)),
    binary main_v20 main_v21 main_v22 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v23 (broadcastInDim S16384 ![] bcast_S_S16384 : (⟨S_, .i32⟩ : BufTy).Contents (Elt F) → (⟨S16384, .i32⟩ : BufTy).Contents (Elt F)),
    binary main_v20 main_v23 main_v24 (addi : (⟨S16384, .i32⟩ : BufTy).Contents (Elt F) → (⟨S16384, .i32⟩ : BufTy).Contents (Elt F) → (⟨S16384, .i32⟩ : BufTy).Contents (Elt F)),
    ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v26 (broadcastInDim S16384 ![] bcast_S_S16384 : (⟨S_, .i32⟩ : BufTy).Contents (Elt F) → (⟨S16384, .i32⟩ : BufTy).Contents (Elt F)),
    binary main_arg1 main_v26 main_v27 (cmpi .slt : (⟨S16384, .i32⟩ : BufTy).Contents (Elt F) → (⟨S16384, .i32⟩ : BufTy).Contents (Elt F) → (⟨S16384, .i1⟩ : BufTy).Contents (Elt F)),
    nullary main_c_6 (constantI S_ 32 1000#32),
    unary main_c_6 main_v28 (broadcastInDim S16384 ![] bcast_S_S16384 : (⟨S_, .i32⟩ : BufTy).Contents (Elt F) → (⟨S16384, .i32⟩ : BufTy).Contents (Elt F)),
    binary main_arg1 main_v28 main_v29 (addi : (⟨S16384, .i32⟩ : BufTy).Contents (Elt F) → (⟨S16384, .i32⟩ : BufTy).Contents (Elt F) → (⟨S16384, .i32⟩ : BufTy).Contents (Elt F)),
    ternary main_v27 main_v29 main_arg1 main_v30 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v25 main_v31 (broadcastInDim S16384x1 ![0] bcast_S16384_S16384x1_0 : (⟨S16384, .i32⟩ : BufTy).Contents (Elt F) → (⟨S16384x1, .i32⟩ : BufTy).Contents (Elt F)),
    unary main_v30 main_v32 (broadcastInDim S16384x1 ![0] bcast_S16384_S16384x1_0 : (⟨S16384, .i32⟩ : BufTy).Contents (Elt F) → (⟨S16384x1, .i32⟩ : BufTy).Contents (Elt F)) ]

/-- From a valuation at the stages of what is read from before them, operations 40 to 56 lead to one at the stages of what is read after them. -/
theorem after_ops3 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_arg2 : W (Proc.devRef (τ := τ) .tc main_arg2) = x2)
    (h_v19 : W (Proc.devRef (τ := τ) .tc main_v19) = val_main_v19 x0 x2) :
    after ops3 W (Proc.devRef (τ := τ) .tc main_arg1) = x1
    ∧ after ops3 W (Proc.devRef (τ := τ) .tc main_arg2) = x2
    ∧ after ops3 W (Proc.devRef (τ := τ) .tc main_v19) = val_main_v19 x0 x2
    ∧ after ops3 W (Proc.devRef (τ := τ) .tc main_v31) = val_main_v31
    ∧ after ops3 W (Proc.devRef (τ := τ) .tc main_v32) = val_main_v32 x1 := by
  refine ⟨?_, ?_, ?_, ?_, ?_⟩
  · after_results_simp; exact h_arg1
  · after_results_simp; exact h_arg2
  · after_results_simp; exact h_v19
  · after_results_simp
    rfl
  · after_results_simp
    rw [h_arg1]
    rfl

/-- Operations 57 to 63 of the program. -/
abbrev ops4 : List (HloOp τ sig (Elt F)) :=
  [ binary main_v31 main_v32 main_v33 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v19 main_v33 main_v34 ((fun x i => Host.gather gather_S16384x1000_S16384x2_S16384_n_01_n_n_01_1_11 x i) : (⟨S16384x1000, .f32⟩ : BufTy).Contents (Elt F) → (⟨S16384x2, .i32⟩ : BufTy).Contents (Elt F) → (⟨S16384, .f32⟩ : BufTy).Contents (Elt F)),
    nullary main_cst_7 (constant S_ .f32 0x00000000#32),
    binary main_v34 main_cst_7 main_v35 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_8 (constant S_ .f32 0x46800000#32),
    binary main_v35 main_cst_8 main_v36 (Host.divf : (⟨S_, .f32⟩ : BufTy).Contents (Elt F) → (⟨S_, .f32⟩ : BufTy).Contents (Elt F) → (⟨S_, .f32⟩ : BufTy).Contents (Elt F)),
    unary main_v36 main_v37 (Host.negf : (⟨S_, .f32⟩ : BufTy).Contents (Elt F) → (⟨S_, .f32⟩ : BufTy).Contents (Elt F)) ]

/-- From a valuation at the stages of what is read from before them, operations 57 to 63 lead to one at the stages of what is read after them. -/
theorem after_ops4 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_arg2 : W (Proc.devRef (τ := τ) .tc main_arg2) = x2)
    (h_v19 : W (Proc.devRef (τ := τ) .tc main_v19) = val_main_v19 x0 x2)
    (h_v31 : W (Proc.devRef (τ := τ) .tc main_v31) = val_main_v31)
    (h_v32 : W (Proc.devRef (τ := τ) .tc main_v32) = val_main_v32 x1) :
    after ops4 W (Proc.devRef (τ := τ) .tc main_arg1) = x1
    ∧ after ops4 W (Proc.devRef (τ := τ) .tc main_arg2) = x2
    ∧ after ops4 W (Proc.devRef (τ := τ) .tc main_v37) = val_main_v37 x0 x1 x2 := by
  refine ⟨?_, ?_, ?_⟩
  · after_results_simp; exact h_arg1
  · after_results_simp; exact h_arg2
  · after_results_simp
    rw [h_v19, h_v31, h_v32]
    rfl

/-- Operations 64 to 80 of the program. -/
abbrev ops5 : List (HloOp τ sig (Elt F)) :=
  [ binary main_arg2 main_arg2 main_v38 (mulf : (⟨S1000x128, .f32⟩ : BufTy).Contents (Elt F) → (⟨S1000x128, .f32⟩ : BufTy).Contents (Elt F) → (⟨S1000x128, .f32⟩ : BufTy).Contents (Elt F)),
    nullary main_cst_9 (constant S_ .f32 0x00000000#32),
    binary main_v38 main_cst_9 main_v39 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v39 main_v40 (broadcastInDim S1000x1 ![0] bcast_S1000_S1000x1_0 : (⟨S1000, .f32⟩ : BufTy).Contents (Elt F) → (⟨S1000x1, .f32⟩ : BufTy).Contents (Elt F)),
    unary main_arg2 main_v41 ((transpose S128x1000 [1, 0] · transposes_S1000x128_S128x1000_1_0) : (⟨S1000x128, .f32⟩ : BufTy).Contents (Elt F) → (⟨S128x1000, .f32⟩ : BufTy).Contents (Elt F)),
    binary main_arg2 main_v41 main_v42 ((fun l r => Host.dotGeneral dot_S1000x128_S128x1000_S1000x1000_1_0_0_1_n_n none l r) : (⟨S1000x128, .f32⟩ : BufTy).Contents (Elt F) → (⟨S128x1000, .f32⟩ : BufTy).Contents (Elt F) → (⟨S1000x1000, .f32⟩ : BufTy).Contents (Elt F)),
    nullary main_cst_10 (constant S_ .f32 0x40000000#32),
    unary main_cst_10 main_v43 (broadcastInDim S1000x1000 ![] bcast_S_S1000x1000 : (⟨S_, .f32⟩ : BufTy).Contents (Elt F) → (⟨S1000x1000, .f32⟩ : BufTy).Contents (Elt F)),
    binary main_v43 main_v42 main_v44 (mulf : (⟨S1000x1000, .f32⟩ : BufTy).Contents (Elt F) → (⟨S1000x1000, .f32⟩ : BufTy).Contents (Elt F) → (⟨S1000x1000, .f32⟩ : BufTy).Contents (Elt F)),
    unary main_v40 main_v45 (broadcastInDim S1000x1000 ![0, 1] bcast_S1000x1_S1000x1000_0_1 : (⟨S1000x1, .f32⟩ : BufTy).Contents (Elt F) → (⟨S1000x1000, .f32⟩ : BufTy).Contents (Elt F)),
    binary main_v45 main_v44 main_v46 (subf : (⟨S1000x1000, .f32⟩ : BufTy).Contents (Elt F) → (⟨S1000x1000, .f32⟩ : BufTy).Contents (Elt F) → (⟨S1000x1000, .f32⟩ : BufTy).Contents (Elt F)),
    binary main_arg2 main_arg2 main_v47 (mulf : (⟨S1000x128, .f32⟩ : BufTy).Contents (Elt F) → (⟨S1000x128, .f32⟩ : BufTy).Contents (Elt F) → (⟨S1000x128, .f32⟩ : BufTy).Contents (Elt F)),
    nullary main_cst_11 (constant S_ .f32 0x00000000#32),
    binary main_v47 main_cst_11 main_v48 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v48 main_v49 (broadcastInDim S1x1000 ![1] bcast_S1000_S1x1000_1 : (⟨S1000, .f32⟩ : BufTy).Contents (Elt F) → (⟨S1x1000, .f32⟩ : BufTy).Contents (Elt F)),
    unary main_v49 main_v50 (broadcastInDim S1000x1000 ![0, 1] bcast_S1x1000_S1000x1000_0_1 : (⟨S1x1000, .f32⟩ : BufTy).Contents (Elt F) → (⟨S1000x1000, .f32⟩ : BufTy).Contents (Elt F)),
    binary main_v46 main_v50 main_v51 (addf : (⟨S1000x1000, .f32⟩ : BufTy).Contents (Elt F) → (⟨S1000x1000, .f32⟩ : BufTy).Contents (Elt F) → (⟨S1000x1000, .f32⟩ : BufTy).Contents (Elt F)) ]

/-- From a valuation at the stages of what is read from before them, operations 64 to 80 lead to one at the stages of what is read after them. -/
theorem after_ops5 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_arg2 : W (Proc.devRef (τ := τ) .tc main_arg2) = x2)
    (h_v37 : W (Proc.devRef (τ := τ) .tc main_v37) = val_main_v37 x0 x1 x2) :
    after ops5 W (Proc.devRef (τ := τ) .tc main_arg1) = x1
    ∧ after ops5 W (Proc.devRef (τ := τ) .tc main_v37) = val_main_v37 x0 x1 x2
    ∧ after ops5 W (Proc.devRef (τ := τ) .tc main_v51) = val_main_v51 x2 := by
  refine ⟨?_, ?_, ?_⟩
  · after_results_simp; exact h_arg1
  · after_results_simp; exact h_v37
  · after_results_simp
    rw [h_arg2]
    rfl

/-- Operations 81 to 94 of the program. -/
abbrev ops6 : List (HloOp τ sig (Elt F)) :=
  [ nullary main_v52 (iotaInDim S1000x1000 32 0),
    nullary main_v53 (iotaInDim S1000x1000 32 1),
    nullary main_c_12 (constantI S_ 32 0#32),
    unary main_c_12 main_v54 (broadcastInDim S1000x1000 ![] bcast_S_S1000x1000 : (⟨S_, .i32⟩ : BufTy).Contents (Elt F) → (⟨S1000x1000, .i32⟩ : BufTy).Contents (Elt F)),
    binary main_v52 main_v54 main_v55 (addi : (⟨S1000x1000, .i32⟩ : BufTy).Contents (Elt F) → (⟨S1000x1000, .i32⟩ : BufTy).Contents (Elt F) → (⟨S1000x1000, .i32⟩ : BufTy).Contents (Elt F)),
    binary main_v55 main_v53 main_v56 (cmpi .eq : (⟨S1000x1000, .i32⟩ : BufTy).Contents (Elt F) → (⟨S1000x1000, .i32⟩ : BufTy).Contents (Elt F) → (⟨S1000x1000, .i1⟩ : BufTy).Contents (Elt F)),
    unary main_v56 main_v57 (noti : (⟨S1000x1000, .i1⟩ : BufTy).Contents (Elt F) → (⟨S1000x1000, .i1⟩ : BufTy).Contents (Elt F)),
    nullary main_cst_13 (constant S_ .f32 0x00000000#32),
    unary main_cst_13 main_v58 (broadcastInDim S1000x1000 ![] bcast_S_S1000x1000 : (⟨S_, .f32⟩ : BufTy).Contents (Elt F) → (⟨S1000x1000, .f32⟩ : BufTy).Contents (Elt F)),
    binary main_v51 main_v58 main_v59 (maximumf : (⟨S1000x1000, .f32⟩ : BufTy).Contents (Elt F) → (⟨S1000x1000, .f32⟩ : BufTy).Contents (Elt F) → (⟨S1000x1000, .f32⟩ : BufTy).Contents (Elt F)),
    nullary main_cst_14 (constant S_ .f32 0x3F800000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S1000x1000, .f32⟩) main_call1_v1) (broadcastInDim S1000x1000 ![] bcast_S_S1000x1000),
    TRef.ternary (TRef.of (T := ⟨S1000x1000, .i1⟩) main_v57) (TRef.of (T := ⟨S1000x1000, .f32⟩) main_v59) (TRef.of (T := ⟨S1000x1000, .f32⟩) main_call1_v1) (TRef.of (T := ⟨S1000x1000, .f32⟩) main_v60) select ]

/-- From a valuation at the stages of what is read from before them, operations 81 to 94 lead to one at the stages of what is read after them. -/
theorem after_ops6 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_v37 : W (Proc.devRef (τ := τ) .tc main_v37) = val_main_v37 x0 x1 x2)
    (h_v51 : W (Proc.devRef (τ := τ) .tc main_v51) = val_main_v51 x2) :
    after ops6 W (Proc.devRef (τ := τ) .tc main_arg1) = x1
    ∧ after ops6 W (Proc.devRef (τ := τ) .tc main_v37) = val_main_v37 x0 x1 x2
    ∧ after ops6 W (Proc.devRef (τ := τ) .tc main_v57) = val_main_v57
    ∧ after ops6 W (Proc.devRef (τ := τ) .tc main_v60) = val_main_v60 x2 := by
  refine ⟨?_, ?_, ?_, ?_⟩
  · after_results_simp; exact h_arg1
  · after_results_simp; exact h_v37
  · after_results_simp
    rfl
  · after_results_simp
    simp only [cast_cast_cancel]
    rw [h_v51]
    rfl

/-- Operations 95 to 102 of the program. -/
abbrev ops7 : List (HloOp τ sig (Elt F)) :=
  [ unary main_v60 main_v61 (Host.sqrt : (⟨S1000x1000, .f32⟩ : BufTy).Contents (Elt F) → (⟨S1000x1000, .f32⟩ : BufTy).Contents (Elt F)),
    unary main_v57 main_v62 (uitofp .f32 : (⟨S1000x1000, .i1⟩ : BufTy).Contents (Elt F) → (⟨S1000x1000, .f32⟩ : BufTy).Contents (Elt F)),
    binary main_v61 main_v62 main_v63 (mulf : (⟨S1000x1000, .f32⟩ : BufTy).Contents (Elt F) → (⟨S1000x1000, .f32⟩ : BufTy).Contents (Elt F) → (⟨S1000x1000, .f32⟩ : BufTy).Contents (Elt F)),
    nullary main_cst_15 (constant S_ .f32 0x00000000#32),
    binary main_v63 main_cst_15 main_v64 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    nullary main_cst_16 (constant S_ .f32 0x4479C000#32),
    unary main_cst_16 main_v65 (broadcastInDim S1000 ![] bcast_S_S1000 : (⟨S_, .f32⟩ : BufTy).Contents (Elt F) → (⟨S1000, .f32⟩ : BufTy).Contents (Elt F)),
    binary main_v64 main_v65 main_v66 (Host.divf : (⟨S1000, .f32⟩ : BufTy).Contents (Elt F) → (⟨S1000, .f32⟩ : BufTy).Contents (Elt F) → (⟨S1000, .f32⟩ : BufTy).Contents (Elt F)) ]

/-- From a valuation at the stages of what is read from before them, operations 95 to 102 lead to one at the stages of what is read after them. -/
theorem after_ops7 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_v37 : W (Proc.devRef (τ := τ) .tc main_v37) = val_main_v37 x0 x1 x2)
    (h_v57 : W (Proc.devRef (τ := τ) .tc main_v57) = val_main_v57)
    (h_v60 : W (Proc.devRef (τ := τ) .tc main_v60) = val_main_v60 x2) :
    after ops7 W (Proc.devRef (τ := τ) .tc main_arg1) = x1
    ∧ after ops7 W (Proc.devRef (τ := τ) .tc main_v37) = val_main_v37 x0 x1 x2
    ∧ after ops7 W (Proc.devRef (τ := τ) .tc main_v66) = val_main_v66 x2 := by
  refine ⟨?_, ?_, ?_⟩
  · after_results_simp; exact h_arg1
  · after_results_simp; exact h_v37
  · after_results_simp
    rw [h_v60, h_v57]
    rfl

/-- Operations 103 to 124 of the program. -/
abbrev ops8 : List (HloOp τ sig (Elt F)) :=
  [ nullary main_c_17 (constantI S_ 32 0#32),
    unary main_c_17 main_v67 (broadcastInDim S16384 ![] bcast_S_S16384 : (⟨S_, .i32⟩ : BufTy).Contents (Elt F) → (⟨S16384, .i32⟩ : BufTy).Contents (Elt F)),
    binary main_arg1 main_v67 main_v68 (cmpi .slt : (⟨S16384, .i32⟩ : BufTy).Contents (Elt F) → (⟨S16384, .i32⟩ : BufTy).Contents (Elt F) → (⟨S16384, .i1⟩ : BufTy).Contents (Elt F)),
    nullary main_c_18 (constantI S_ 32 1000#32),
    unary main_c_18 main_v69 (broadcastInDim S16384 ![] bcast_S_S16384 : (⟨S_, .i32⟩ : BufTy).Contents (Elt F) → (⟨S16384, .i32⟩ : BufTy).Contents (Elt F)),
    binary main_arg1 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_arg1 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v71 main_v72 (broadcastInDim S16384x1 ![0] bcast_S16384_S16384x1_0 : (⟨S16384, .i32⟩ : BufTy).Contents (Elt F) → (⟨S16384x1, .i32⟩ : BufTy).Contents (Elt F)),
    binary main_v66 main_v72 main_v73 ((fun x i => Host.gather gather_S1000_S16384x1_S16384_n_0_n_n_0_1_1 x i) : (⟨S1000, .f32⟩ : BufTy).Contents (Elt F) → (⟨S16384x1, .i32⟩ : BufTy).Contents (Elt F) → (⟨S16384, .f32⟩ : BufTy).Contents (Elt F)),
    nullary main_cst_19 (constant S_ .f32 0x41A00000#32),
    unary main_cst_19 main_v74 (broadcastInDim S16384 ![] bcast_S_S16384 : (⟨S_, .f32⟩ : BufTy).Contents (Elt F) → (⟨S16384, .f32⟩ : BufTy).Contents (Elt F)),
    binary main_v74 main_v73 main_v75 (subf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    unary main_cst_20 main_v76 (broadcastInDim S16384 ![] bcast_S_S16384 : (⟨S_, .f32⟩ : BufTy).Contents (Elt F) → (⟨S16384, .f32⟩ : BufTy).Contents (Elt F)),
    binary main_v75 main_v76 main_v77 (maximumf : (⟨S16384, .f32⟩ : BufTy).Contents (Elt F) → (⟨S16384, .f32⟩ : BufTy).Contents (Elt F) → (⟨S16384, .f32⟩ : BufTy).Contents (Elt F)),
    nullary main_cst_21 (constant S_ .f32 0x00000000#32),
    binary main_v77 main_cst_21 main_v78 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_22 (constant S_ .f32 0x46800000#32),
    binary main_v78 main_cst_22 main_v79 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v79 main_v80 (mulf : (⟨S_, .f32⟩ : BufTy).Contents (Elt F) → (⟨S_, .f32⟩ : BufTy).Contents (Elt F) → (⟨S_, .f32⟩ : BufTy).Contents (Elt F)),
    binary main_v37 main_v80 main_v81 (addf : (⟨S_, .f32⟩ : BufTy).Contents (Elt F) → (⟨S_, .f32⟩ : BufTy).Contents (Elt F) → (⟨S_, .f32⟩ : BufTy).Contents (Elt F)) ]

/-- From a valuation at the stages of what is read from before them, operations 103 to 124 lead to one at the stages of what is read after them. -/
theorem after_ops8 (W : Valuation τ sig (Elt F))
    (x0 : (⟨S16384x128, .f32⟩ : BufTy).Contents (Elt F)) (x1 : (⟨S16384, .i32⟩ : BufTy).Contents (Elt F)) (x2 : (⟨S1000x128, .f32⟩ : BufTy).Contents (Elt F))
    (h_arg1 : W (Proc.devRef (τ := τ) .tc main_arg1) = x1)
    (h_v37 : W (Proc.devRef (τ := τ) .tc main_v37) = val_main_v37 x0 x1 x2)
    (h_v66 : W (Proc.devRef (τ := τ) .tc main_v66) = val_main_v66 x2) :
    after ops8 W (Proc.devRef (τ := τ) .tc main_v81) = val_main_v81 x0 x1 x2 := by
  after_results_simp
  rw [h_v37, h_v66, h_arg1]
  rfl

end Cert.ReferenceIdeal.Value

end
-- ==== Proof.RefRun.lean ====
/-
  The run of the reference program, read back as a function of its three arguments.

  The reference is a straight line of 124 host operations; two of its stretches are the lines of module-local functions,
  standing in their calls' places. Such a program terminates from any memory with zero counters, and every buffer of
  the device ends at the fold of the operations' results over its launch contents. What is left is to compute that
  fold at the result buffer and at the three argument buffers.

  At the result buffer the fold is computed stretch by stretch. The list of operations is eight stretches one after
  the other, and the fold over two lists in a row is the fold over the second from the fold over the first. In the
  launch contents the argument buffers hold the arguments, which is all the first stretch asks; each stretch's fact
  hands the next one what it asks; the last leaves the result buffer at the last operation's stage, which is the
  composed value of the arguments. No operation writes an argument's buffer, so at an argument's buffer every
  operation's result is what was there.
-/
import proofs.«416808_j65412351918314_2_alg».proof.Proof.RefRunChunks
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The program's 124 operations, in order (a called function's operations stand in its call's place, over typed references). -/
abbrev ops : List (HloOp τ sig (Elt F)) :=
  [ binary main_arg0 main_arg0 main_v0 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v0 main_cst main_v1 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    unary main_arg2 main_v3 ((transpose S128x1000 [1, 0] · transposes_S1000x128_S128x1000_1_0) : (⟨S1000x128, .f32⟩ : BufTy).Contents (Elt F) → (⟨S128x1000, .f32⟩ : BufTy).Contents (Elt F)),
    binary main_arg0 main_v3 main_v4 ((fun l r => Host.dotGeneral dot_S16384x128_S128x1000_S16384x1000_1_0_0_1_n_n none l r) : (⟨S16384x128, .f32⟩ : BufTy).Contents (Elt F) → (⟨S128x1000, .f32⟩ : BufTy).Contents (Elt F) → (⟨S16384x1000, .f32⟩ : BufTy).Contents (Elt F)),
    nullary main_cst_0 (constant S_ .f32 0x40000000#32),
    unary main_cst_0 main_v5 (broadcastInDim S16384x1000 ![] bcast_S_S16384x1000 : (⟨S_, .f32⟩ : BufTy).Contents (Elt F) → (⟨S16384x1000, .f32⟩ : BufTy).Contents (Elt F)),
    binary main_v5 main_v4 main_v6 (mulf : (⟨S16384x1000, .f32⟩ : BufTy).Contents (Elt F) → (⟨S16384x1000, .f32⟩ : BufTy).Contents (Elt F) → (⟨S16384x1000, .f32⟩ : BufTy).Contents (Elt F)),
    unary main_v2 main_v7 (broadcastInDim S16384x1000 ![0, 1] bcast_S16384x1_S16384x1000_0_1 : (⟨S16384x1, .f32⟩ : BufTy).Contents (Elt F) → (⟨S16384x1000, .f32⟩ : BufTy).Contents (Elt F)),
    binary main_v7 main_v6 main_v8 (subf : (⟨S16384x1000, .f32⟩ : BufTy).Contents (Elt F) → (⟨S16384x1000, .f32⟩ : BufTy).Contents (Elt F) → (⟨S16384x1000, .f32⟩ : BufTy).Contents (Elt F)),
    binary main_arg2 main_arg2 main_v9 (mulf : (⟨S1000x128, .f32⟩ : BufTy).Contents (Elt F) → (⟨S1000x128, .f32⟩ : BufTy).Contents (Elt F) → (⟨S1000x128, .f32⟩ : BufTy).Contents (Elt F)),
    nullary main_cst_1 (constant S_ .f32 0x00000000#32),
    binary main_v9 main_cst_1 main_v10 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v10 main_v11 (broadcastInDim S1x1000 ![1] bcast_S1000_S1x1000_1 : (⟨S1000, .f32⟩ : BufTy).Contents (Elt F) → (⟨S1x1000, .f32⟩ : BufTy).Contents (Elt F)),
    unary main_v11 main_v12 (broadcastInDim S16384x1000 ![0, 1] bcast_S1x1000_S16384x1000_0_1 : (⟨S1x1000, .f32⟩ : BufTy).Contents (Elt F) → (⟨S16384x1000, .f32⟩ : BufTy).Contents (Elt F)),
    binary main_v8 main_v12 main_v13 (addf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0x00000000#32),
    unary main_cst_2 main_v14 (broadcastInDim S16384x1000 ![] bcast_S_S16384x1000 : (⟨S_, .f32⟩ : BufTy).Contents (Elt F) → (⟨S16384x1000, .f32⟩ : BufTy).Contents (Elt F)),
    binary main_v13 main_v14 main_v15 (maximumf : (⟨S16384x1000, .f32⟩ : BufTy).Contents (Elt F) → (⟨S16384x1000, .f32⟩ : BufTy).Contents (Elt F) → (⟨S16384x1000, .f32⟩ : BufTy).Contents (Elt F)),
    unary main_v15 main_v16 (Host.sqrt : (⟨S16384x1000, .f32⟩ : BufTy).Contents (Elt F) → (⟨S16384x1000, .f32⟩ : BufTy).Contents (Elt F)),
    nullary main_cst_3 (constant S_ .f32 0xBDCCCCCD#32),
    unary main_cst_3 main_v17 (broadcastInDim S16384x1000 ![] bcast_S_S16384x1000 : (⟨S_, .f32⟩ : BufTy).Contents (Elt F) → (⟨S16384x1000, .f32⟩ : BufTy).Contents (Elt F)),
    binary main_v17 main_v16 main_v18 (mulf : (⟨S16384x1000, .f32⟩ : BufTy).Contents (Elt F) → (⟨S16384x1000, .f32⟩ : BufTy).Contents (Elt F) → (⟨S16384x1000, .f32⟩ : BufTy).Contents (Elt F)),
    TRef.nullary (TRef.of (T := ⟨S_, .f32⟩) main_call0_cst) (constant S_ .f32 0xFF800000#32),
    TRef.binary (TRef.of (T := ⟨S16384x1000, .f32⟩) main_v18) (TRef.of (T := ⟨S_, .f32⟩) main_call0_cst) (TRef.of (T := ⟨S16384, .f32⟩) main_call0_v0) (fun x v => Host.reduce FloatOps.maximumf x v reducesTo_S16384x1000_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x1000, .f32⟩) main_call0_v4) (broadcastInDim S16384x1000 ![0, 1] bcast_S16384x1_S16384x1000_0_1),
    TRef.binary (TRef.of (T := ⟨S16384x1000, .f32⟩) main_v18) (TRef.of (T := ⟨S16384x1000, .f32⟩) main_call0_v4) (TRef.of (T := ⟨S16384x1000, .f32⟩) main_call0_v5) subf,
    TRef.unary (TRef.of (T := ⟨S16384x1000, .f32⟩) main_call0_v5) (TRef.of (T := ⟨S16384x1000, .f32⟩) main_call0_v6) Host.exp,
    TRef.nullary (TRef.of (T := ⟨S_, .f32⟩) main_call0_cst_1) (constant S_ .f32 0x00000000#32),
    TRef.binary (TRef.of (T := ⟨S16384x1000, .f32⟩) main_call0_v6) (TRef.of (T := ⟨S_, .f32⟩) main_call0_cst_1) (TRef.of (T := ⟨S16384, .f32⟩) main_call0_v7) (fun x v => Host.reduceAdd x v reducesTo_S16384x1000_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x1000, .f32⟩) main_call0_v10) (broadcastInDim S16384x1000 ![0, 1] bcast_S16384x1_S16384x1000_0_1),
    TRef.binary (TRef.of (T := ⟨S16384x1000, .f32⟩) main_call0_v5) (TRef.of (T := ⟨S16384x1000, .f32⟩) main_call0_v10) (TRef.of (T := ⟨S16384x1000, .f32⟩) main_v19) subf,
    nullary main_v20 (iotaInDim S16384 32 0),
    nullary main_c (constantI S_ 32 0#32),
    unary main_c main_v21 (broadcastInDim S16384 ![] bcast_S_S16384 : (⟨S_, .i32⟩ : BufTy).Contents (Elt F) → (⟨S16384, .i32⟩ : BufTy).Contents (Elt F)),
    binary main_v20 main_v21 main_v22 (cmpi .slt : (⟨S16384, .i32⟩ : BufTy).Contents (Elt F) → (⟨S16384, .i32⟩ : BufTy).Contents (Elt F) → (⟨S16384, .i1⟩ : BufTy).Contents (Elt F)),
    nullary main_c_4 (constantI S_ 32 16384#32),
    unary main_c_4 main_v23 (broadcastInDim S16384 ![] bcast_S_S16384 : (⟨S_, .i32⟩ : BufTy).Contents (Elt F) → (⟨S16384, .i32⟩ : BufTy).Contents (Elt F)),
    binary main_v20 main_v23 main_v24 (addi : (⟨S16384, .i32⟩ : BufTy).Contents (Elt F) → (⟨S16384, .i32⟩ : BufTy).Contents (Elt F) → (⟨S16384, .i32⟩ : BufTy).Contents (Elt F)),
    ternary main_v22 main_v24 main_v20 main_v25 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v26 (broadcastInDim S16384 ![] bcast_S_S16384 : (⟨S_, .i32⟩ : BufTy).Contents (Elt F) → (⟨S16384, .i32⟩ : BufTy).Contents (Elt F)),
    binary main_arg1 main_v26 main_v27 (cmpi .slt : (⟨S16384, .i32⟩ : BufTy).Contents (Elt F) → (⟨S16384, .i32⟩ : BufTy).Contents (Elt F) → (⟨S16384, .i1⟩ : BufTy).Contents (Elt F)),
    nullary main_c_6 (constantI S_ 32 1000#32),
    unary main_c_6 main_v28 (broadcastInDim S16384 ![] bcast_S_S16384 : (⟨S_, .i32⟩ : BufTy).Contents (Elt F) → (⟨S16384, .i32⟩ : BufTy).Contents (Elt F)),
    binary main_arg1 main_v28 main_v29 (addi : (⟨S16384, .i32⟩ : BufTy).Contents (Elt F) → (⟨S16384, .i32⟩ : BufTy).Contents (Elt F) → (⟨S16384, .i32⟩ : BufTy).Contents (Elt F)),
    ternary main_v27 main_v29 main_arg1 main_v30 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v25 main_v31 (broadcastInDim S16384x1 ![0] bcast_S16384_S16384x1_0 : (⟨S16384, .i32⟩ : BufTy).Contents (Elt F) → (⟨S16384x1, .i32⟩ : BufTy).Contents (Elt F)),
    unary main_v30 main_v32 (broadcastInDim S16384x1 ![0] bcast_S16384_S16384x1_0 : (⟨S16384, .i32⟩ : BufTy).Contents (Elt F) → (⟨S16384x1, .i32⟩ : BufTy).Contents (Elt F)),
    binary main_v31 main_v32 main_v33 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    binary main_v19 main_v33 main_v34 ((fun x i => Host.gather gather_S16384x1000_S16384x2_S16384_n_01_n_n_01_1_11 x i) : (⟨S16384x1000, .f32⟩ : BufTy).Contents (Elt F) → (⟨S16384x2, .i32⟩ : BufTy).Contents (Elt F) → (⟨S16384, .f32⟩ : BufTy).Contents (Elt F)),
    nullary main_cst_7 (constant S_ .f32 0x00000000#32),
    binary main_v34 main_cst_7 main_v35 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_8 (constant S_ .f32 0x46800000#32),
    binary main_v35 main_cst_8 main_v36 (Host.divf : (⟨S_, .f32⟩ : BufTy).Contents (Elt F) → (⟨S_, .f32⟩ : BufTy).Contents (Elt F) → (⟨S_, .f32⟩ : BufTy).Contents (Elt F)),
    unary main_v36 main_v37 (Host.negf : (⟨S_, .f32⟩ : BufTy).Contents (Elt F) → (⟨S_, .f32⟩ : BufTy).Contents (Elt F)),
    binary main_arg2 main_arg2 main_v38 (mulf : (⟨S1000x128, .f32⟩ : BufTy).Contents (Elt F) → (⟨S1000x128, .f32⟩ : BufTy).Contents (Elt F) → (⟨S1000x128, .f32⟩ : BufTy).Contents (Elt F)),
    nullary main_cst_9 (constant S_ .f32 0x00000000#32),
    binary main_v38 main_cst_9 main_v39 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v39 main_v40 (broadcastInDim S1000x1 ![0] bcast_S1000_S1000x1_0 : (⟨S1000, .f32⟩ : BufTy).Contents (Elt F) → (⟨S1000x1, .f32⟩ : BufTy).Contents (Elt F)),
    unary main_arg2 main_v41 ((transpose S128x1000 [1, 0] · transposes_S1000x128_S128x1000_1_0) : (⟨S1000x128, .f32⟩ : BufTy).Contents (Elt F) → (⟨S128x1000, .f32⟩ : BufTy).Contents (Elt F)),
    binary main_arg2 main_v41 main_v42 ((fun l r => Host.dotGeneral dot_S1000x128_S128x1000_S1000x1000_1_0_0_1_n_n none l r) : (⟨S1000x128, .f32⟩ : BufTy).Contents (Elt F) → (⟨S128x1000, .f32⟩ : BufTy).Contents (Elt F) → (⟨S1000x1000, .f32⟩ : BufTy).Contents (Elt F)),
    nullary main_cst_10 (constant S_ .f32 0x40000000#32),
    unary main_cst_10 main_v43 (broadcastInDim S1000x1000 ![] bcast_S_S1000x1000 : (⟨S_, .f32⟩ : BufTy).Contents (Elt F) → (⟨S1000x1000, .f32⟩ : BufTy).Contents (Elt F)),
    binary main_v43 main_v42 main_v44 (mulf : (⟨S1000x1000, .f32⟩ : BufTy).Contents (Elt F) → (⟨S1000x1000, .f32⟩ : BufTy).Contents (Elt F) → (⟨S1000x1000, .f32⟩ : BufTy).Contents (Elt F)),
    unary main_v40 main_v45 (broadcastInDim S1000x1000 ![0, 1] bcast_S1000x1_S1000x1000_0_1 : (⟨S1000x1, .f32⟩ : BufTy).Contents (Elt F) → (⟨S1000x1000, .f32⟩ : BufTy).Contents (Elt F)),
    binary main_v45 main_v44 main_v46 (subf : (⟨S1000x1000, .f32⟩ : BufTy).Contents (Elt F) → (⟨S1000x1000, .f32⟩ : BufTy).Contents (Elt F) → (⟨S1000x1000, .f32⟩ : BufTy).Contents (Elt F)),
    binary main_arg2 main_arg2 main_v47 (mulf : (⟨S1000x128, .f32⟩ : BufTy).Contents (Elt F) → (⟨S1000x128, .f32⟩ : BufTy).Contents (Elt F) → (⟨S1000x128, .f32⟩ : BufTy).Contents (Elt F)),
    nullary main_cst_11 (constant S_ .f32 0x00000000#32),
    binary main_v47 main_cst_11 main_v48 ((fun x v => Host.reduceAdd x v reducesTo_S1000x128_S1000_d1 h_S_) : (⟨S1000x128, .f32⟩ : BufTy).Contents (Elt F) → (⟨S_, .f32⟩ : BufTy).Contents (Elt F) → (⟨S1000, .f32⟩ : BufTy).Contents (Elt F)),
    unary main_v48 main_v49 (broadcastInDim S1x1000 ![1] bcast_S1000_S1x1000_1 : (⟨S1000, .f32⟩ : BufTy).Contents (Elt F) → (⟨S1x1000, .f32⟩ : BufTy).Contents (Elt F)),
    unary main_v49 main_v50 (broadcastInDim S1000x1000 ![0, 1] bcast_S1x1000_S1000x1000_0_1 : (⟨S1x1000, .f32⟩ : BufTy).Contents (Elt F) → (⟨S1000x1000, .f32⟩ : BufTy).Contents (Elt F)),
    binary main_v46 main_v50 main_v51 (addf : (⟨S1000x1000, .f32⟩ : BufTy).Contents (Elt F) → (⟨S1000x1000, .f32⟩ : BufTy).Contents (Elt F) → (⟨S1000x1000, .f32⟩ : BufTy).Contents (Elt F)),
    nullary main_v52 (iotaInDim S1000x1000 32 0),
    nullary main_v53 (iotaInDim S1000x1000 32 1),
    nullary main_c_12 (constantI S_ 32 0#32),
    unary main_c_12 main_v54 (broadcastInDim S1000x1000 ![] bcast_S_S1000x1000 : (⟨S_, .i32⟩ : BufTy).Contents (Elt F) → (⟨S1000x1000, .i32⟩ : BufTy).Contents (Elt F)),
    binary main_v52 main_v54 main_v55 (addi : (⟨S1000x1000, .i32⟩ : BufTy).Contents (Elt F) → (⟨S1000x1000, .i32⟩ : BufTy).Contents (Elt F) → (⟨S1000x1000, .i32⟩ : BufTy).Contents (Elt F)),
    binary main_v55 main_v53 main_v56 (cmpi .eq : (⟨S1000x1000, .i32⟩ : BufTy).Contents (Elt F) → (⟨S1000x1000, .i32⟩ : BufTy).Contents (Elt F) → (⟨S1000x1000, .i1⟩ : BufTy).Contents (Elt F)),
    unary main_v56 main_v57 (noti : (⟨S1000x1000, .i1⟩ : BufTy).Contents (Elt F) → (⟨S1000x1000, .i1⟩ : BufTy).Contents (Elt F)),
    nullary main_cst_13 (constant S_ .f32 0x00000000#32),
    unary main_cst_13 main_v58 (broadcastInDim S1000x1000 ![] bcast_S_S1000x1000 : (⟨S_, .f32⟩ : BufTy).Contents (Elt F) → (⟨S1000x1000, .f32⟩ : BufTy).Contents (Elt F)),
    binary main_v51 main_v58 main_v59 (maximumf : (⟨S1000x1000, .f32⟩ : BufTy).Contents (Elt F) → (⟨S1000x1000, .f32⟩ : BufTy).Contents (Elt F) → (⟨S1000x1000, .f32⟩ : BufTy).Contents (Elt F)),
    nullary main_cst_14 (constant S_ .f32 0x3F800000#32),
    TRef.unary (TRef.of (T := ⟨S_, .f32⟩) main_cst_14) (TRef.of (T := ⟨S_, .f32⟩) main_call1_v0) id,
    TRef.unary (TRef.of (T := ⟨S_, .f32⟩) main_call1_v0) (TRef.of (T := ⟨S1000x1000, .f32⟩) main_call1_v1) (broadcastInDim S1000x1000 ![] bcast_S_S1000x1000),
    TRef.ternary (TRef.of (T := ⟨S1000x1000, .i1⟩) main_v57) (TRef.of (T := ⟨S1000x1000, .f32⟩) main_v59) (TRef.of (T := ⟨S1000x1000, .f32⟩) main_call1_v1) (TRef.of (T := ⟨S1000x1000, .f32⟩) main_v60) select,
    unary main_v60 main_v61 (Host.sqrt : (⟨S1000x1000, .f32⟩ : BufTy).Contents (Elt F) → (⟨S1000x1000, .f32⟩ : BufTy).Contents (Elt F)),
    unary main_v57 main_v62 (uitofp .f32 : (⟨S1000x1000, .i1⟩ : BufTy).Contents (Elt F) → (⟨S1000x1000, .f32⟩ : BufTy).Contents (Elt F)),
    binary main_v61 main_v62 main_v63 (mulf : (⟨S1000x1000, .f32⟩ : BufTy).Contents (Elt F) → (⟨S1000x1000, .f32⟩ : BufTy).Contents (Elt F) → (⟨S1000x1000, .f32⟩ : BufTy).Contents (Elt F)),
    nullary main_cst_15 (constant S_ .f32 0x00000000#32),
    binary main_v63 main_cst_15 main_v64 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    nullary main_cst_16 (constant S_ .f32 0x4479C000#32),
    unary main_cst_16 main_v65 (broadcastInDim S1000 ![] bcast_S_S1000 : (⟨S_, .f32⟩ : BufTy).Contents (Elt F) → (⟨S1000, .f32⟩ : BufTy).Contents (Elt F)),
    binary main_v64 main_v65 main_v66 (Host.divf : (⟨S1000, .f32⟩ : BufTy).Contents (Elt F) → (⟨S1000, .f32⟩ : BufTy).Contents (Elt F) → (⟨S1000, .f32⟩ : BufTy).Contents (Elt F)),
    nullary main_c_17 (constantI S_ 32 0#32),
    unary main_c_17 main_v67 (broadcastInDim S16384 ![] bcast_S_S16384 : (⟨S_, .i32⟩ : BufTy).Contents (Elt F) → (⟨S16384, .i32⟩ : BufTy).Contents (Elt F)),
    binary main_arg1 main_v67 main_v68 (cmpi .slt : (⟨S16384, .i32⟩ : BufTy).Contents (Elt F) → (⟨S16384, .i32⟩ : BufTy).Contents (Elt F) → (⟨S16384, .i1⟩ : BufTy).Contents (Elt F)),
    nullary main_c_18 (constantI S_ 32 1000#32),
    unary main_c_18 main_v69 (broadcastInDim S16384 ![] bcast_S_S16384 : (⟨S_, .i32⟩ : BufTy).Contents (Elt F) → (⟨S16384, .i32⟩ : BufTy).Contents (Elt F)),
    binary main_arg1 main_v69 main_v70 (addi : (⟨S16384, .i32⟩ : BufTy).Contents (Elt F) → (⟨S16384, .i32⟩ : BufTy).Contents (Elt F) → (⟨S16384, .i32⟩ : BufTy).Contents (Elt F)),
    ternary main_v68 main_v70 main_arg1 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v71 main_v72 (broadcastInDim S16384x1 ![0] bcast_S16384_S16384x1_0 : (⟨S16384, .i32⟩ : BufTy).Contents (Elt F) → (⟨S16384x1, .i32⟩ : BufTy).Contents (Elt F)),
    binary main_v66 main_v72 main_v73 ((fun x i => Host.gather gather_S1000_S16384x1_S16384_n_0_n_n_0_1_1 x i) : (⟨S1000, .f32⟩ : BufTy).Contents (Elt F) → (⟨S16384x1, .i32⟩ : BufTy).Contents (Elt F) → (⟨S16384, .f32⟩ : BufTy).Contents (Elt F)),
    nullary main_cst_19 (constant S_ .f32 0x41A00000#32),
    unary main_cst_19 main_v74 (broadcastInDim S16384 ![] bcast_S_S16384 : (⟨S_, .f32⟩ : BufTy).Contents (Elt F) → (⟨S16384, .f32⟩ : BufTy).Contents (Elt F)),
    binary main_v74 main_v73 main_v75 (subf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    unary main_cst_20 main_v76 (broadcastInDim S16384 ![] bcast_S_S16384 : (⟨S_, .f32⟩ : BufTy).Contents (Elt F) → (⟨S16384, .f32⟩ : BufTy).Contents (Elt F)),
    binary main_v75 main_v76 main_v77 (maximumf : (⟨S16384, .f32⟩ : BufTy).Contents (Elt F) → (⟨S16384, .f32⟩ : BufTy).Contents (Elt F) → (⟨S16384, .f32⟩ : BufTy).Contents (Elt F)),
    nullary main_cst_21 (constant S_ .f32 0x00000000#32),
    binary main_v77 main_cst_21 main_v78 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_22 (constant S_ .f32 0x46800000#32),
    binary main_v78 main_cst_22 main_v79 (Host.divf : (⟨S_, .f32⟩ : BufTy).Contents (Elt F) → (⟨S_, .f32⟩ : BufTy).Contents (Elt F) → (⟨S_, .f32⟩ : BufTy).Contents (Elt F)),
    nullary main_cst_23 (constant S_ .f32 0x3F800000#32),
    binary main_cst_23 main_v79 main_v80 (mulf : (⟨S_, .f32⟩ : BufTy).Contents (Elt F) → (⟨S_, .f32⟩ : BufTy).Contents (Elt F) → (⟨S_, .f32⟩ : BufTy).Contents (Elt F)),
    binary main_v37 main_v80 main_v81 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., nullary_bufs_sub .., binary_bufs_sub .., binary_bufs_sub ..⟩

/-- The list of all operations is the eight stretches one after the other. -/
theorem ops_eq : (ops : List (HloOp τ sig (Elt F))) = ops1 ++ (ops2 ++ (ops3 ++ (ops4 ++ (ops5 ++ (ops6 ++ (ops7 ++ ops8)))))) := rfl

/-- The contents after two lists of operations in a row: after the second list, from the contents after the first. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- After all operations the result buffer holds the last stage at the contents of the three argument buffers. -/
theorem after_ops_result (V : Valuation τ sig (Elt F)) :
    after ops V (Proc.devRef (τ := τ) .tc main_v81)
      = val_main_v81 (V (Proc.devRef (τ := τ) .tc main_arg0)) (V (Proc.devRef (τ := τ) .tc main_arg1)) (V (Proc.devRef (τ := τ) .tc main_arg2)) := by
  rw [ops_eq]
  simp only [after_two]
  obtain ⟨a1, a2, a18⟩ := after_ops1 V _ _ _ rfl rfl rfl
  obtain ⟨b1, b2, b19⟩ := after_ops2 _ _ _ _ a1 a2 a18
  obtain ⟨c1, c2, c19, c31, c32⟩ := after_ops3 _ _ _ _ b1 b2 b19
  obtain ⟨d1, d2, d37⟩ := after_ops4 _ _ _ _ c1 c2 c19 c31 c32
  obtain ⟨e1, e37, e51⟩ := after_ops5 _ _ _ _ d1 d2 d37
  obtain ⟨f1, f37, f57, f60⟩ := after_ops6 _ _ _ _ e1 e37 e51
  obtain ⟨g1, g37, g66⟩ := after_ops7 _ _ _ _ f1 f37 f57 f60
  exact after_ops8 _ _ _ _ g1 g37 g66

/-- No operation writes the first argument's buffer. -/
theorem after_ops_arg0 (V : Valuation τ sig (Elt F)) :
    after ops V (Proc.devRef (τ := τ) .tc main_arg0) = V (Proc.devRef (τ := τ) .tc main_arg0) := by
  after_results_simp

/-- No operation writes the second argument's buffer. -/
theorem after_ops_arg1 (V : Valuation τ sig (Elt F)) :
    after ops V (Proc.devRef (τ := τ) .tc main_arg1) = V (Proc.devRef (τ := τ) .tc main_arg1) := by
  after_results_simp

/-- No operation writes the third argument's buffer. -/
theorem after_ops_arg2 (V : Valuation τ sig (Elt F)) :
    after ops V (Proc.devRef (τ := τ) .tc main_arg2) = V (Proc.devRef (τ := τ) .tc main_arg2) := by
  after_results_simp

set_option maxRecDepth 8192 in
/-- On every device, for any float values, from any memory with zero counters: every weakly fair execution of the
    program terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81)
          = Cert.ReferenceIdeal.Read.val_main_v81 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v81).trans (after_ops_result (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.ReferenceIdeal.Value

end
-- ==== Proof.LibGatherElem.lean ====
/-
  A `stablehlo.gather` that picks single ELEMENTS, read at an index.

  Two shapes of it, both with every operand axis collapsed (slice sizes all 1, no offset axis, no batching axis) and
  the index vector on the last axis of the start indices.  From a vector `[N]` at start indices `[R, 1]`: result
  element `r` is the vector at the start index `idx[r, 0]`, read as a signed integer and clamped into `[0, N - 1]`.
  From a table `[N, K]` at start indices `[R, 2]`: result element `r` is the table at row `idx[r, 0]` and column
  `idx[r, 1]`, each read signed and clamped into its axis.  (StableHLO clamps every start index so that the slice
  lies inside the operand; with slices of one element that is the clamp of the index itself.)
-/
import Idealize.ShloMosaic.Lib.ValueIdx

noncomputable section

namespace Cert.LibGatherElem

open Idealize.ShloMosaic Idealize.ShloMosaic.ValueIdx

variable {α : Type}

/-- The dimension numbers of an element gather from a vector `[N]` at start indices `[R, 1]` into `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the vector gather: the vector at the clamped signed start index `idx[r, 0]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r ⟨0, Nat.one_pos⟩)).toInt.toNat (N - 1), by omega⟩) := by
  -- the gather reads the operand at its operand index; compare the two indices on the operand's one axis
  show x ((vecDims N R wf).operandIdx (ix1 r) idx) = _
  refine congrArg x (funext fun a => ?_)
  have ha : a = (0 : Fin 1) := Subsingleton.elim _ _
  subst ha
  apply Fin.ext
  show (vecDims N R wf).start (ix1 r) idx 0 + (vecDims N R wf).batchCoord (ix1 r) 0
      + (vecDims N R wf).offCoord (ix1 r) 0 = _
  -- no batching axis, and axis 0 is collapsed: only the clamped start is left
  have hb : (vecDims N R wf).batchCoord (ix1 r) 0 = 0 :=
    GatherDims.batchCoord_eq_zero _ _ _ List.not_mem_nil
  have ho : (vecDims N R wf).offCoord (ix1 r) 0 = 0 :=
    GatherDims.offCoord_eq_zero _ _ _ fun h =>
      ((GatherDims.mem_sKept _ _).mp h).1 (List.mem_singleton.mpr rfl)
  simp only [hb, ho, Nat.add_zero]
  -- axis 0 is the start index map's entry 0, so its start index is read at `(r, 0)`
  have hm : (0 : Fin 1) ∈ (vecDims N R wf).startIndexMap := List.mem_singleton.mpr rfl
  have hsi : (vecDims N R wf).siIdx (ix1 r)
      ⟨List.idxOf (0 : Fin 1) (vecDims N R wf).startIndexMap, List.idxOf_lt_length_iff.2 hm⟩
        = ix2 r ⟨0, Nat.one_pos⟩ := by
    funext b
    apply Fin.ext
    match b with
    | ⟨0, _⟩ => rfl
    | ⟨1, _⟩ => rfl
  unfold GatherDims.start
  rw [dif_pos hm, hsi]
  -- the clamp's upper end is the extent `N` less the slice size `1`
  rfl

/-- The dimension numbers of an element gather from a table `[N, K]` at start indices `[R, 2]` into `[R]`. -/
abbrev pairDims (N K R : Nat) (wf : GatherDims.WF ⟨2, ![N, K]⟩ ⟨2, ![R, 2]⟩ ⟨1, ![R]⟩ [] [0, 1] [] [0, 1] [] 1 ![1, 1]) :
    GatherDims ⟨2, ![N, K]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Result element `r` of the table gather: the table at the clamped signed start indices `idx[r, 0]`, `idx[r, 1]`. -/
theorem gather_pair_apply {N K R w : Nat} (hN : 0 < N) (hK : 0 < K)
    (wf : GatherDims.WF ⟨2, ![N, K]⟩ ⟨2, ![R, 2]⟩ ⟨1, ![R]⟩ [] [0, 1] [] [0, 1] [] 1 ![1, 1])
    (x : (⟨2, ![N, K]⟩ : Shape).Idx → α) (idx : IVec ⟨2, ![R, 2]⟩ w) (r : Fin R) :
    Host.gather (pairDims N K R wf) x idx (ix1 r)
      = x (ix2 ⟨min (idx (ix2 r ⟨0, by omega⟩)).toInt.toNat (N - 1), by omega⟩
               ⟨min (idx (ix2 r ⟨1, by omega⟩)).toInt.toNat (K - 1), by omega⟩) := by
  -- the gather reads the operand at its operand index; compare the two indices axis by axis
  show x ((pairDims N K R wf).operandIdx (ix1 r) idx) = _
  refine congrArg x (funext fun a => ?_)
  apply Fin.ext
  show (pairDims N K R wf).start (ix1 r) idx a + (pairDims N K R wf).batchCoord (ix1 r) a
      + (pairDims N K R wf).offCoord (ix1 r) a = _
  -- no batching axis, and both axes are collapsed: only the clamped start is left
  have hb : (pairDims N K R wf).batchCoord (ix1 r) a = 0 :=
    GatherDims.batchCoord_eq_zero _ _ _ List.not_mem_nil
  have hc : a ∈ (pairDims N K R wf).collapsedSliceDims := by
    match a with
    | ⟨0, _⟩ => exact List.mem_cons_self
    | ⟨1, _⟩ => exact List.mem_cons_of_mem _ List.mem_cons_self
  have ho : (pairDims N K R wf).offCoord (ix1 r) a = 0 :=
    GatherDims.offCoord_eq_zero _ _ _ fun h => ((GatherDims.mem_sKept _ _).mp h).1 hc
  simp only [hb, ho, Nat.add_zero]
  -- axis `a` is the start index map's entry `a`, so its start index is read at `(r, a)`
  have hm : a ∈ (pairDims N K R wf).startIndexMap := hc
  unfold GatherDims.start
  rw [dif_pos hm]
  match a, hm with
  | ⟨0, _⟩, hm =>
    have hsi : (pairDims N K R wf).siIdx (ix1 r)
        ⟨List.idxOf (⟨0, by omega⟩ : Fin 2) (pairDims N K R wf).startIndexMap, List.idxOf_lt_length_iff.2 hm⟩
          = ix2 r ⟨0, by omega⟩ := by
      funext b
      apply Fin.ext
      match b with
      | ⟨0, _⟩ => rfl
      | ⟨1, _⟩ => rfl
    rw [hsi]
    rfl
  | ⟨1, _⟩, hm =>
    have hsi : (pairDims N K R wf).siIdx (ix1 r)
        ⟨List.idxOf (⟨1, by omega⟩ : Fin 2) (pairDims N K R wf).startIndexMap, List.idxOf_lt_length_iff.2 hm⟩
          = ix2 r ⟨1, by omega⟩ := by
      funext b
      apply Fin.ext
      match b with
      | ⟨0, _⟩ => rfl
      | ⟨1, _⟩ => rfl
    rw [hsi]
    rfl

end Cert.LibGatherElem

end
-- ==== Proof.RefValue.lean ====
/-
  The reference program's result, read at the ideal values (floats as extended reals), is the specification's loss
  `rTotal A B ℓ` for the feature rows `A r k = x0[r, k]`, the centre rows `B j k = x2[j, k]` and labels `ℓ` whose
  32-bit words are the label input `x1`.

  The program is followed operation by operation, each value read at explicit coordinates. Squared norms and inner
  products are sums over the 128 feature coordinates; the distance is the root of the clamped Gram form; the logits are
  the distances times the word of -0.1. The row maximum is a fold of the maximum from minus infinity, which is the
  bottom of the extended reals, so taking the maximum with minus infinity once more changes nothing. The log-probability
  of a row's label is picked by a gather whose index pairs are (row number, label): both are words of numbers far below
  2^31, so neither the wrap-around of negative indices nor the clamp into the axis moves them. For the contrastive term
  the off-diagonal mask is the negated comparison of a row number with a column number, both below 1000 and hence equal
  as words only when equal; on the diagonal the product with the mask's 0 is 0 whatever the root is, off it the product
  with 1 is the distance. The mean of a row's own centre is picked by a second gather at the label. Last, the two sums
  over the 16384 rows are sums over the row number, divided by the word of 16384, the first negated, the second times the
  word of 1, and added.
-/
import proofs.«416808_j65412351918314_2_alg».proof.Proof.RefReadP
import proofs.«416808_j65412351918314_2_alg».proof.Proof.Loss
import proofs.«416808_j65412351918314_2_alg».proof.Proof.LibGatherElem
import Idealize.ShloMosaic.Lib.ValueIdx
import Idealize.ShloMosaic.Lib.Pipeline.Value
import Idealize.ShloMosaic.Lib.Affine
import Idealize.ShloMosaic.PureOps.Ideal.Laws

noncomputable section

namespace Cert.RefValue

open Idealize.ShloMosaic Idealize.ShloMosaic.ValueIdx
open Cert.ReferenceIdeal Cert.ReferenceIdeal.Gen Cert.ReferenceIdeal.Read

section Stages

/-! ## Indices

Every index the reference's layout operations compute is, at explicit coordinates, an index built from its
coordinates; two indices with the same coordinates are equal. -/

/-- Two rank-2 indices with the same coordinates are equal. -/
theorem idx2_ext {n0 n1 : Nat} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- Two rank-1 indices with the same coordinate are equal. -/
theorem idx1_ext {n0 : Nat} (i j : (⟨1, ![n0]⟩ : Shape).Idx) (h0 : (i 0).val = (j 0).val) : i = j :=
  funext fun a => Fin.ext (by match a with | ⟨0, _⟩ => exact h0)

/-! ## The two inputs as matrices of rows -/

/-- The feature rows. -/
abbrev rowsA (x0 : (⟨S16384x128, .f32⟩ : BufTy).Contents (Elt Ideal)) : Fin 16384 → Fin 128 → EReal := fun r k => x0 (ix2 r k)
/-- The centre rows. -/
abbrev rowsB (x2 : (⟨S1000x128, .f32⟩ : BufTy).Contents (Elt Ideal)) : Fin 1000 → Fin 128 → EReal := fun j k => x2 (ix2 j k)

variable (x0 : (⟨S16384x128, .f32⟩ : BufTy).Contents (Elt Ideal)) (x1 : (⟨S16384, .i32⟩ : BufTy).Contents (Elt Ideal))
  (x2 : (⟨S1000x128, .f32⟩ : BufTy).Contents (Elt Ideal))

/-! ## Squared norms, inner products, distances -/

/-- The feature rows' squared norms. -/
theorem sqnA (r : Fin 16384) : val_main_v1 (F := Ideal) x0 (ix1 r) = Loss.sqn (rowsA x0) r := by
  rw [val_main_v1_apply, val_main_cst_apply, Ideal.ofBits_def, Ideal.ofBits_zero_f32, zero_add]
  unfold Loss.sqn
  refine Finset.sum_congr rfl fun k _ => ?_
  rw [val_main_v0_apply, Ideal.mulf_def, idx2_ext (idx_main_v1 (ix1 r) k) (ix2 r k) rfl rfl]

/-- The centre rows' squared norms (the reference computes them three times). -/
theorem sqnB10 (j : Fin 1000) : val_main_v10 (F := Ideal) x2 (ix1 j) = Loss.sqn (rowsB x2) j := by
  rw [val_main_v10_apply, val_main_cst_1_apply, Ideal.ofBits_def, Ideal.ofBits_zero_f32, zero_add]
  unfold Loss.sqn
  refine Finset.sum_congr rfl fun k _ => ?_
  rw [val_main_v9_apply, Ideal.mulf_def, idx2_ext (idx_main_v10 (ix1 j) k) (ix2 j k) rfl rfl]

/-- The feature–centre inner products. -/
theorem gramAB (r : Fin 16384) (j : Fin 1000) :
    val_main_v4 (F := Ideal) x0 x2 (ix2 r j) = Loss.gram (rowsA x0) (rowsB x2) r j := by
  rw [val_main_v4_apply]
  unfold Loss.gram
  refine Finset.sum_congr rfl fun k _ => ?_
  rw [val_main_v3_apply, idx2_ext (lidx_main_v4 (ix2 r j) k) (ix2 r k) rfl rfl,
    idx2_ext (idx_main_v3 (ridx_main_v4 (ix2 r j) k)) (ix2 j k) rfl rfl]

/-- The feature–centre distances. -/
theorem distAB (r : Fin 16384) (j : Fin 1000) :
    val_main_v16 (F := Ideal) x0 x2 (ix2 r j) = Loss.dist (rowsA x0) (rowsB x2) r j := by
  rw [val_main_v16_apply, val_main_v15_apply, val_main_v13_apply, val_main_v8_apply, val_main_v6_apply, val_main_v5_apply,
    val_main_cst_0_apply, val_main_v7_apply, val_main_v2_apply, val_main_v12_apply, val_main_v11_apply, val_main_v14_apply,
    val_main_cst_2_apply, gramAB,
    idx1_ext (idx_main_v2 (idx_main_v7 (ix2 r j))) (ix1 r) rfl, idx1_ext (idx_main_v11 (idx_main_v12 (ix2 r j))) (ix1 j) rfl,
    sqnA, sqnB10]
  simp only [Ideal.hostUnary_sqrt_def, Ideal.maximumf_def, Ideal.addf_def, Ideal.subf_def, Ideal.mulf_def, Ideal.ofBits_def,
    Ideal.ofBits_zero_f32]
  rfl

/-- The logits. -/
theorem logitAB (r : Fin 16384) (j : Fin 1000) :
    val_main_v18 (F := Ideal) x0 x2 (ix2 r j) = Loss.logit (rowsA x0) (rowsB x2) r j := by
  rw [val_main_v18_apply, val_main_v17_apply, val_main_cst_3_apply, distAB, Ideal.mulf_def, Ideal.ofBits_def]
  rfl

/-! ## The row maximum, the shifted logits, the logarithm of the sum of their exponentials -/

/-- The word of minus infinity is the bottom element of the extended reals. -/
theorem negInf_eq_bot : Ideal.ofBits .f32 0xFF800000#32 = (⊥ : EReal) := by simp [Ideal.ofBits, Ideal.ieee]

/-- The row maxima: the fold of the maximum from minus infinity over the row's logits, and the maximum of that with
    minus infinity once more. -/
theorem rmaxAB (r : Fin 16384) :
    val_main_call0_v2 (F := Ideal) x0 x2 (ix1 r) = Loss.rmax (rowsA x0) (rowsB x2) r := by
  rw [val_main_call0_v2_apply, val_main_call0_v1_apply, val_main_call0_cst_0_apply]
  unfold val_main_call0_v0
  rw [Host.reduce_eq_fold_single FloatOps.maximumf _ _ reducesTo_S16384x1000_S16384_d1
    (by decide : S16384x1000.Reduces [1] S16384) h_S_, val_main_call0_cst_apply, Ideal.maximumf_def, Ideal.ofBits_def,
    negInf_eq_bot, max_eq_right bot_le]
  unfold Loss.rmax
  have hf : ∀ j : Fin 1000, val_main_v18 (F := Ideal) x0 x2 ((by decide : S16384x1000.Reduces [1] S16384).lift (ix1 r) j)
      = Loss.logit (rowsA x0) (rowsB x2) r j := fun j => by
    rw [idx2_ext ((by decide : S16384x1000.Reduces [1] S16384).lift (ix1 r) j) (ix2 r j) rfl rfl, logitAB]
  exact congrArg (fun f => Finset.fold max ⊥ f (Finset.univ : Finset (Fin 1000))) (funext hf)

/-- The shifted logits. -/
theorem shiftedAB (r : Fin 16384) (j : Fin 1000) :
    val_main_call0_v5 (F := Ideal) x0 x2 (ix2 r j)
      = Loss.logit (rowsA x0) (rowsB x2) r j - Loss.rmax (rowsA x0) (rowsB x2) r := by
  rw [val_main_call0_v5_apply, val_main_call0_v4_apply, val_main_call0_v3_apply, logitAB,
    idx1_ext (idx_main_call0_v3 (idx_main_call0_v4 (ix2 r j))) (ix1 r) rfl, rmaxAB, Ideal.subf_def]

/-- The logarithm of the sum of the shifted exponentials, a column of one entry per row. -/
theorem lseAB (r : Fin 16384) :
    val_main_call0_v9 (F := Ideal) x0 x2 (ix2 r (0 : Fin 1)) = Loss.lse (rowsA x0) (rowsB x2) r := by
  rw [val_main_call0_v9_apply, val_main_call0_v8_apply, val_main_call0_v7_apply, val_main_call0_cst_1_apply, Ideal.ofBits_def,
    Ideal.ofBits_zero_f32, zero_add, Ideal.hostUnary_log_def]
  unfold Loss.lse
  refine congrArg Ideal.log (Finset.sum_congr rfl fun j _ => ?_)
  rw [val_main_call0_v6_apply, Ideal.hostUnary_exp_def,
    idx2_ext (idx_main_call0_v7 (idx_main_call0_v8 (ix2 r (0 : Fin 1))) j) (ix2 r j) rfl rfl, shiftedAB]

/-- The log-probabilities. -/
theorem logpAB (r : Fin 16384) (j : Fin 1000) :
    val_main_v19 (F := Ideal) x0 x2 (ix2 r j)
      = (Loss.logit (rowsA x0) (rowsB x2) r j - Loss.rmax (rowsA x0) (rowsB x2) r) - Loss.lse (rowsA x0) (rowsB x2) r := by
  rw [val_main_v19_apply, val_main_call0_v10_apply, shiftedAB,
    idx2_ext (idx_main_call0_v10 (ix2 r j)) (ix2 r (0 : Fin 1)) rfl rfl, lseAB, Ideal.subf_def]

/-! ## The gather's index pairs

Column 0 of the pairs is the row number, column 1 the row's label; both are words of numbers far below 2^31, so the
wrap-around of a negative index adds nothing. -/

/-- A number below 2^31, written as a 32-bit word and read back signed, is itself. -/
theorem toInt_ofNat_small (n : Nat) (h : n < 2147483648) : (BitVec.ofNat 32 n).toInt = (n : Int) := by
  rw [BitVec.toInt_eq_toNat_of_lt (by rw [BitVec.toNat_ofNat]; omega), BitVec.toNat_ofNat]
  omega

/-- Such a word is not below zero. -/
theorem cmpi_slt_zero_small (n : Nat) (h : n < 2147483648) : IntOp.cmpi .slt (BitVec.ofNat 32 n) 0#32 = 0#1 := by
  refine eq_zero_of_ne_one fun hc => ?_
  rw [IntOp.cmpi_slt, toInt_ofNat_small n h, BitVec.toInt_zero] at hc
  omega

/-- So the select that wraps a negative index around leaves it alone. -/
theorem wrap_small (n : Nat) (h : n < 2147483648) (c : BitVec 32) :
    Scalar.select (IntOp.cmpi .slt (BitVec.ofNat 32 n) 0#32) c (BitVec.ofNat 32 n) = BitVec.ofNat 32 n := by
  rw [cmpi_slt_zero_small n h, select_zero]

/-- Read signed and clamped into an axis it lies on, such a word is its number. -/
theorem clamp_small (n m : Nat) (h : n ≤ m) (hm : m < 2147483648) : min (BitVec.ofNat 32 n).toInt.toNat m = n := by
  rw [toInt_ofNat_small n (by omega), Int.toNat_natCast]
  omega

variable (ℓ : Fin 16384 → Fin 1000) (hℓ : ∀ r : Fin 16384, x1 (ix1 r) = BitVec.ofNat 32 (ℓ r).val)

/-- Column 0 of the index pairs: the row number. -/
theorem pairs_col0 (r : Fin 16384) :
    val_main_v33 (F := Ideal) x1 (ix2 r (⟨0, Nat.zero_lt_two⟩ : Fin 2)) = BitVec.ofNat 32 r.val := by
  unfold val_main_v33
  rw [concatenate_pair_apply_left _ _ _ concatenates_S16384x1_S16384x1_S16384x2_d1 (ix2 r (⟨0, Nat.zero_lt_two⟩ : Fin 2)) rfl
    (ix2 r (0 : Fin 1)) (fun b => by match b with | ⟨0, _⟩ => rfl | ⟨1, _⟩ => rfl),
    val_main_v31_apply, idx1_ext (idx_main_v31 (ix2 r (0 : Fin 1))) (ix1 r) rfl, val_main_v25_apply, val_main_v22_apply,
    val_main_v20_apply, val_main_v21_apply, val_main_c_apply]
  exact wrap_small r.val (by have := r.isLt; omega) _

include hℓ in
/-- Column 1 of the index pairs: the row's label. -/
theorem pairs_col1 (r : Fin 16384) :
    val_main_v33 (F := Ideal) x1 (ix2 r (⟨1, Nat.one_lt_two⟩ : Fin 2)) = BitVec.ofNat 32 (ℓ r).val := by
  unfold val_main_v33
  rw [concatenate_pair_apply_right _ _ _ concatenates_S16384x1_S16384x1_S16384x2_d1 (ix2 r (⟨1, Nat.one_lt_two⟩ : Fin 2)) rfl rfl
    (ix2 r (0 : Fin 1)) (fun b hb => by match b with | ⟨0, _⟩ => rfl | ⟨1, _⟩ => exact absurd rfl hb) rfl,
    val_main_v32_apply, idx1_ext (idx_main_v32 (ix2 r (0 : Fin 1))) (ix1 r) rfl, val_main_v30_apply, val_main_v27_apply,
    val_main_v26_apply, val_main_c_5_apply, hℓ r]
  exact wrap_small (ℓ r).val (by have := (ℓ r).isLt; omega) _

include hℓ in
/-- The gathered log-probabilities: row r's log-probability of its label. -/
theorem gatheredAB (r : Fin 16384) :
    val_main_v34 (F := Ideal) x0 x1 x2 (ix1 r) = Loss.rRow (rowsA x0) (rowsB x2) ℓ r := by
  unfold val_main_v34 Loss.rRow
  have hg := Cert.LibGatherElem.gather_pair_apply (N := 16384) (K := 1000) (R := 16384) (by decide) (by decide)
    gather_S16384x1000_S16384x2_S16384_n_01_n_n_01_1_11_wf (val_main_v19 (F := Ideal) x0 x2) (val_main_v33 (F := Ideal) x1) r
  refine (hg.trans ?_ : Host.gather (Cert.LibGatherElem.pairDims 16384 1000 16384
    gather_S16384x1000_S16384x2_S16384_n_01_n_n_01_1_11_wf) (val_main_v19 (F := Ideal) x0 x2) (val_main_v33 (F := Ideal) x1) (ix1 r) = _)
  refine (congrArg (val_main_v19 (F := Ideal) x0 x2) (idx2_ext _ (ix2 r (ℓ r)) ?_ ?_)).trans (logpAB x0 x2 r (ℓ r))
  · show min (val_main_v33 (F := Ideal) x1 (ix2 r (⟨0, Nat.zero_lt_two⟩ : Fin 2))).toInt.toNat (16384 - 1) = r.val
    rw [pairs_col0]
    exact clamp_small r.val _ (by have := r.isLt; omega) (by decide)
  · show min (val_main_v33 (F := Ideal) x1 (ix2 r (⟨1, Nat.one_lt_two⟩ : Fin 2))).toInt.toNat (1000 - 1) = (ℓ r).val
    rw [pairs_col1 x1 ℓ hℓ]
    exact clamp_small (ℓ r).val _ (by have := (ℓ r).isLt; omega) (by decide)

/-! ## The centre–centre half -/

/-- The centre rows' squared norms, as the contrastive term computes them down the rows … -/
theorem sqnB39 (j : Fin 1000) : val_main_v39 (F := Ideal) x2 (ix1 j) = Loss.sqn (rowsB x2) j := by
  rw [val_main_v39_apply, val_main_cst_9_apply, Ideal.ofBits_def, Ideal.ofBits_zero_f32, zero_add]
  unfold Loss.sqn
  refine Finset.sum_congr rfl fun k _ => ?_
  rw [val_main_v38_apply, Ideal.mulf_def, idx2_ext (idx_main_v39 (ix1 j) k) (ix2 j k) rfl rfl]

/-- … and across the columns. -/
theorem sqnB48 (j : Fin 1000) : val_main_v48 (F := Ideal) x2 (ix1 j) = Loss.sqn (rowsB x2) j := by
  rw [val_main_v48_apply, val_main_cst_11_apply, Ideal.ofBits_def, Ideal.ofBits_zero_f32, zero_add]
  unfold Loss.sqn
  refine Finset.sum_congr rfl fun k _ => ?_
  rw [val_main_v47_apply, Ideal.mulf_def, idx2_ext (idx_main_v48 (ix1 j) k) (ix2 j k) rfl rfl]

/-- The centre–centre inner products. -/
theorem gramBB (i j : Fin 1000) :
    val_main_v42 (F := Ideal) x2 (ix2 i j) = Loss.gram (rowsB x2) (rowsB x2) i j := by
  rw [val_main_v42_apply]
  unfold Loss.gram
  refine Finset.sum_congr rfl fun k _ => ?_
  rw [val_main_v41_apply, idx2_ext (lidx_main_v42 (ix2 i j) k) (ix2 i k) rfl rfl,
    idx2_ext (idx_main_v41 (ridx_main_v42 (ix2 i j) k)) (ix2 j k) rfl rfl]

/-- The clamped squared distances between centres: what the distance is the root of. -/
theorem sqdistBB (i j : Fin 1000) :
    Ideal.sqrt (val_main_v59 (F := Ideal) x2 (ix2 i j)) = Loss.dist (rowsB x2) (rowsB x2) i j := by
  rw [val_main_v59_apply, val_main_v51_apply, val_main_v46_apply, val_main_v44_apply, val_main_v43_apply, val_main_cst_10_apply,
    val_main_v45_apply, val_main_v40_apply, val_main_v50_apply, val_main_v49_apply, val_main_v58_apply, val_main_cst_13_apply,
    gramBB, idx1_ext (idx_main_v40 (idx_main_v45 (ix2 i j))) (ix1 i) rfl,
    idx1_ext (idx_main_v49 (idx_main_v50 (ix2 i j))) (ix1 j) rfl, sqnB39, sqnB48]
  simp only [Ideal.maximumf_def, Ideal.addf_def, Ideal.subf_def, Ideal.mulf_def, Ideal.ofBits_def, Ideal.ofBits_zero_f32]
  rfl

/-- Two numbers below 2^32 with the same 32-bit word are equal. -/
theorem ofNat_inj_small {a b : Nat} (ha : a < 4294967296) (hb : b < 4294967296)
    (h : BitVec.ofNat 32 a = BitVec.ofNat 32 b) : a = b := by
  have := congrArg BitVec.toNat h
  rw [BitVec.toNat_ofNat, BitVec.toNat_ofNat] at this
  omega

/-- The off-diagonal bit: 0 on the diagonal, 1 off it. -/
theorem offdiag (i j : Fin 1000) : val_main_v57 (F := Ideal) (ix2 i j) = if i = j then 0#1 else 1#1 := by
  rw [val_main_v57_apply, val_main_v56_apply, val_main_v55_apply, val_main_v52_apply, val_main_v53_apply, val_main_v54_apply,
    val_main_c_12_apply]
  show ~~~(IntOp.cmpi .eq (IntOp.addi (BitVec.ofNat 32 i.val) 0#32) (BitVec.ofNat 32 j.val)) = _
  unfold IntOp.addi
  rw [BitVec.add_zero]
  by_cases h : i = j
  · rw [if_pos h, h, IntOp.cmpi_eq.2 rfl]; decide
  · rw [if_neg h, eq_zero_of_ne_one fun hc => h (Fin.ext (ofNat_inj_small (by have := i.isLt; omega) (by have := j.isLt; omega)
      (IntOp.cmpi_eq.1 hc)))]
    decide

/-- The distances between centres with the diagonal zeroed. -/
theorem maskedBB (i j : Fin 1000) :
    val_main_v63 (F := Ideal) x2 (ix2 i j) = if i = j then 0 else Loss.dist (rowsB x2) (rowsB x2) i j := by
  rw [val_main_v63_apply, val_main_v61_apply, val_main_v60_apply, val_main_v62_apply, offdiag, Ideal.mulf_def,
    Ideal.hostUnary_sqrt_def]
  by_cases h : i = j
  · rw [if_pos h, if_pos h]
    show _ * (((0#1 : BitVec 1).toNat : ℝ) : EReal) = 0
    rw [show (((0#1 : BitVec 1).toNat : ℝ) : EReal) = 0 by simp, mul_zero]
  · rw [if_neg h, if_neg h, select_one, sqdistBB]
    show _ * (((1#1 : BitVec 1).toNat : ℝ) : EReal) = _
    rw [show (((1#1 : BitVec 1).toNat : ℝ) : EReal) = 1 by simp, mul_one]

/-- The mean distance from a centre to the others. -/
theorem rowMeanB (i : Fin 1000) : val_main_v66 (F := Ideal) x2 (ix1 i) = Loss.rowMean (rowsB x2) i := by
  rw [val_main_v66_apply, val_main_v65_apply, val_main_cst_16_apply, val_main_v64_apply, val_main_cst_15_apply, Ideal.ofBits_def,
    Ideal.ofBits_def, Ideal.ofBits_zero_f32, zero_add, Ideal.hostDivf_def]
  unfold Loss.rowMean Loss.nOthers
  refine congrArg (fun s => Ideal.div s _) (Finset.sum_congr rfl fun j _ => ?_)
  rw [idx2_ext (idx_main_v64 (ix1 i) j) (ix2 i j) rfl rfl, maskedBB]

include hℓ in
/-- The gathered means: the mean of row r's own centre. -/
theorem gatheredB (r : Fin 16384) :
    val_main_v73 (F := Ideal) x1 x2 (ix1 r) = Loss.rowMean (rowsB x2) (ℓ r) := by
  unfold val_main_v73
  have hg := Cert.LibGatherElem.gather_vec_apply (N := 1000) (R := 16384) (by decide)
    gather_S1000_S16384x1_S16384_n_0_n_n_0_1_1_wf (val_main_v66 (F := Ideal) x2) (val_main_v72 (F := Ideal) x1) r
  refine (hg.trans ?_ : Host.gather (Cert.LibGatherElem.vecDims 1000 16384
    gather_S1000_S16384x1_S16384_n_0_n_n_0_1_1_wf) (val_main_v66 (F := Ideal) x2) (val_main_v72 (F := Ideal) x1) (ix1 r) = _)
  refine (congrArg (val_main_v66 (F := Ideal) x2) (idx1_ext _ (ix1 (ℓ r)) ?_)).trans (rowMeanB x2 (ℓ r))
  show min (val_main_v72 (F := Ideal) x1 (ix2 r (⟨0, Nat.one_pos⟩ : Fin 1))).toInt.toNat (1000 - 1) = (ℓ r).val
  rw [val_main_v72_apply, idx1_ext (idx_main_v72 (ix2 r (⟨0, Nat.one_pos⟩ : Fin 1))) (ix1 r) rfl, val_main_v71_apply,
    val_main_v68_apply, val_main_v67_apply, val_main_c_17_apply, hℓ r, wrap_small (ℓ r).val (by have := (ℓ r).isLt; omega)]
  exact clamp_small (ℓ r).val _ (by have := (ℓ r).isLt; omega) (by decide)

include hℓ in
/-- Row r's contrastive term. -/
theorem hingeB (r : Fin 16384) :
    val_main_v77 (F := Ideal) x1 x2 (ix1 r) = Loss.rHinge (rowsB x2) ℓ r := by
  rw [val_main_v77_apply, val_main_v75_apply, val_main_v74_apply, val_main_cst_19_apply, val_main_v76_apply, val_main_cst_20_apply,
    gatheredB x1 x2 ℓ hℓ, Ideal.maximumf_def, Ideal.subf_def, Ideal.ofBits_def, Ideal.ofBits_def, Ideal.ofBits_zero_f32]
  rfl

end Stages

/-! ## The two means and their sum -/

/-- A sum over a rank-1 index set is the sum over its coordinate. -/
theorem sum_idx1 {M : Type} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- The reference's result is the loss. -/
theorem result_eq (x0 : (⟨Cert.ReferenceIdeal.S16384x128, .f32⟩ : BufTy).Contents (Elt Ideal))
    (x1 : (⟨Cert.ReferenceIdeal.S16384, .i32⟩ : BufTy).Contents (Elt Ideal))
    (x2 : (⟨Cert.ReferenceIdeal.S1000x128, .f32⟩ : BufTy).Contents (Elt Ideal)) (ℓ : Fin 16384 → Fin 1000)
    (hℓ : ∀ r : Fin 16384, x1 (ix1 r) = BitVec.ofNat 32 (ℓ r).val) :
    Cert.ReferenceIdeal.Read.val_main_v81 (F := Ideal) x0 x1 x2
      = fun _ => Cert.Loss.rTotal (fun r k => x0 (ix2 r k)) (fun j k => x2 (ix2 j k)) ℓ := by
  funext i
  rw [val_main_v81_apply, val_main_v37_apply, val_main_v36_apply, val_main_v35_apply, val_main_cst_7_apply, val_main_cst_8_apply,
    val_main_v80_apply, val_main_cst_23_apply, val_main_v79_apply, val_main_v78_apply, val_main_cst_21_apply,
    val_main_cst_22_apply, sum_idx1, sum_idx1]
  simp only [gatheredAB x0 x1 x2 ℓ hℓ, hingeB x1 x2 ℓ hℓ, Ideal.addf_def, Ideal.mulf_def, Ideal.hostDivf_def, Ideal.hostNegf_def,
    Ideal.negf_def, Ideal.ofBits_def, Ideal.ofBits_zero_f32, zero_add]
  rfl

end Cert.RefValue

end
-- ==== Proof.LossAlgebra.lean ====
/-
  The two forms of the loss agree on real data.

  When every entry of the feature rows and of the centre rows is a real number, every quantity the loss is built
  from is a real number: the squared norms and inner products are finite sums of products of reals, the argument
  of the root is clamped at 0 and so the distance is a real, the largest logit is the maximum of a nonempty
  finite family of reals, the shifted exponentials are positive reals and so is their sum, whose logarithm is
  therefore a real.  On reals the kernel's row term `(m + L) + c · d` is the negative of the reference's
  `((-c) · d - m) - L`, the indicator sums pick out the label's entry, and the mean of the negatives is the
  negative of the mean.  The contrastive terms agree term by term with no hypothesis at all.
-/
import proofs.«416808_j65412351918314_2_alg».proof.Proof.Loss
import Mathlib.Data.EReal.Basic
import Mathlib.Data.EReal.Operations
import Mathlib.Data.EReal.Inv
import Mathlib.Analysis.Complex.Exponential
import Mathlib.Algebra.BigOperators.Group.Finset.Basic
import Mathlib.Algebra.Order.BigOperators.Group.Finset
import Mathlib.Data.Finset.Fold
import Mathlib.Order.MinMax

noncomputable section

namespace Cert.Loss

open Idealize.ShloMosaic

/-! ### The constants are real numbers -/

/-- The word `0x40000000` is the real 2. -/
theorem two_eq : two = ((2 : ℝ) : EReal) := by
  simp [two, Ideal.ofBits, Ideal.ieee, -EReal.coe_mul]; norm_num

/-- The word `0x3DCCCCCD` is the real `13421773 / 2^27`. -/
theorem tenth_eq : tenth = (((13421773 : ℝ) / 134217728 : ℝ) : EReal) := by
  simp [tenth, Ideal.ofBits, Ideal.ieee, -EReal.coe_mul]; norm_num

/-- The word `0xBDCCCCCD` differs from the previous one in the sign bit only. -/
theorem negTenth_eq : negTenth = ((-((13421773 : ℝ) / 134217728) : ℝ) : EReal) := by
  simp [negTenth, Ideal.ofBits, Ideal.ieee, -EReal.coe_mul, -EReal.coe_neg]; norm_num

/-- The word `0x46800000` is the real 16384. -/
theorem nRows_eq : nRows = ((16384 : ℝ) : EReal) := by
  simp [nRows, Ideal.ofBits, Ideal.ieee, -EReal.coe_mul]; norm_num

/-! ### Coercion of finite sums and of maxima -/

/-- The coercion of the reals into the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The coercion commutes with `max`. -/
theorem coe_max (x y : ℝ) : max (x : EReal) (y : EReal) = ((max x y : ℝ) : EReal) :=
  (EReal.coe_strictMono.monotone.map_max).symm

/-! ### Real data -/

/-- A family of real rows read as a family of extended-real rows. -/
def up {n : Nat} (a : Fin n → Fin 128 → ℝ) : Fin n → Fin 128 → EReal := fun r k => ((a r k : ℝ) : EReal)

/-- A family whose entries are all real numbers is the reading of a real family. -/
theorem exists_up {n : Nat} (A : Fin n → Fin 128 → EReal) (hA : ∀ r k, ∃ x : ℝ, A r k = (x : EReal)) :
    ∃ a : Fin n → Fin 128 → ℝ, A = up a := by
  choose a ha using hA
  exact ⟨a, funext fun r => funext fun k => ha r k⟩

/-- The squared norm of a real row is a real number. -/
theorem sqn_up {n : Nat} (a : Fin n → Fin 128 → ℝ) (r : Fin n) :
    sqn (up a) r = ((∑ k : Fin 128, a r k * a r k : ℝ) : EReal) := by
  rw [← coe_sum]
  exact Finset.sum_congr rfl fun k _ => (EReal.coe_mul _ _).symm

/-- The inner product of two real rows is a real number. -/
theorem gram_up {n m : Nat} (a : Fin n → Fin 128 → ℝ) (b : Fin m → Fin 128 → ℝ) (r : Fin n) (j : Fin m) :
    gram (up a) (up b) r j = ((∑ k : Fin 128, a r k * b j k : ℝ) : EReal) := by
  rw [← coe_sum]
  exact Finset.sum_congr rfl fun k _ => (EReal.coe_mul _ _).symm

/-- The distance between two real rows is a real number: the argument of the root is clamped at 0. -/
theorem dist_up {n m : Nat} (a : Fin n → Fin 128 → ℝ) (b : Fin m → Fin 128 → ℝ) (r : Fin n) (j : Fin m) :
    ∃ d : ℝ, dist (up a) (up b) r j = (d : EReal) := by
  unfold dist
  rw [sqn_up, gram_up, sqn_up, two_eq, ← EReal.coe_mul, ← EReal.coe_sub, ← EReal.coe_add, ← EReal.coe_zero,
    coe_max, Ideal.sqrt_coe, if_neg (not_lt.mpr (le_max_right _ _))]
  exact ⟨_, rfl⟩

/-! ### The largest logit and the logarithm of the sum of exponentials -/

/-- The fold of `max` from `-∞` over a finite family of reals is `-∞` only on the empty family; otherwise
    it is a real number. -/
theorem fold_max_real {ι : Type*} [DecidableEq ι] (f : ι → ℝ) (s : Finset ι) :
    s = ∅ ∨ ∃ m : ℝ, s.fold max ⊥ (fun i => ((f i : ℝ) : EReal)) = (m : EReal) := by
  induction s using Finset.induction_on with
  | empty => exact Or.inl rfl
  | insert a s ha ih =>
    right
    rw [Finset.fold_insert ha]
    rcases ih with rfl | ⟨m, hm⟩
    · exact ⟨f a, by simp⟩
    · exact ⟨max (f a) m, by rw [hm, coe_max]⟩

/-- The largest of 1000 real logits is a real number. -/
theorem rmax_real {n : Nat} (A : Fin n → Fin 128 → EReal) (B : Fin 1000 → Fin 128 → EReal) (r : Fin n)
    (lg : Fin 1000 → ℝ) (hlg : ∀ j, logit A B r j = (lg j : EReal)) : ∃ m : ℝ, rmax A B r = (m : EReal) := by
  unfold rmax
  rw [show (fun j => logit A B r j) = fun j => ((lg j : ℝ) : EReal) from funext hlg]
  rcases fold_max_real lg Finset.univ with h | h
  · exact absurd h (Finset.univ_nonempty (α := Fin 1000)).ne_empty
  · exact h

/-- The shifted exponentials of real logits are positive reals, so is their sum, and its logarithm is a real. -/
theorem lse_real {n : Nat} (A : Fin n → Fin 128 → EReal) (B : Fin 1000 → Fin 128 → EReal) (r : Fin n)
    (lg : Fin 1000 → ℝ) (m : ℝ) (hlg : ∀ j, logit A B r j = (lg j : EReal)) (hm : rmax A B r = (m : EReal)) :
    ∃ L : ℝ, lse A B r = (L : EReal) := by
  unfold lse
  have he : ∀ j, Ideal.exp (logit A B r j - rmax A B r) = ((Real.exp (lg j - m) : ℝ) : EReal) := fun j => by
    rw [hlg, hm, ← EReal.coe_sub, Ideal.exp_coe]
  rw [Finset.sum_congr rfl fun j _ => he j, coe_sum, Ideal.log_coe,
    if_neg (not_le.mpr (Finset.sum_pos (fun j _ => Real.exp_pos _) Finset.univ_nonempty))]
  exact ⟨_, rfl⟩

/-! ### The indicator sums -/

/-- A sum against the indicator of one index is the entry at that index. -/
theorem sum_indicator (f : Fin 1000 → EReal) (l : Fin 1000) :
    ∑ j : Fin 1000, (if j = l then (1 : EReal) else 0) * f j = f l := by
  rw [Finset.sum_eq_single l]
  · rw [if_pos rfl, one_mul]
  · intro j _ hj
    rw [if_neg hj, zero_mul]
  · intro h
    exact absurd (Finset.mem_univ l) h

/-- The two forms of the contrastive term are the same extended real, whatever the data. -/
theorem kHinge_eq_rHinge {n : Nat} (B : Fin 1000 → Fin 128 → EReal) (ℓ : Fin n → Fin 1000) (r : Fin n) :
    kHinge B ℓ r = rHinge B ℓ r := by
  unfold kHinge rHinge
  rw [sum_indicator]

/-! ### The two forms of a row's cross-entropy -/

/-- On real data the kernel's row term is a real number `κ` and the reference's is `-κ`: with `d` the distance
    to the label's centre, `m` the largest logit, `L` the logarithm of the sum of exponentials and `c` the
    binary value of the word for one tenth, the first is `(m + L) + c · d` and the second
    `((-c) · d - m) - L`. -/
theorem row_real {n : Nat} (a : Fin n → Fin 128 → ℝ) (b : Fin 1000 → Fin 128 → ℝ) (ℓ : Fin n → Fin 1000)
    (r : Fin n) :
    ∃ κ : ℝ, kRow (up a) (up b) ℓ r = (κ : EReal) ∧ rRow (up a) (up b) ℓ r = ((-κ : ℝ) : EReal) := by
  choose d hd using fun j => dist_up a b r j
  have hlg : ∀ j, logit (up a) (up b) r j = ((-((13421773 : ℝ) / 134217728) * d j : ℝ) : EReal) := fun j => by
    unfold logit
    rw [hd, negTenth_eq, ← EReal.coe_mul]
  obtain ⟨m, hm⟩ := rmax_real (up a) (up b) r _ hlg
  obtain ⟨L, hL⟩ := lse_real (up a) (up b) r _ m hlg hm
  refine ⟨m + L + (13421773 : ℝ) / 134217728 * d (ℓ r), ?_, ?_⟩
  · unfold kRow
    rw [sum_indicator, hm, hL, hd, tenth_eq, ← EReal.coe_add, ← EReal.coe_mul, ← EReal.coe_add]
  · unfold rRow
    rw [hlg, hm, hL, ← EReal.coe_sub, ← EReal.coe_sub]
    congr 1
    ring

/-! ### The totals -/

/-- With every entry of the feature rows and of the centre rows a real number, the kernel's loss and the
    reference's loss are the same extended real. -/
theorem kTotal_eq_rTotal (A : Fin 16384 → Fin 128 → EReal) (B : Fin 1000 → Fin 128 → EReal) (ℓ : Fin 16384 → Fin 1000)
    (hA : ∀ r k, ∃ x : ℝ, A r k = (x : EReal)) (hB : ∀ j k, ∃ x : ℝ, B j k = (x : EReal)) :
    kTotal A B ℓ = rTotal A B ℓ := by
  obtain ⟨a, rfl⟩ := exists_up A hA
  obtain ⟨b, rfl⟩ := exists_up B hB
  choose κ hk hr using fun r => row_real a b ℓ r
  unfold kTotal rTotal
  rw [Finset.sum_congr rfl fun r _ => hk r, Finset.sum_congr rfl fun r _ => hr r,
    Finset.sum_congr rfl fun r _ => kHinge_eq_rHinge (up b) ℓ r, coe_sum, coe_sum, nRows_eq,
    Ideal.div_coe (by norm_num) (((∑ r : Fin 16384, κ r : ℝ) : EReal)),
    Ideal.div_coe (by norm_num) (((∑ r : Fin 16384, -κ r : ℝ) : EReal)),
    ← EReal.coe_mul, ← EReal.coe_mul, ← EReal.coe_neg, Finset.sum_neg_distrib, neg_mul, neg_neg]

end Cert.Loss

end
-- ==== Proof.PreFacts.lean ====
/-
  The precondition, decoded.  The printed predicate is the conjunction of three "for all" statements, each a
  reduction by `and` of a one-bit array into a single bit: every feature entry has `|x| < +∞`, every centre entry
  has `|x| < +∞`, and every label word `w`, read as a signed integer, has `0 ≤ w` and `w < 1000`.  When the
  predicate is the bit 1, each conjunct is 1, each reduction is 1 at every element, and so:

  * an extended real `x` with `max x (-x) < ⊤` is neither `⊤` nor `⊥` (for both of these `max x (-x) = ⊤`), hence a real
    number — the f32 pattern `0x7F800000` denotes `⊤`;
  * a 32-bit word whose signed value lies in `[0, 1000)` has its sign bit clear, so its unsigned value is its signed
    value and is below 1000.
-/
import proofs.«416808_j65412351918314_2_alg».proof.Pre_finite_inputs
import proofs.«416808_j65412351918314_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic

/-- The rank-0 shape has one index. -/
instance : Subsingleton Cert.Pre_finite_inputs.S_.Idx := ⟨fun a b => funext fun d => d.elim0⟩

/-- The f32 pattern with exponent all ones and fraction zero, sign clear, denotes `+∞`. -/
theorem posInf_bits : Ideal.ofBits .f32 0x7F800000#32 = (⊤ : EReal) := by
  simp [Ideal.ofBits, Ideal.ieee]

/-- An extended real whose absolute value `max x (-x)` is strictly below `⊤` is a real number: at `⊤` the maximum is
    `⊤`, and at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The printed comparison `|x| < +∞` at one entry, read back. -/
theorem real_of_cmp (x : Ideal .f32)
    (h : FloatOps.cmpf (F := Ideal) .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [posInf_bits] at h
  simp only [Ideal.cmp, StableHlo.Predicate.ofBool_eq_one_iff, decide_eq_true_eq] at h
  exact real_of_abs_lt_top x h

/-- A 32-bit word whose signed value is at least 0 and below 1000 has unsigned value below 1000: with the sign bit
    set the signed value would be negative. -/
theorem toNat_lt_of_signed (w : BitVec 32) (h0 : IntOp.cmpi .sge w 0#32 = 1#1) (h1 : IntOp.cmpi .slt w 1000#32 = 1#1) :
    w.toNat < 1000 := by
  simp only [IntOp.cmpi, StableHlo.Predicate.ofBool_eq_one_iff, BitVec.sle, BitVec.slt, decide_eq_true_eq] at h0 h1
  have z : (0#32 : BitVec 32).toInt = 0 := by decide
  have k : (1000#32 : BitVec 32).toInt = 1000 := by decide
  rw [z] at h0
  rw [k] at h1
  rw [BitVec.toInt_eq_toNat_cond] at h0 h1
  have hw := w.isLt
  split at h0 <;> omega

/-- THE PRECONDITION DECODED: every feature entry and every centre entry is a real number, and every label is a word
    below 1000. -/
theorem of_pre (x0 : FVec Ideal Cert.Pre_finite_inputs.S16384x128 .f32) (x1 : IVec Cert.Pre_finite_inputs.S16384 32)
    (x2 : FVec Ideal Cert.Pre_finite_inputs.S1000x128 .f32)
    (h : @Cert.Pre_finite_inputs.fn Cert.Pre_finite_inputs.Gen.facts Ideal _ x0 x1 x2 = fun _ => 1#1) :
    (∀ i, ∃ r : ℝ, x0 i = (r : EReal)) ∧ (∀ i, ∃ r : ℝ, x2 i = (r : EReal)) ∧ (∀ i, (x1 i).toNat < 1000) := by
  have e := congrFun h ValueIdx.ix0
  dsimp only [Cert.Pre_finite_inputs.fn] at e
  obtain ⟨h02, h1⟩ := IntOp.andi_eq_one.1 e
  obtain ⟨h0, h2⟩ := IntOp.andi_eq_one.1 h02
  refine ⟨fun i => ?_, fun i => ?_, fun i => ?_⟩
  · exact real_of_cmp (x0 i) (Host.reduce_andi_all _ _ _ _ ValueIdx.ix0 h0 i)
  · exact real_of_cmp (x2 i) (Host.reduce_andi_all _ _ _ _ ValueIdx.ix0 h2 i)
  · obtain ⟨hge, hlt⟩ := IntOp.andi_eq_one.1 (Host.reduce_andi_all _ _ _ _ ValueIdx.ix0 h1 i)
    exact toNat_lt_of_signed (x1 i) hge hlt

end Cert.PreFacts

end
-- ==== Proof.lean ====
/-
  The certificate: the Pallas kernel (two pallas_calls: the centres' row means, then the per-tile partial sums of the
  loss accumulated over a 2 × 16 grid, with a host tail that adds the two grid rows and takes the means) against its jnp
  reference, over the extended reals, for finite features and centres and labels in [0, 1000).

  Both programs compute  mean_r CE_r + 1 · mean_r max(20 − rowMean(ℓ_r), 0):  the distance of feature row r to centre j is
  the root of the clamped Gram form, the logits are −0.1 · distance, CE_r is minus the log-softmax of row r at its label
  ℓ_r, and rowMean(i) the mean distance of centre i to the other 999 centres.  The kernel forms CE_r as
  (row maximum + log of the sum of shifted exponentials) + 0.1 · Σ_j [j = ℓ_r] · distance(r, j), reading the label through
  an indicator; the reference forms the log-probability (logit(r, ℓ_r) − maximum) − log-sum and negates after the mean,
  reading the label by a gather.  With every entry a real number the two agree term by term (the word of −0.1 is the
  negative of the word of 0.1; an indicator sum is the entry at the label), which is the algebra module; a label outside
  [0, 1000) would make the indicator vanish while the gather wraps or clamps, hence the range in the precondition.

  The three frames: the reference's is its run with the result dropped; the kernel's two (the word-level program and its
  idealization are the same text) are the launch of the two regions and the two host stretches, each region's body
  obligation proved over the blocks it reads.  The idealization rewrote no operation, so `preserves` is trivial.
-/
import proofs.«416808_j65412351918314_2_alg».proof.Defs
import proofs.«416808_j65412351918314_2_alg».proof.Proof.Gen.Kernel
import proofs.«416808_j65412351918314_2_alg».proof.Proof.Gen.Kernel.Skeleton
import proofs.«416808_j65412351918314_2_alg».proof.Proof.Gen.Kernel.Launch
import proofs.«416808_j65412351918314_2_alg».proof.Proof.Gen.Kernel.Regions
import proofs.«416808_j65412351918314_2_alg».proof.Proof.Gen.Kernel.Points
import proofs.«416808_j65412351918314_2_alg».proof.Proof.Gen.KernelIdeal
import proofs.«416808_j65412351918314_2_alg».proof.Proof.Gen.KernelIdeal.Skeleton
import proofs.«416808_j65412351918314_2_alg».proof.Proof.Gen.KernelIdeal.Launch
import proofs.«416808_j65412351918314_2_alg».proof.Proof.Gen.KernelIdeal.Regions
import proofs.«416808_j65412351918314_2_alg».proof.Proof.Gen.KernelIdeal.Points
import proofs.«416808_j65412351918314_2_alg».proof.Proof.Gen.ReferenceIdeal
import proofs.«416808_j65412351918314_2_alg».proof.Proof.Gen.Pre_finite_inputs
import proofs.«416808_j65412351918314_2_alg».proof.Proof.BRun
import proofs.«416808_j65412351918314_2_alg».proof.Proof.KRun
import proofs.«416808_j65412351918314_2_alg».proof.Proof.KValue
import proofs.«416808_j65412351918314_2_alg».proof.Proof.RefRun
import proofs.«416808_j65412351918314_2_alg».proof.Proof.RefValue
import proofs.«416808_j65412351918314_2_alg».proof.Proof.LossAlgebra
import proofs.«416808_j65412351918314_2_alg».proof.Proof.PreFacts
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- A 32-bit word below 1000 is the word of its own value. -/
theorem word_eq_ofNat (w : BitVec 32) : w = BitVec.ofNat 32 w.toNat := by
  apply BitVec.eq_of_toNat_eq; rw [BitVec.toNat_ofNat]; exact (Nat.mod_eq_of_lt w.isLt).symm

/-- From memories that agree on the arguments, under the precondition, both idealized programs run and end with the same
    loss: the kernel's result is `Loss.kTotal`, the reference's `Loss.rTotal`, and the two are equal on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W4 (F := Ideal) m ρ c (Proc.devRef .tc Cert.KernelIdeal.main_v8), ?_, ?_⟩
  · exact (θ_run Cert.KernelIdeal.defs _ _).mono (fun r h c =>
      ⟨h c _ (Cert.KernelIdeal.Hand.mem_uc Cert.KernelIdeal.main_v8 (by decide)),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c)⟩)
      (Cert.KernelIdeal.Hand.run_all (F := Ideal) m ρ)
  · refine (θ_run Cert.ReferenceIdeal.defs _ _).mono (fun r h c => ⟨?_, (h c).2⟩)
      (Cert.ReferenceIdeal.Value.run (F := Ideal) m' ρ')
    obtain ⟨hA, hB, hL⟩ := Cert.PreFacts.of_pre _ _ _ (hpre c)
    -- the labels as numbers below 1000
    let ℓ : Fin 16384 → Fin 1000 := fun r => ⟨_, hL (ix1 r)⟩
    have hℓ : ∀ r : Fin 16384, (m ((c.tc : Thread Cert.KernelIdeal.nD Cert.KernelIdeal.τ).loc Cert.KernelIdeal.main_arg1) : Cert.KernelIdeal.S16384.Idx → BitVec 32) (ix1 r)
        = BitVec.ofNat 32 (ℓ r).val := fun r => word_eq_ofNat _
    rw [(h c).1, (hagree c).1, (hagree c).2.1, (hagree c).2.2]
    rw [Cert.RefValue.result_eq _ _ _ ℓ hℓ]
    refine Eq.trans ?_ (Cert.KernelIdeal.KValue.result_eq m ρ c ℓ hℓ).symm
    funext _
    exact (Cert.Loss.kTotal_eq_rTotal _ _ ℓ (fun r k => hA (ix2 r k)) (fun j k => hB (ix2 j k))).symm

/-- The claim: the three frames, the (empty) idealization ledger, and the equality of the results. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
